-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1600x64 : Shape := ⟨3, ![2048, 1600, 64]⟩
abbrev S_ : Shape := ⟨0, ![]⟩

class Facts : Prop where
  bcast_S_S2048x1600x64 : S_.BroadcastsInDim S2048x1600x64 (![] : Fin 0 → Fin S2048x1600x64.rank)
  reducesTo_S2048x1600x64_S_d0_1_2 : S2048x1600x64.ReducesTo [0, 1, 2] S_
  h_S_ : 0 < S_.numel

variable [Facts]

def fn {F : FTy → Type} [FloatOps F] (main_arg0 : FVec F S2048x1600x64 .f32) : IVec S_ 1 :=
  let main_v0 : FVec F S2048x1600x64 .f32 := Host.absf main_arg0
  let main_cst : FVec F S_ .f32 := constant S_ .f32 0x7F800000#32
  let main_v1 : FVec F S2048x1600x64 .f32 := broadcastInDim S2048x1600x64 ![] bcast_S_S2048x1600x64 main_cst
  let main_v2 : IVec S2048x1600x64 1 := cmpf .olt main_v0 main_v1
  let main_c : IVec S_ 1 := constantI S_ 1 1#1
  let main_v3 : IVec S_ 1 := (fun x v => Host.reduce IntOp.andi x v reducesTo_S2048x1600x64_S_d0_1_2 h_S_) main_v2 main_c
  main_v3
-- ==== Kernel.lean ====
abbrev S2048x1600x64 : Shape := ⟨3, ![2048, 1600, 64]⟩
abbrev S2048x780x64 : Shape := ⟨3, ![2048, 780, 64]⟩
abbrev S16x1600x64 : Shape := ⟨3, ![16, 1600, 64]⟩
abbrev S16x780x64 : Shape := ⟨3, ![16, 780, 64]⟩
abbrev S16x39x64 : Shape := ⟨3, ![16, 39, 64]⟩
abbrev S16x1x64 : Shape := ⟨3, ![16, 1, 64]⟩
abbrev S16x64 : Shape := ⟨2, ![16, 64]⟩
abbrev S16x38x64 : Shape := ⟨3, ![16, 38, 64]⟩
abbrev S16x37x64 : Shape := ⟨3, ![16, 37, 64]⟩
abbrev S16x36x64 : Shape := ⟨3, ![16, 36, 64]⟩
abbrev S16x35x64 : Shape := ⟨3, ![16, 35, 64]⟩
abbrev S16x34x64 : Shape := ⟨3, ![16, 34, 64]⟩
abbrev S16x33x64 : Shape := ⟨3, ![16, 33, 64]⟩
abbrev S16x32x64 : Shape := ⟨3, ![16, 32, 64]⟩
abbrev S16x31x64 : Shape := ⟨3, ![16, 31, 64]⟩
abbrev S16x30x64 : Shape := ⟨3, ![16, 30, 64]⟩
abbrev S16x29x64 : Shape := ⟨3, ![16, 29, 64]⟩
abbrev S16x28x64 : Shape := ⟨3, ![16, 28, 64]⟩
abbrev S16x27x64 : Shape := ⟨3, ![16, 27, 64]⟩
abbrev S16x26x64 : Shape := ⟨3, ![16, 26, 64]⟩
abbrev S16x25x64 : Shape := ⟨3, ![16, 25, 64]⟩
abbrev S16x24x64 : Shape := ⟨3, ![16, 24, 64]⟩
abbrev S16x23x64 : Shape := ⟨3, ![16, 23, 64]⟩
abbrev S16x22x64 : Shape := ⟨3, ![16, 22, 64]⟩
abbrev S16x21x64 : Shape := ⟨3, ![16, 21, 64]⟩
abbrev S16x20x64 : Shape := ⟨3, ![16, 20, 64]⟩
abbrev S16x19x64 : Shape := ⟨3, ![16, 19, 64]⟩
abbrev S16x18x64 : Shape := ⟨3, ![16, 18, 64]⟩
abbrev S16x17x64 : Shape := ⟨3, ![16, 17, 64]⟩
abbrev S16x16x64 : Shape := ⟨3, ![16, 16, 64]⟩
abbrev S16x15x64 : Shape := ⟨3, ![16, 15, 64]⟩
abbrev S16x14x64 : Shape := ⟨3, ![16, 14, 64]⟩
abbrev S16x13x64 : Shape := ⟨3, ![16, 13, 64]⟩
abbrev S16x12x64 : Shape := ⟨3, ![16, 12, 64]⟩
abbrev S16x11x64 : Shape := ⟨3, ![16, 11, 64]⟩
abbrev S16x10x64 : Shape := ⟨3, ![16, 10, 64]⟩
abbrev S16x9x64 : Shape := ⟨3, ![16, 9, 64]⟩
abbrev S16x8x64 : Shape := ⟨3, ![16, 8, 64]⟩
abbrev S16x7x64 : Shape := ⟨3, ![16, 7, 64]⟩
abbrev S16x6x64 : Shape := ⟨3, ![16, 6, 64]⟩
abbrev S16x5x64 : Shape := ⟨3, ![16, 5, 64]⟩
abbrev S16x4x64 : Shape := ⟨3, ![16, 4, 64]⟩
abbrev S16x3x64 : Shape := ⟨3, ![16, 3, 64]⟩
abbrev S16x2x64 : Shape := ⟨3, ![16, 2, 64]⟩

abbrev nBuf : Space → Nat
  | .hbm => 2
  | .vmem => 4
  | .smem => 0
  | _ => 0

abbrev bufTy : (tb : Table) → Fin (tcTables nBuf tb) → BufTy
  | .hbm, ⟨0, _⟩ => ⟨S2048x1600x64, .f32⟩
  | .hbm, ⟨1, _⟩ => ⟨S2048x780x64, .f32⟩
  | .local _ .vmem, ⟨0, _⟩ => ⟨S16x1600x64, .f32⟩
  | .local _ .vmem, ⟨1, _⟩ => ⟨S16x1600x64, .f32⟩
  | .local _ .vmem, ⟨2, _⟩ => ⟨S16x780x64, .f32⟩
  | .local _ .vmem, ⟨3, _⟩ => ⟨S16x780x64, .f32⟩
  | _, _ => ⟨S2048x1600x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1600x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x780x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S16x1600x64_S16x39x64_0_1_0 : ∀ a, (![0, 1, 0] : Fin 3 → Nat) a + S16x39x64.size a ≤ S16x1600x64.size a
  h_S16x39x64 : 0 < S16x39x64.numel
  inb_S16x1600x64_S16x1x64_0_40_0 : ∀ a, (![0, 40, 0] : Fin 3 → Nat) a + S16x1x64.size a ≤ S16x1600x64.size a
  h_S16x1x64 : 0 < S16x1x64.numel
  shapeCasts_S16x1x64_S16x64 : S16x1x64.ShapeCasts S16x64
  inb_S16x1600x64_S16x1x64_0_80_0 : ∀ a, (![0, 80, 0] : Fin 3 → Nat) a + S16x1x64.size a ≤ S16x1600x64.size a
  inb_S16x1600x64_S16x1x64_0_120_0 : ∀ a, (![0, 120, 0] : Fin 3 → Nat) a + S16x1x64.size a ≤ S16x1600x64.size a
  inb_S16x1600x64_S16x1x64_0_160_0 : ∀ a, (![0, 160, 0] : Fin 3 → Nat) a + S16x1x64.size a ≤ S16x1600x64.size a
  inb_S16x1600x64_S16x1x64_0_200_0 : ∀ a, (![0, 200, 0] : Fin 3 → Nat) a + S16x1x64.size a ≤ S16x1600x64.size a
  inb_S16x1600x64_S16x1x64_0_240_0 : ∀ a, (![0, 240, 0] : Fin 3 → Nat) a + S16x1x64.size a ≤ S16x1600x64.size a
  inb_S16x1600x64_S16x1x64_0_280_0 : ∀ a, (![0, 280, 0] : Fin 3 → Nat) a + S16x1x64.size a ≤ S16x1600x64.size a
  inb_S16x1600x64_S16x1x64_0_320_0 : ∀ a, (![0, 320, 0] : Fin 3 → Nat) a + S16x1x64.size a ≤ S16x1600x64.size a
  inb_S16x1600x64_S16x1x64_0_360_0 : ∀ a, (![0, 360, 0] : Fin 3 → Nat) a + S16x1x64.size a ≤ S16x1600x64.size a
  inb_S16x1600x64_S16x1x64_0_400_0 : ∀ a, (![0, 400, 0] : Fin 3 → Nat) a + S16x1x64.size a ≤ S16x1600x64.size a
  inb_S16x1600x64_S16x1x64_0_440_0 : ∀ a, (![0, 440, 0] : Fin 3 → Nat) a + S16x1x64.size a ≤ S16x1600x64.size a
  inb_S16x1600x64_S16x1x64_0_480_0 : ∀ a, (![0, 480, 0] : Fin 3 → Nat) a + S16x1x64.size a ≤ S16x1600x64.size a
  inb_S16x1600x64_S16x1x64_0_520_0 : ∀ a, (![0, 520, 0] : Fin 3 → Nat) a + S16x1x64.size a ≤ S16x1600x64.size a
  inb_S16x1600x64_S16x1x64_0_560_0 : ∀ a, (![0, 560, 0] : Fin 3 → Nat) a + S16x1x64.size a ≤ S16x1600x64.size a
  inb_S16x1600x64_S16x1x64_0_600_0 : ∀ a, (![0, 600, 0] : Fin 3 → Nat) a + S16x1x64.size a ≤ S16x1600x64.size a
  inb_S16x1600x64_S16x1x64_0_640_0 : ∀ a, (![0, 640, 0] : Fin 3 → Nat) a + S16x1x64.size a ≤ S16x1600x64.size a
  inb_S16x1600x64_S16x1x64_0_680_0 : ∀ a, (![0, 680, 0] : Fin 3 → Nat) a + S16x1x64.size a ≤ S16x1600x64.size a
  inb_S16x1600x64_S16x1x64_0_720_0 : ∀ a, (![0, 720, 0] : Fin 3 → Nat) a + S16x1x64.size a ≤ S16x1600x64.size a
  inb_S16x1600x64_S16x1x64_0_760_0 : ∀ a, (![0, 760, 0] : Fin 3 → Nat) a + S16x1x64.size a ≤ S16x1600x64.size a
  inb_S16x1600x64_S16x1x64_0_800_0 : ∀ a, (![0, 800, 0] : Fin 3 → Nat) a + S16x1x64.size a ≤ S16x1600x64.size a
  inb_S16x1600x64_S16x1x64_0_840_0 : ∀ a, (![0, 840, 0] : Fin 3 → Nat) a + S16x1x64.size a ≤ S16x1600x64.size a
  inb_S16x1600x64_S16x1x64_0_880_0 : ∀ a, (![0, 880, 0] : Fin 3 → Nat) a + S16x1x64.size a ≤ S16x1600x64.size a
  inb_S16x1600x64_S16x1x64_0_920_0 : ∀ a, (![0, 920, 0] : Fin 3 → Nat) a + S16x1x64.size a ≤ S16x1600x64.size a
  inb_S16x1600x64_S16x1x64_0_960_0 : ∀ a, (![0, 960, 0] : Fin 3 → Nat) a + S16x1x64.size a ≤ S16x1600x64.size a
  inb_S16x1600x64_S16x1x64_0_1000_0 : ∀ a, (![0, 1000, 0] : Fin 3 → Nat) a + S16x1x64.size a ≤ S16x1600x64.size a
  inb_S16x1600x64_S16x1x64_0_1040_0 : ∀ a, (![0, 1040, 0] : Fin 3 → Nat) a + S16x1x64.size a ≤ S16x1600x64.size a
  inb_S16x1600x64_S16x1x64_0_1080_0 : ∀ a, (![0, 1080, 0] : Fin 3 → Nat) a + S16x1x64.size a ≤ S16x1600x64.size a
  inb_S16x1600x64_S16x1x64_0_1120_0 : ∀ a, (![0, 1120, 0] : Fin 3 → Nat) a + S16x1x64.size a ≤ S16x1600x64.size a
  inb_S16x1600x64_S16x1x64_0_1160_0 : ∀ a, (![0, 1160, 0] : Fin 3 → Nat) a + S16x1x64.size a ≤ S16x1600x64.size a
  inb_S16x1600x64_S16x1x64_0_1200_0 : ∀ a, (![0, 1200, 0] : Fin 3 → Nat) a + S16x1x64.size a ≤ S16x1600x64.size a
  inb_S16x1600x64_S16x1x64_0_1240_0 : ∀ a, (![0, 1240, 0] : Fin 3 → Nat) a + S16x1x64.size a ≤ S16x1600x64.size a
  inb_S16x1600x64_S16x1x64_0_1280_0 : ∀ a, (![0, 1280, 0] : Fin 3 → Nat) a + S16x1x64.size a ≤ S16x1600x64.size a
  inb_S16x1600x64_S16x1x64_0_1320_0 : ∀ a, (![0, 1320, 0] : Fin 3 → Nat) a + S16x1x64.size a ≤ S16x1600x64.size a
  inb_S16x1600x64_S16x1x64_0_1360_0 : ∀ a, (![0, 1360, 0] : Fin 3 → Nat) a + S16x1x64.size a ≤ S16x1600x64.size a
  inb_S16x1600x64_S16x1x64_0_1400_0 : ∀ a, (![0, 1400, 0] : Fin 3 → Nat) a + S16x1x64.size a ≤ S16x1600x64.size a
  inb_S16x1600x64_S16x1x64_0_1440_0 : ∀ a, (![0, 1440, 0] : Fin 3 → Nat) a + S16x1x64.size a ≤ S16x1600x64.size a
  inb_S16x1600x64_S16x1x64_0_1480_0 : ∀ a, (![0, 1480, 0] : Fin 3 → Nat) a + S16x1x64.size a ≤ S16x1600x64.size a
  inb_S16x1600x64_S16x1x64_0_1520_0 : ∀ a, (![0, 1520, 0] : Fin 3 → Nat) a + S16x1x64.size a ≤ S16x1600x64.size a
  inb_S16x1600x64_S16x1x64_0_1560_0 : ∀ a, (![0, 1560, 0] : Fin 3 → Nat) a + S16x1x64.size a ≤ S16x1600x64.size a
  shapeCasts_S16x64_S16x1x64 : S16x64.ShapeCasts S16x1x64
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x39x64_d1 : Shape.Concatenates (S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: []) S16x39x64 1
  inb_S16x780x64_S16x39x64_0_0_0 : ∀ a, (![0, 0, 0] : Fin 3 → Nat) a + S16x39x64.size a ≤ S16x780x64.size a
  inb_S16x1600x64_S16x38x64_0_42_0 : ∀ a, (![0, 42, 0] : Fin 3 → Nat) a + S16x38x64.size a ≤ S16x1600x64.size a
  h_S16x38x64 : 0 < S16x38x64.numel
  inb_S16x1600x64_S16x1x64_0_81_0 : ∀ a, (![0, 81, 0] : Fin 3 → Nat) a + S16x1x64.size a ≤ S16x1600x64.size a
  inb_S16x1600x64_S16x1x64_0_121_0 : ∀ a, (![0, 121, 0] : Fin 3 → Nat) a + S16x1x64.size a ≤ S16x1600x64.size a
  inb_S16x1600x64_S16x1x64_0_161_0 : ∀ a, (![0, 161, 0] : Fin 3 → Nat) a + S16x1x64.size a ≤ S16x1600x64.size a
  inb_S16x1600x64_S16x1x64_0_201_0 : ∀ a, (![0, 201, 0] : Fin 3 → Nat) a + S16x1x64.size a ≤ S16x1600x64.size a
  inb_S16x1600x64_S16x1x64_0_241_0 : ∀ a, (![0, 241, 0] : Fin 3 → Nat) a + S16x1x64.size a ≤ S16x1600x64.size a
  inb_S16x1600x64_S16x1x64_0_281_0 : ∀ a, (![0, 281, 0] : Fin 3 → Nat) a + S16x1x64.size a ≤ S16x1600x64.size a
  inb_S16x1600x64_S16x1x64_0_321_0 : ∀ a, (![0, 321, 0] : Fin 3 → Nat) a + S16x1x64.size a ≤ S16x1600x64.size a
  inb_S16x1600x64_S16x1x64_0_361_0 : ∀ a, (![0, 361, 0] : Fin 3 → Nat) a + S16x1x64.size a ≤ S16x1600x64.size a
  inb_S16x1600x64_S16x1x64_0_401_0 : ∀ a, (![0, 401, 0] : Fin 3 → Nat) a + S16x1x64.size a ≤ S16x1600x64.size a
  inb_S16x1600x64_S16x1x64_0_441_0 : ∀ a, (![0, 441, 0] : Fin 3 → Nat) a + S16x1x64.size a ≤ S16x1600x64.size a
  inb_S16x1600x64_S16x1x64_0_481_0 : ∀ a, (![0, 481, 0] : Fin 3 → Nat) a + S16x1x64.size a ≤ S16x1600x64.size a
  inb_S16x1600x64_S16x1x64_0_521_0 : ∀ a, (![0, 521, 0] : Fin 3 → Nat) a + S16x1x64.size a ≤ S16x1600x64.size a
  inb_S16x1600x64_S16x1x64_0_561_0 : ∀ a, (![0, 561, 0] : Fin 3 → Nat) a + S16x1x64.size a ≤ S16x1600x64.size a
  inb_S16x1600x64_S16x1x64_0_601_0 : ∀ a, (![0, 601, 0] : Fin 3 → Nat) a + S16x1x64.size a ≤ S16x1600x64.size a
  inb_S16x1600x64_S16x1x64_0_641_0 : ∀ a, (![0, 641, 0] : Fin 3 → Nat) a + S16x1x64.size a ≤ S16x1600x64.size a
  inb_S16x1600x64_S16x1x64_0_681_0 : ∀ a, (![0, 681, 0] : Fin 3 → Nat) a + S16x1x64.size a ≤ S16x1600x64.size a
  inb_S16x1600x64_S16x1x64_0_721_0 : ∀ a, (![0, 721, 0] : Fin 3 → Nat) a + S16x1x64.size a ≤ S16x1600x64.size a
  inb_S16x1600x64_S16x1x64_0_761_0 : ∀ a, (![0, 761, 0] : Fin 3 → Nat) a + S16x1x64.size a ≤ S16x1600x64.size a
  inb_S16x1600x64_S16x1x64_0_801_0 : ∀ a, (![0, 801, 0] : Fin 3 → Nat) a + S16x1x64.size a ≤ S16x1600x64.size a
  inb_S16x1600x64_S16x1x64_0_841_0 : ∀ a, (![0, 841, 0] : Fin 3 → Nat) a + S16x1x64.size a ≤ S16x1600x64.size a
  inb_S16x1600x64_S16x1x64_0_881_0 : ∀ a, (![0, 881, 0] : Fin 3 → Nat) a + S16x1x64.size a ≤ S16x1600x64.size a
  inb_S16x1600x64_S16x1x64_0_921_0 : ∀ a, (![0, 921, 0] : Fin 3 → Nat) a + S16x1x64.size a ≤ S16x1600x64.size a
  inb_S16x1600x64_S16x1x64_0_961_0 : ∀ a, (![0, 961, 0] : Fin 3 → Nat) a + S16x1x64.size a ≤ S16x1600x64.size a
  inb_S16x1600x64_S16x1x64_0_1001_0 : ∀ a, (![0, 1001, 0] : Fin 3 → Nat) a + S16x1x64.size a ≤ S16x1600x64.size a
  inb_S16x1600x64_S16x1x64_0_1041_0 : ∀ a, (![0, 1041, 0] : Fin 3 → Nat) a + S16x1x64.size a ≤ S16x1600x64.size a
  inb_S16x1600x64_S16x1x64_0_1081_0 : ∀ a, (![0, 1081, 0] : Fin 3 → Nat) a + S16x1x64.size a ≤ S16x1600x64.size a
  inb_S16x1600x64_S16x1x64_0_1121_0 : ∀ a, (![0, 1121, 0] : Fin 3 → Nat) a + S16x1x64.size a ≤ S16x1600x64.size a
  inb_S16x1600x64_S16x1x64_0_1161_0 : ∀ a, (![0, 1161, 0] : Fin 3 → Nat) a + S16x1x64.size a ≤ S16x1600x64.size a
  inb_S16x1600x64_S16x1x64_0_1201_0 : ∀ a, (![0, 1201, 0] : Fin 3 → Nat) a + S16x1x64.size a ≤ S16x1600x64.size a
  inb_S16x1600x64_S16x1x64_0_1241_0 : ∀ a, (![0, 1241, 0] : Fin 3 → Nat) a + S16x1x64.size a ≤ S16x1600x64.size a
  inb_S16x1600x64_S16x1x64_0_1281_0 : ∀ a, (![0, 1281, 0] : Fin 3 → Nat) a + S16x1x64.size a ≤ S16x1600x64.size a
  inb_S16x1600x64_S16x1x64_0_1321_0 : ∀ a, (![0, 1321, 0] : Fin 3 → Nat) a + S16x1x64.size a ≤ S16x1600x64.size a
  inb_S16x1600x64_S16x1x64_0_1361_0 : ∀ a, (![0, 1361, 0] : Fin 3 → Nat) a + S16x1x64.size a ≤ S16x1600x64.size a
  inb_S16x1600x64_S16x1x64_0_1401_0 : ∀ a, (![0, 1401, 0] : Fin 3 → Nat) a + S16x1x64.size a ≤ S16x1600x64.size a
  inb_S16x1600x64_S16x1x64_0_1441_0 : ∀ a, (![0, 1441, 0] : Fin 3 → Nat) a + S16x1x64.size a ≤ S16x1600x64.size a
  inb_S16x1600x64_S16x1x64_0_1481_0 : ∀ a, (![0, 1481, 0] : Fin 3 → Nat) a + S16x1x64.size a ≤ S16x1600x64.size a
  inb_S16x1600x64_S16x1x64_0_1521_0 : ∀ a, (![0, 1521, 0] : Fin 3 → Nat) a + S16x1x64.size a ≤ S16x1600x64.size a
  inb_S16x1600x64_S16x1x64_0_1561_0 : ∀ a, (![0, 1561, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x38x64_d1 : Shape.Concatenates (S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: []) S16x38x64 1
  inb_S16x780x64_S16x38x64_0_39_0 : ∀ a, (![0, 39, 0] : Fin 3 → Nat) a + S16x38x64.size a ≤ S16x780x64.size a
  inb_S16x1600x64_S16x37x64_0_83_0 : ∀ a, (![0, 83, 0] : Fin 3 → Nat) a + S16x37x64.size a ≤ S16x1600x64.size a
  h_S16x37x64 : 0 < S16x37x64.numel
  inb_S16x1600x64_S16x1x64_0_122_0 : ∀ a, (![0, 122, 0] : Fin 3 → Nat) a + S16x1x64.size a ≤ S16x1600x64.size a
  inb_S16x1600x64_S16x1x64_0_162_0 : ∀ a, (![0, 162, 0] : Fin 3 → Nat) a + S16x1x64.size a ≤ S16x1600x64.size a
  inb_S16x1600x64_S16x1x64_0_202_0 : ∀ a, (![0, 202, 0] : Fin 3 → Nat) a + S16x1x64.size a ≤ S16x1600x64.size a
  inb_S16x1600x64_S16x1x64_0_242_0 : ∀ a, (![0, 242, 0] : Fin 3 → Nat) a + S16x1x64.size a ≤ S16x1600x64.size a
  inb_S16x1600x64_S16x1x64_0_282_0 : ∀ a, (![0, 282, 0] : Fin 3 → Nat) a + S16x1x64.size a ≤ S16x1600x64.size a
  inb_S16x1600x64_S16x1x64_0_322_0 : ∀ a, (![0, 322, 0] : Fin 3 → Nat) a + S16x1x64.size a ≤ S16x1600x64.size a
  inb_S16x1600x64_S16x1x64_0_362_0 : ∀ a, (![0, 362, 0] : Fin 3 → Nat) a + S16x1x64.size a ≤ S16x1600x64.size a
  inb_S16x1600x64_S16x1x64_0_402_0 : ∀ a, (![0, 402, 0] : Fin 3 → Nat) a + S16x1x64.size a ≤ S16x1600x64.size a
  inb_S16x1600x64_S16x1x64_0_442_0 : ∀ a, (![0, 442, 0] : Fin 3 → Nat) a + S16x1x64.size a ≤ S16x1600x64.size a
  inb_S16x1600x64_S16x1x64_0_482_0 : ∀ a, (![0, 482, 0] : Fin 3 → Nat) a + S16x1x64.size a ≤ S16x1600x64.size a
  inb_S16x1600x64_S16x1x64_0_522_0 : ∀ a, (![0, 522, 0] : Fin 3 → Nat) a + S16x1x64.size a ≤ S16x1600x64.size a
  inb_S16x1600x64_S16x1x64_0_562_0 : ∀ a, (![0, 562, 0] : Fin 3 → Nat) a + S16x1x64.size a ≤ S16x1600x64.size a
  inb_S16x1600x64_S16x1x64_0_602_0 : ∀ a, (![0, 602, 0] : Fin 3 → Nat) a + S16x1x64.size a ≤ S16x1600x64.size a
  inb_S16x1600x64_S16x1x64_0_642_0 : ∀ a, (![0, 642, 0] : Fin 3 → Nat) a + S16x1x64.size a ≤ S16x1600x64.size a
  inb_S16x1600x64_S16x1x64_0_682_0 : ∀ a, (![0, 682, 0] : Fin 3 → Nat) a + S16x1x64.size a ≤ S16x1600x64.size a
  inb_S16x1600x64_S16x1x64_0_722_0 : ∀ a, (![0, 722, 0] : Fin 3 → Nat) a + S16x1x64.size a ≤ S16x1600x64.size a
  inb_S16x1600x64_S16x1x64_0_762_0 : ∀ a, (![0, 762, 0] : Fin 3 → Nat) a + S16x1x64.size a ≤ S16x1600x64.size a
  inb_S16x1600x64_S16x1x64_0_802_0 : ∀ a, (![0, 802, 0] : Fin 3 → Nat) a + S16x1x64.size a ≤ S16x1600x64.size a
  inb_S16x1600x64_S16x1x64_0_842_0 : ∀ a, (![0, 842, 0] : Fin 3 → Nat) a + S16x1x64.size a ≤ S16x1600x64.size a
  inb_S16x1600x64_S16x1x64_0_882_0 : ∀ a, (![0, 882, 0] : Fin 3 → Nat) a + S16x1x64.size a ≤ S16x1600x64.size a
  inb_S16x1600x64_S16x1x64_0_922_0 : ∀ a, (![0, 922, 0] : Fin 3 → Nat) a + S16x1x64.size a ≤ S16x1600x64.size a
  inb_S16x1600x64_S16x1x64_0_962_0 : ∀ a, (![0, 962, 0] : Fin 3 → Nat) a + S16x1x64.size a ≤ S16x1600x64.size a
  inb_S16x1600x64_S16x1x64_0_1002_0 : ∀ a, (![0, 1002, 0] : Fin 3 → Nat) a + S16x1x64.size a ≤ S16x1600x64.size a
  inb_S16x1600x64_S16x1x64_0_1042_0 : ∀ a, (![0, 1042, 0] : Fin 3 → Nat) a + S16x1x64.size a ≤ S16x1600x64.size a
  inb_S16x1600x64_S16x1x64_0_1082_0 : ∀ a, (![0, 1082, 0] : Fin 3 → Nat) a + S16x1x64.size a ≤ S16x1600x64.size a
  inb_S16x1600x64_S16x1x64_0_1122_0 : ∀ a, (![0, 1122, 0] : Fin 3 → Nat) a + S16x1x64.size a ≤ S16x1600x64.size a
  inb_S16x1600x64_S16x1x64_0_1162_0 : ∀ a, (![0, 1162, 0] : Fin 3 → Nat) a + S16x1x64.size a ≤ S16x1600x64.size a
  inb_S16x1600x64_S16x1x64_0_1202_0 : ∀ a, (![0, 1202, 0] : Fin 3 → Nat) a + S16x1x64.size a ≤ S16x1600x64.size a
  inb_S16x1600x64_S16x1x64_0_1242_0 : ∀ a, (![0, 1242, 0] : Fin 3 → Nat) a + S16x1x64.size a ≤ S16x1600x64.size a
  inb_S16x1600x64_S16x1x64_0_1282_0 : ∀ a, (![0, 1282, 0] : Fin 3 → Nat) a + S16x1x64.size a ≤ S16x1600x64.size a
  inb_S16x1600x64_S16x1x64_0_1322_0 : ∀ a, (![0, 1322, 0] : Fin 3 → Nat) a + S16x1x64.size a ≤ S16x1600x64.size a
  inb_S16x1600x64_S16x1x64_0_1362_0 : ∀ a, (![0, 1362, 0] : Fin 3 → Nat) a + S16x1x64.size a ≤ S16x1600x64.size a
  inb_S16x1600x64_S16x1x64_0_1402_0 : ∀ a, (![0, 1402, 0] : Fin 3 → Nat) a + S16x1x64.size a ≤ S16x1600x64.size a
  inb_S16x1600x64_S16x1x64_0_1442_0 : ∀ a, (![0, 1442, 0] : Fin 3 → Nat) a + S16x1x64.size a ≤ S16x1600x64.size a
  inb_S16x1600x64_S16x1x64_0_1482_0 : ∀ a, (![0, 1482, 0] : Fin 3 → Nat) a + S16x1x64.size a ≤ S16x1600x64.size a
  inb_S16x1600x64_S16x1x64_0_1522_0 : ∀ a, (![0, 1522, 0] : Fin 3 → Nat) a + S16x1x64.size a ≤ S16x1600x64.size a
  inb_S16x1600x64_S16x1x64_0_1562_0 : ∀ a, (![0, 1562, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x37x64_d1 : Shape.Concatenates (S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: []) S16x37x64 1
  inb_S16x780x64_S16x37x64_0_77_0 : ∀ a, (![0, 77, 0] : Fin 3 → Nat) a + S16x37x64.size a ≤ S16x780x64.size a
  inb_S16x1600x64_S16x36x64_0_124_0 : ∀ a, (![0, 124, 0] : Fin 3 → Nat) a + S16x36x64.size a ≤ S16x1600x64.size a
  h_S16x36x64 : 0 < S16x36x64.numel
  inb_S16x1600x64_S16x1x64_0_163_0 : ∀ a, (![0, 163, 0] : Fin 3 → Nat) a + S16x1x64.size a ≤ S16x1600x64.size a
  inb_S16x1600x64_S16x1x64_0_203_0 : ∀ a, (![0, 203, 0] : Fin 3 → Nat) a + S16x1x64.size a ≤ S16x1600x64.size a
  inb_S16x1600x64_S16x1x64_0_243_0 : ∀ a, (![0, 243, 0] : Fin 3 → Nat) a + S16x1x64.size a ≤ S16x1600x64.size a
  inb_S16x1600x64_S16x1x64_0_283_0 : ∀ a, (![0, 283, 0] : Fin 3 → Nat) a + S16x1x64.size a ≤ S16x1600x64.size a
  inb_S16x1600x64_S16x1x64_0_323_0 : ∀ a, (![0, 323, 0] : Fin 3 → Nat) a + S16x1x64.size a ≤ S16x1600x64.size a
  inb_S16x1600x64_S16x1x64_0_363_0 : ∀ a, (![0, 363, 0] : Fin 3 → Nat) a + S16x1x64.size a ≤ S16x1600x64.size a
  inb_S16x1600x64_S16x1x64_0_403_0 : ∀ a, (![0, 403, 0] : Fin 3 → Nat) a + S16x1x64.size a ≤ S16x1600x64.size a
  inb_S16x1600x64_S16x1x64_0_443_0 : ∀ a, (![0, 443, 0] : Fin 3 → Nat) a + S16x1x64.size a ≤ S16x1600x64.size a
  inb_S16x1600x64_S16x1x64_0_483_0 : ∀ a, (![0, 483, 0] : Fin 3 → Nat) a + S16x1x64.size a ≤ S16x1600x64.size a
  inb_S16x1600x64_S16x1x64_0_523_0 : ∀ a, (![0, 523, 0] : Fin 3 → Nat) a + S16x1x64.size a ≤ S16x1600x64.size a
  inb_S16x1600x64_S16x1x64_0_563_0 : ∀ a, (![0, 563, 0] : Fin 3 → Nat) a + S16x1x64.size a ≤ S16x1600x64.size a
  inb_S16x1600x64_S16x1x64_0_603_0 : ∀ a, (![0, 603, 0] : Fin 3 → Nat) a + S16x1x64.size a ≤ S16x1600x64.size a
  inb_S16x1600x64_S16x1x64_0_643_0 : ∀ a, (![0, 643, 0] : Fin 3 → Nat) a + S16x1x64.size a ≤ S16x1600x64.size a
  inb_S16x1600x64_S16x1x64_0_683_0 : ∀ a, (![0, 683, 0] : Fin 3 → Nat) a + S16x1x64.size a ≤ S16x1600x64.size a
  inb_S16x1600x64_S16x1x64_0_723_0 : ∀ a, (![0, 723, 0] : Fin 3 → Nat) a + S16x1x64.size a ≤ S16x1600x64.size a
  inb_S16x1600x64_S16x1x64_0_763_0 : ∀ a, (![0, 763, 0] : Fin 3 → Nat) a + S16x1x64.size a ≤ S16x1600x64.size a
  inb_S16x1600x64_S16x1x64_0_803_0 : ∀ a, (![0, 803, 0] : Fin 3 → Nat) a + S16x1x64.size a ≤ S16x1600x64.size a
  inb_S16x1600x64_S16x1x64_0_843_0 : ∀ a, (![0, 843, 0] : Fin 3 → Nat) a + S16x1x64.size a ≤ S16x1600x64.size a
  inb_S16x1600x64_S16x1x64_0_883_0 : ∀ a, (![0, 883, 0] : Fin 3 → Nat) a + S16x1x64.size a ≤ S16x1600x64.size a
  inb_S16x1600x64_S16x1x64_0_923_0 : ∀ a, (![0, 923, 0] : Fin 3 → Nat) a + S16x1x64.size a ≤ S16x1600x64.size a
  inb_S16x1600x64_S16x1x64_0_963_0 : ∀ a, (![0, 963, 0] : Fin 3 → Nat) a + S16x1x64.size a ≤ S16x1600x64.size a
  inb_S16x1600x64_S16x1x64_0_1003_0 : ∀ a, (![0, 1003, 0] : Fin 3 → Nat) a + S16x1x64.size a ≤ S16x1600x64.size a
  inb_S16x1600x64_S16x1x64_0_1043_0 : ∀ a, (![0, 1043, 0] : Fin 3 → Nat) a + S16x1x64.size a ≤ S16x1600x64.size a
  inb_S16x1600x64_S16x1x64_0_1083_0 : ∀ a, (![0, 1083, 0] : Fin 3 → Nat) a + S16x1x64.size a ≤ S16x1600x64.size a
  inb_S16x1600x64_S16x1x64_0_1123_0 : ∀ a, (![0, 1123, 0] : Fin 3 → Nat) a + S16x1x64.size a ≤ S16x1600x64.size a
  inb_S16x1600x64_S16x1x64_0_1163_0 : ∀ a, (![0, 1163, 0] : Fin 3 → Nat) a + S16x1x64.size a ≤ S16x1600x64.size a
  inb_S16x1600x64_S16x1x64_0_1203_0 : ∀ a, (![0, 1203, 0] : Fin 3 → Nat) a + S16x1x64.size a ≤ S16x1600x64.size a
  inb_S16x1600x64_S16x1x64_0_1243_0 : ∀ a, (![0, 1243, 0] : Fin 3 → Nat) a + S16x1x64.size a ≤ S16x1600x64.size a
  inb_S16x1600x64_S16x1x64_0_1283_0 : ∀ a, (![0, 1283, 0] : Fin 3 → Nat) a + S16x1x64.size a ≤ S16x1600x64.size a
  inb_S16x1600x64_S16x1x64_0_1323_0 : ∀ a, (![0, 1323, 0] : Fin 3 → Nat) a + S16x1x64.size a ≤ S16x1600x64.size a
  inb_S16x1600x64_S16x1x64_0_1363_0 : ∀ a, (![0, 1363, 0] : Fin 3 → Nat) a + S16x1x64.size a ≤ S16x1600x64.size a
  inb_S16x1600x64_S16x1x64_0_1403_0 : ∀ a, (![0, 1403, 0] : Fin 3 → Nat) a + S16x1x64.size a ≤ S16x1600x64.size a
  inb_S16x1600x64_S16x1x64_0_1443_0 : ∀ a, (![0, 1443, 0] : Fin 3 → Nat) a + S16x1x64.size a ≤ S16x1600x64.size a
  inb_S16x1600x64_S16x1x64_0_1483_0 : ∀ a, (![0, 1483, 0] : Fin 3 → Nat) a + S16x1x64.size a ≤ S16x1600x64.size a
  inb_S16x1600x64_S16x1x64_0_1523_0 : ∀ a, (![0, 1523, 0] : Fin 3 → Nat) a + S16x1x64.size a ≤ S16x1600x64.size a
  inb_S16x1600x64_S16x1x64_0_1563_0 : ∀ a, (![0, 1563, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x36x64_d1 : Shape.Concatenates (S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: []) S16x36x64 1
  inb_S16x780x64_S16x36x64_0_114_0 : ∀ a, (![0, 114, 0] : Fin 3 → Nat) a + S16x36x64.size a ≤ S16x780x64.size a
  inb_S16x1600x64_S16x35x64_0_165_0 : ∀ a, (![0, 165, 0] : Fin 3 → Nat) a + S16x35x64.size a ≤ S16x1600x64.size a
  h_S16x35x64 : 0 < S16x35x64.numel
  inb_S16x1600x64_S16x1x64_0_204_0 : ∀ a, (![0, 204, 0] : Fin 3 → Nat) a + S16x1x64.size a ≤ S16x1600x64.size a
  inb_S16x1600x64_S16x1x64_0_244_0 : ∀ a, (![0, 244, 0] : Fin 3 → Nat) a + S16x1x64.size a ≤ S16x1600x64.size a
  inb_S16x1600x64_S16x1x64_0_284_0 : ∀ a, (![0, 284, 0] : Fin 3 → Nat) a + S16x1x64.size a ≤ S16x1600x64.size a
  inb_S16x1600x64_S16x1x64_0_324_0 : ∀ a, (![0, 324, 0] : Fin 3 → Nat) a + S16x1x64.size a ≤ S16x1600x64.size a
  inb_S16x1600x64_S16x1x64_0_364_0 : ∀ a, (![0, 364, 0] : Fin 3 → Nat) a + S16x1x64.size a ≤ S16x1600x64.size a
  inb_S16x1600x64_S16x1x64_0_404_0 : ∀ a, (![0, 404, 0] : Fin 3 → Nat) a + S16x1x64.size a ≤ S16x1600x64.size a
  inb_S16x1600x64_S16x1x64_0_444_0 : ∀ a, (![0, 444, 0] : Fin 3 → Nat) a + S16x1x64.size a ≤ S16x1600x64.size a
  inb_S16x1600x64_S16x1x64_0_484_0 : ∀ a, (![0, 484, 0] : Fin 3 → Nat) a + S16x1x64.size a ≤ S16x1600x64.size a
  inb_S16x1600x64_S16x1x64_0_524_0 : ∀ a, (![0, 524, 0] : Fin 3 → Nat) a + S16x1x64.size a ≤ S16x1600x64.size a
  inb_S16x1600x64_S16x1x64_0_564_0 : ∀ a, (![0, 564, 0] : Fin 3 → Nat) a + S16x1x64.size a ≤ S16x1600x64.size a
  inb_S16x1600x64_S16x1x64_0_604_0 : ∀ a, (![0, 604, 0] : Fin 3 → Nat) a + S16x1x64.size a ≤ S16x1600x64.size a
  inb_S16x1600x64_S16x1x64_0_644_0 : ∀ a, (![0, 644, 0] : Fin 3 → Nat) a + S16x1x64.size a ≤ S16x1600x64.size a
  inb_S16x1600x64_S16x1x64_0_684_0 : ∀ a, (![0, 684, 0] : Fin 3 → Nat) a + S16x1x64.size a ≤ S16x1600x64.size a
  inb_S16x1600x64_S16x1x64_0_724_0 : ∀ a, (![0, 724, 0] : Fin 3 → Nat) a + S16x1x64.size a ≤ S16x1600x64.size a
  inb_S16x1600x64_S16x1x64_0_764_0 : ∀ a, (![0, 764, 0] : Fin 3 → Nat) a + S16x1x64.size a ≤ S16x1600x64.size a
  inb_S16x1600x64_S16x1x64_0_804_0 : ∀ a, (![0, 804, 0] : Fin 3 → Nat) a + S16x1x64.size a ≤ S16x1600x64.size a
  inb_S16x1600x64_S16x1x64_0_844_0 : ∀ a, (![0, 844, 0] : Fin 3 → Nat) a + S16x1x64.size a ≤ S16x1600x64.size a
  inb_S16x1600x64_S16x1x64_0_884_0 : ∀ a, (![0, 884, 0] : Fin 3 → Nat) a + S16x1x64.size a ≤ S16x1600x64.size a
  inb_S16x1600x64_S16x1x64_0_924_0 : ∀ a, (![0, 924, 0] : Fin 3 → Nat) a + S16x1x64.size a ≤ S16x1600x64.size a
  inb_S16x1600x64_S16x1x64_0_964_0 : ∀ a, (![0, 964, 0] : Fin 3 → Nat) a + S16x1x64.size a ≤ S16x1600x64.size a
  inb_S16x1600x64_S16x1x64_0_1004_0 : ∀ a, (![0, 1004, 0] : Fin 3 → Nat) a + S16x1x64.size a ≤ S16x1600x64.size a
  inb_S16x1600x64_S16x1x64_0_1044_0 : ∀ a, (![0, 1044, 0] : Fin 3 → Nat) a + S16x1x64.size a ≤ S16x1600x64.size a
  inb_S16x1600x64_S16x1x64_0_1084_0 : ∀ a, (![0, 1084, 0] : Fin 3 → Nat) a + S16x1x64.size a ≤ S16x1600x64.size a
  inb_S16x1600x64_S16x1x64_0_1124_0 : ∀ a, (![0, 1124, 0] : Fin 3 → Nat) a + S16x1x64.size a ≤ S16x1600x64.size a
  inb_S16x1600x64_S16x1x64_0_1164_0 : ∀ a, (![0, 1164, 0] : Fin 3 → Nat) a + S16x1x64.size a ≤ S16x1600x64.size a
  inb_S16x1600x64_S16x1x64_0_1204_0 : ∀ a, (![0, 1204, 0] : Fin 3 → Nat) a + S16x1x64.size a ≤ S16x1600x64.size a
  inb_S16x1600x64_S16x1x64_0_1244_0 : ∀ a, (![0, 1244, 0] : Fin 3 → Nat) a + S16x1x64.size a ≤ S16x1600x64.size a
  inb_S16x1600x64_S16x1x64_0_1284_0 : ∀ a, (![0, 1284, 0] : Fin 3 → Nat) a + S16x1x64.size a ≤ S16x1600x64.size a
  inb_S16x1600x64_S16x1x64_0_1324_0 : ∀ a, (![0, 1324, 0] : Fin 3 → Nat) a + S16x1x64.size a ≤ S16x1600x64.size a
  inb_S16x1600x64_S16x1x64_0_1364_0 : ∀ a, (![0, 1364, 0] : Fin 3 → Nat) a + S16x1x64.size a ≤ S16x1600x64.size a
  inb_S16x1600x64_S16x1x64_0_1404_0 : ∀ a, (![0, 1404, 0] : Fin 3 → Nat) a + S16x1x64.size a ≤ S16x1600x64.size a
  inb_S16x1600x64_S16x1x64_0_1444_0 : ∀ a, (![0, 1444, 0] : Fin 3 → Nat) a + S16x1x64.size a ≤ S16x1600x64.size a
  inb_S16x1600x64_S16x1x64_0_1484_0 : ∀ a, (![0, 1484, 0] : Fin 3 → Nat) a + S16x1x64.size a ≤ S16x1600x64.size a
  inb_S16x1600x64_S16x1x64_0_1524_0 : ∀ a, (![0, 1524, 0] : Fin 3 → Nat) a + S16x1x64.size a ≤ S16x1600x64.size a
  inb_S16x1600x64_S16x1x64_0_1564_0 : ∀ a, (![0, 1564, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x35x64_d1 : Shape.Concatenates (S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: []) S16x35x64 1
  inb_S16x780x64_S16x35x64_0_150_0 : ∀ a, (![0, 150, 0] : Fin 3 → Nat) a + S16x35x64.size a ≤ S16x780x64.size a
  inb_S16x1600x64_S16x34x64_0_206_0 : ∀ a, (![0, 206, 0] : Fin 3 → Nat) a + S16x34x64.size a ≤ S16x1600x64.size a
  h_S16x34x64 : 0 < S16x34x64.numel
  inb_S16x1600x64_S16x1x64_0_245_0 : ∀ a, (![0, 245, 0] : Fin 3 → Nat) a + S16x1x64.size a ≤ S16x1600x64.size a
  inb_S16x1600x64_S16x1x64_0_285_0 : ∀ a, (![0, 285, 0] : Fin 3 → Nat) a + S16x1x64.size a ≤ S16x1600x64.size a
  inb_S16x1600x64_S16x1x64_0_325_0 : ∀ a, (![0, 325, 0] : Fin 3 → Nat) a + S16x1x64.size a ≤ S16x1600x64.size a
  inb_S16x1600x64_S16x1x64_0_365_0 : ∀ a, (![0, 365, 0] : Fin 3 → Nat) a + S16x1x64.size a ≤ S16x1600x64.size a
  inb_S16x1600x64_S16x1x64_0_405_0 : ∀ a, (![0, 405, 0] : Fin 3 → Nat) a + S16x1x64.size a ≤ S16x1600x64.size a
  inb_S16x1600x64_S16x1x64_0_445_0 : ∀ a, (![0, 445, 0] : Fin 3 → Nat) a + S16x1x64.size a ≤ S16x1600x64.size a
  inb_S16x1600x64_S16x1x64_0_485_0 : ∀ a, (![0, 485, 0] : Fin 3 → Nat) a + S16x1x64.size a ≤ S16x1600x64.size a
  inb_S16x1600x64_S16x1x64_0_525_0 : ∀ a, (![0, 525, 0] : Fin 3 → Nat) a + S16x1x64.size a ≤ S16x1600x64.size a
  inb_S16x1600x64_S16x1x64_0_565_0 : ∀ a, (![0, 565, 0] : Fin 3 → Nat) a + S16x1x64.size a ≤ S16x1600x64.size a
  inb_S16x1600x64_S16x1x64_0_605_0 : ∀ a, (![0, 605, 0] : Fin 3 → Nat) a + S16x1x64.size a ≤ S16x1600x64.size a
  inb_S16x1600x64_S16x1x64_0_645_0 : ∀ a, (![0, 645, 0] : Fin 3 → Nat) a + S16x1x64.size a ≤ S16x1600x64.size a
  inb_S16x1600x64_S16x1x64_0_685_0 : ∀ a, (![0, 685, 0] : Fin 3 → Nat) a + S16x1x64.size a ≤ S16x1600x64.size a
  inb_S16x1600x64_S16x1x64_0_725_0 : ∀ a, (![0, 725, 0] : Fin 3 → Nat) a + S16x1x64.size a ≤ S16x1600x64.size a
  inb_S16x1600x64_S16x1x64_0_765_0 : ∀ a, (![0, 765, 0] : Fin 3 → Nat) a + S16x1x64.size a ≤ S16x1600x64.size a
  inb_S16x1600x64_S16x1x64_0_805_0 : ∀ a, (![0, 805, 0] : Fin 3 → Nat) a + S16x1x64.size a ≤ S16x1600x64.size a
  inb_S16x1600x64_S16x1x64_0_845_0 : ∀ a, (![0, 845, 0] : Fin 3 → Nat) a + S16x1x64.size a ≤ S16x1600x64.size a
  inb_S16x1600x64_S16x1x64_0_885_0 : ∀ a, (![0, 885, 0] : Fin 3 → Nat) a + S16x1x64.size a ≤ S16x1600x64.size a
  inb_S16x1600x64_S16x1x64_0_925_0 : ∀ a, (![0, 925, 0] : Fin 3 → Nat) a + S16x1x64.size a ≤ S16x1600x64.size a
  inb_S16x1600x64_S16x1x64_0_965_0 : ∀ a, (![0, 965, 0] : Fin 3 → Nat) a + S16x1x64.size a ≤ S16x1600x64.size a
  inb_S16x1600x64_S16x1x64_0_1005_0 : ∀ a, (![0, 1005, 0] : Fin 3 → Nat) a + S16x1x64.size a ≤ S16x1600x64.size a
  inb_S16x1600x64_S16x1x64_0_1045_0 : ∀ a, (![0, 1045, 0] : Fin 3 → Nat) a + S16x1x64.size a ≤ S16x1600x64.size a
  inb_S16x1600x64_S16x1x64_0_1085_0 : ∀ a, (![0, 1085, 0] : Fin 3 → Nat) a + S16x1x64.size a ≤ S16x1600x64.size a
  inb_S16x1600x64_S16x1x64_0_1125_0 : ∀ a, (![0, 1125, 0] : Fin 3 → Nat) a + S16x1x64.size a ≤ S16x1600x64.size a
  inb_S16x1600x64_S16x1x64_0_1165_0 : ∀ a, (![0, 1165, 0] : Fin 3 → Nat) a + S16x1x64.size a ≤ S16x1600x64.size a
  inb_S16x1600x64_S16x1x64_0_1205_0 : ∀ a, (![0, 1205, 0] : Fin 3 → Nat) a + S16x1x64.size a ≤ S16x1600x64.size a
  inb_S16x1600x64_S16x1x64_0_1245_0 : ∀ a, (![0, 1245, 0] : Fin 3 → Nat) a + S16x1x64.size a ≤ S16x1600x64.size a
  inb_S16x1600x64_S16x1x64_0_1285_0 : ∀ a, (![0, 1285, 0] : Fin 3 → Nat) a + S16x1x64.size a ≤ S16x1600x64.size a
  inb_S16x1600x64_S16x1x64_0_1325_0 : ∀ a, (![0, 1325, 0] : Fin 3 → Nat) a + S16x1x64.size a ≤ S16x1600x64.size a
  inb_S16x1600x64_S16x1x64_0_1365_0 : ∀ a, (![0, 1365, 0] : Fin 3 → Nat) a + S16x1x64.size a ≤ S16x1600x64.size a
  inb_S16x1600x64_S16x1x64_0_1405_0 : ∀ a, (![0, 1405, 0] : Fin 3 → Nat) a + S16x1x64.size a ≤ S16x1600x64.size a
  inb_S16x1600x64_S16x1x64_0_1445_0 : ∀ a, (![0, 1445, 0] : Fin 3 → Nat) a + S16x1x64.size a ≤ S16x1600x64.size a
  inb_S16x1600x64_S16x1x64_0_1485_0 : ∀ a, (![0, 1485, 0] : Fin 3 → Nat) a + S16x1x64.size a ≤ S16x1600x64.size a
  inb_S16x1600x64_S16x1x64_0_1525_0 : ∀ a, (![0, 1525, 0] : Fin 3 → Nat) a + S16x1x64.size a ≤ S16x1600x64.size a
  inb_S16x1600x64_S16x1x64_0_1565_0 : ∀ a, (![0, 1565, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x34x64_d1 : Shape.Concatenates (S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: []) S16x34x64 1
  inb_S16x780x64_S16x34x64_0_185_0 : ∀ a, (![0, 185, 0] : Fin 3 → Nat) a + S16x34x64.size a ≤ S16x780x64.size a
  inb_S16x1600x64_S16x33x64_0_247_0 : ∀ a, (![0, 247, 0] : Fin 3 → Nat) a + S16x33x64.size a ≤ S16x1600x64.size a
  h_S16x33x64 : 0 < S16x33x64.numel
  inb_S16x1600x64_S16x1x64_0_286_0 : ∀ a, (![0, 286, 0] : Fin 3 → Nat) a + S16x1x64.size a ≤ S16x1600x64.size a
  inb_S16x1600x64_S16x1x64_0_326_0 : ∀ a, (![0, 326, 0] : Fin 3 → Nat) a + S16x1x64.size a ≤ S16x1600x64.size a
  inb_S16x1600x64_S16x1x64_0_366_0 : ∀ a, (![0, 366, 0] : Fin 3 → Nat) a + S16x1x64.size a ≤ S16x1600x64.size a
  inb_S16x1600x64_S16x1x64_0_406_0 : ∀ a, (![0, 406, 0] : Fin 3 → Nat) a + S16x1x64.size a ≤ S16x1600x64.size a
  inb_S16x1600x64_S16x1x64_0_446_0 : ∀ a, (![0, 446, 0] : Fin 3 → Nat) a + S16x1x64.size a ≤ S16x1600x64.size a
  inb_S16x1600x64_S16x1x64_0_486_0 : ∀ a, (![0, 486, 0] : Fin 3 → Nat) a + S16x1x64.size a ≤ S16x1600x64.size a
  inb_S16x1600x64_S16x1x64_0_526_0 : ∀ a, (![0, 526, 0] : Fin 3 → Nat) a + S16x1x64.size a ≤ S16x1600x64.size a
  inb_S16x1600x64_S16x1x64_0_566_0 : ∀ a, (![0, 566, 0] : Fin 3 → Nat) a + S16x1x64.size a ≤ S16x1600x64.size a
  inb_S16x1600x64_S16x1x64_0_606_0 : ∀ a, (![0, 606, 0] : Fin 3 → Nat) a + S16x1x64.size a ≤ S16x1600x64.size a
  inb_S16x1600x64_S16x1x64_0_646_0 : ∀ a, (![0, 646, 0] : Fin 3 → Nat) a + S16x1x64.size a ≤ S16x1600x64.size a
  inb_S16x1600x64_S16x1x64_0_686_0 : ∀ a, (![0, 686, 0] : Fin 3 → Nat) a + S16x1x64.size a ≤ S16x1600x64.size a
  inb_S16x1600x64_S16x1x64_0_726_0 : ∀ a, (![0, 726, 0] : Fin 3 → Nat) a + S16x1x64.size a ≤ S16x1600x64.size a
  inb_S16x1600x64_S16x1x64_0_766_0 : ∀ a, (![0, 766, 0] : Fin 3 → Nat) a + S16x1x64.size a ≤ S16x1600x64.size a
  inb_S16x1600x64_S16x1x64_0_806_0 : ∀ a, (![0, 806, 0] : Fin 3 → Nat) a + S16x1x64.size a ≤ S16x1600x64.size a
  inb_S16x1600x64_S16x1x64_0_846_0 : ∀ a, (![0, 846, 0] : Fin 3 → Nat) a + S16x1x64.size a ≤ S16x1600x64.size a
  inb_S16x1600x64_S16x1x64_0_886_0 : ∀ a, (![0, 886, 0] : Fin 3 → Nat) a + S16x1x64.size a ≤ S16x1600x64.size a
  inb_S16x1600x64_S16x1x64_0_926_0 : ∀ a, (![0, 926, 0] : Fin 3 → Nat) a + S16x1x64.size a ≤ S16x1600x64.size a
  inb_S16x1600x64_S16x1x64_0_966_0 : ∀ a, (![0, 966, 0] : Fin 3 → Nat) a + S16x1x64.size a ≤ S16x1600x64.size a
  inb_S16x1600x64_S16x1x64_0_1006_0 : ∀ a, (![0, 1006, 0] : Fin 3 → Nat) a + S16x1x64.size a ≤ S16x1600x64.size a
  inb_S16x1600x64_S16x1x64_0_1046_0 : ∀ a, (![0, 1046, 0] : Fin 3 → Nat) a + S16x1x64.size a ≤ S16x1600x64.size a
  inb_S16x1600x64_S16x1x64_0_1086_0 : ∀ a, (![0, 1086, 0] : Fin 3 → Nat) a + S16x1x64.size a ≤ S16x1600x64.size a
  inb_S16x1600x64_S16x1x64_0_1126_0 : ∀ a, (![0, 1126, 0] : Fin 3 → Nat) a + S16x1x64.size a ≤ S16x1600x64.size a
  inb_S16x1600x64_S16x1x64_0_1166_0 : ∀ a, (![0, 1166, 0] : Fin 3 → Nat) a + S16x1x64.size a ≤ S16x1600x64.size a
  inb_S16x1600x64_S16x1x64_0_1206_0 : ∀ a, (![0, 1206, 0] : Fin 3 → Nat) a + S16x1x64.size a ≤ S16x1600x64.size a
  inb_S16x1600x64_S16x1x64_0_1246_0 : ∀ a, (![0, 1246, 0] : Fin 3 → Nat) a + S16x1x64.size a ≤ S16x1600x64.size a
  inb_S16x1600x64_S16x1x64_0_1286_0 : ∀ a, (![0, 1286, 0] : Fin 3 → Nat) a + S16x1x64.size a ≤ S16x1600x64.size a
  inb_S16x1600x64_S16x1x64_0_1326_0 : ∀ a, (![0, 1326, 0] : Fin 3 → Nat) a + S16x1x64.size a ≤ S16x1600x64.size a
  inb_S16x1600x64_S16x1x64_0_1366_0 : ∀ a, (![0, 1366, 0] : Fin 3 → Nat) a + S16x1x64.size a ≤ S16x1600x64.size a
  inb_S16x1600x64_S16x1x64_0_1406_0 : ∀ a, (![0, 1406, 0] : Fin 3 → Nat) a + S16x1x64.size a ≤ S16x1600x64.size a
  inb_S16x1600x64_S16x1x64_0_1446_0 : ∀ a, (![0, 1446, 0] : Fin 3 → Nat) a + S16x1x64.size a ≤ S16x1600x64.size a
  inb_S16x1600x64_S16x1x64_0_1486_0 : ∀ a, (![0, 1486, 0] : Fin 3 → Nat) a + S16x1x64.size a ≤ S16x1600x64.size a
  inb_S16x1600x64_S16x1x64_0_1526_0 : ∀ a, (![0, 1526, 0] : Fin 3 → Nat) a + S16x1x64.size a ≤ S16x1600x64.size a
  inb_S16x1600x64_S16x1x64_0_1566_0 : ∀ a, (![0, 1566, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x33x64_d1 : Shape.Concatenates (S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: S16x1x64 :: []) S16x33x64 1
  inb_S16x780x64_S16x33x64_0_219_0 : ∀ a, (![0, 219, 0] : Fin 3 → Nat) a + S16x33x64.size a ≤ S16x780x64.size a
  inb_S16x1600x64_S16x32x64_0_288_0 : ∀ a, (![0, 288, 0] : Fin 3 → Nat) a + S16x32x64.size a ≤ S16x1600x64.size a
  h_S16x32x64 : 0 < S16x32x64.numel
  inb_S16x1600x64_S16x1x64_0_327_0 : ∀ a, (![0, 327, 0] : Fin 3 → Nat) a + S16x1x64.size a ≤ S16x1600x64.size a
  inb_S16x1600x64_S16x1x64_0_367_0 : ∀ a, (![0, 367, 0] : Fin 3 → Nat) a + S16x1x64.size a ≤ S16x1600x64.size a
  inb_S16x1600x64_S16x1x64_0_407_0 : ∀ a, (![0, 407, 0] : Fin 3 → Nat) a + S16x1x64.size a ≤ S16x1600x64.size a
  inb_S16x1600x64_S16x1x64_0_447_0 : ∀ a, (![0, 447, 0] : Fin 3 → Nat) a + S16x1x64.size a ≤ S16x1600x64.size a
  inb_S16x1600x64_S16x1x64_0_487_0 : ∀ a, (![0, 487, 0] : Fin 3 → Nat) a + S16x1x64.size a ≤ S16x1600x64.size a
  inb_S16x1600x64_S16x1x64_0_527_0 : ∀ a, (![0, 527, 0] : Fin 3 → Nat) a + S16x1x64.size a ≤ S16x1600x64.size a
  inb_S16x1600x64_S16x1x64_0_567_0 : ∀ a, (![0, 567, 0] : Fin 3 → Nat) a + S16x1x64.size a ≤ S16x1600x64.size a
  inb_S16x1600x64_S16x1x64_0_607_0 : ∀ a, (![0, 607, 0] : Fin 3 → Nat) a + S16x1x64.size a ≤ S16x1600x64.size a
  inb_S16x1600x64_S16x1x64_0_647_0 : ∀ a, (![0, 647, 0] : Fin 3 → Nat) a + S16x1x64.size a ≤ S16x1600x64.size a
  inb_S16x1600x64_S16x1x64_0_687_0 : ∀ a, (![0, 687, 0] : Fin 3 → Nat) a + S16x1x64.size a ≤ S16x1600x64.size a
  inb_S16x1600x64_S16x1x64_0_727_0 : ∀ a, (![0, 727, 0] : Fin 3 → Nat) a + S16x1x64.size a ≤ S16x1600x64.size a
  inb_S16x1600x64_S16x1x64_0_767_0 : ∀ a, (![0, 767, 0] : Fin 3 → Nat) a + S16x1x64.size a ≤ S16x1600x64.size a
  inb_S16x1600x64_S16x1x64_0_807_0 : ∀ a, (![0, 807, 0] : Fin 3 → Nat) a + S16x1x64.size a ≤ S16x1600x64.size a
  inb_S16x1600x64_S16x1x64_0_847_0 : ∀ a, (![0, 847, 0] : Fin 3 → Nat) a + S16x1x64.size a ≤ S16x1600x64.size a
  inb_S16x1600x64_S16x1x64_0_887_0 : ∀ a, (![0, 887, 0] : Fin 3 → Nat) a + S16x1x64.size a ≤ S16x1600x64.size a
  inb_S16x1600x64_S16x1x64_0_927_0 : ∀ a, (![0, 927, 0] : Fin 3 → Nat) a + S16x1x64.size a ≤ S16x1600x64.size a
  inb_S16x1600x64_S16x1x64_0_967_0 : ∀ a, (![0, 967, 0] : Fin 3 → Nat) a + S16x1x64.size a ≤ S16x1600x64.size a
  inb_S16x1600x64_S16x1x64_0_1007_0 : ∀ a, (![0, 1007, 0] : Fin 3 → Nat) a + S16x1x64.size a ≤ S16x1600x64.size a
  inb_S16x1600x64_S16x1x64_0_1047_0 : ∀ a, (![0, 1047, 0] : Fin 3 → Nat) a + S16x1x64.size a ≤ S16x1600x64.size a
  inb_S16x1600x64_S16x1x64_0_1087_0 : ∀ a, (![0, 1087, 0] : Fin 3 → Nat) a + S16x1x64.size a ≤ S16x1600x64.size a
  inb_S16x1600x64_S16x1x64_0_1127_0 : ∀ a, (![0, 1127, 0] : Fin 3 → Nat) a + S16x1x64.size a ≤ S16x1600x64.size a
  inb_S16x1600x64_S16x1x64_0_1167_0 : ∀ a, (![0, 1167, 0] : Fin 3 → Nat) a + S16x1x64.size a ≤ S16x1600x64.size a
  inb_S16x1600x64_S16x1x64_0_1207_0 : ∀ a, (![0, 1207, 0] : Fin 3 → Nat) a + S16x1x64.size a ≤ S16x1600x64.size a
  inb_S16x1600x64_S16x1x64_0_1247_0 : ∀ a, (![0, 1247, 0] : Fin 3 → Nat) a + S16x1x64.size a ≤ S16x1600x64.size a
  inb_S16x1600x64_S16x1x64_0_1287_0 : ∀ a, (![0, 1287, 0] : Fin 3 → Nat) a + S16x1x64.size a ≤ S16x1600x64.size a
  inb_S16x1600x64_S16x1x64_0_1327_0 : ∀ a, (![0, 1327, 0] : Fin 3 → Nat) a + S16x1x64.size a ≤ S16x1600x64.size a
  inb_S16x1600x64_S16x1x64_0_1367_0 : ∀ a, (![0, 1367, 0] : Fin 3 → Nat) a + S16x1x64.size a ≤ S16x1600x64.size a
  inb_S16x1600x64_S16x1x64_0_1407_0 : ∀ a, (![0, 1407, 0] : Fin 3 → Nat) a + S16x1x64.size a ≤ S16x1600x64.size a
  inb_S16x1600x64_S16x1x64_0_1447_0 : ∀ a, (![0, 1447, 0] : Fin 3 → Nat) a + S16x1x64.size a ≤ S16x1600x64.size a
  inb_S16x1600x64_S16x1x64_0_1487_0 : ∀ a, (![0, 1487, 0] : Fin 3 → Nat) a + S16x1x64.size a ≤ S16x1600x64.size a
  inb_S16x1600x64_S16x1x64_0_1527_0 : ∀ a, (![0, 1527, 0] : Fin 3 → Nat) a + S16x1x64.size a ≤ S16x1600x64.size a
  inb_S16x1600x64_S16x1x64_0_1567_0 : ∀ a, (![0, 1567, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x32x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x32x64 1
  inb_S16x780x64_S16x32x64_0_252_0 : ∀ a, (![0, 252, 0] : Fin 3 → Nat) a + S16x32x64.size a ≤ S16x780x64.size a
  inb_S16x1600x64_S16x31x64_0_329_0 : ∀ a, (![0, 329, 0] : Fin 3 → Nat) a + S16x31x64.size a ≤ S16x1600x64.size a
  h_S16x31x64 : 0 < S16x31x64.numel
  inb_S16x1600x64_S16x1x64_0_368_0 : ∀ a, (![0, 368, 0] : Fin 3 → Nat) a + S16x1x64.size a ≤ S16x1600x64.size a
  inb_S16x1600x64_S16x1x64_0_408_0 : ∀ a, (![0, 408, 0] : Fin 3 → Nat) a + S16x1x64.size a ≤ S16x1600x64.size a
  inb_S16x1600x64_S16x1x64_0_448_0 : ∀ a, (![0, 448, 0] : Fin 3 → Nat) a + S16x1x64.size a ≤ S16x1600x64.size a
  inb_S16x1600x64_S16x1x64_0_488_0 : ∀ a, (![0, 488, 0] : Fin 3 → Nat) a + S16x1x64.size a ≤ S16x1600x64.size a
  inb_S16x1600x64_S16x1x64_0_528_0 : ∀ a, (![0, 528, 0] : Fin 3 → Nat) a + S16x1x64.size a ≤ S16x1600x64.size a
  inb_S16x1600x64_S16x1x64_0_568_0 : ∀ a, (![0, 568, 0] : Fin 3 → Nat) a + S16x1x64.size a ≤ S16x1600x64.size a
  inb_S16x1600x64_S16x1x64_0_608_0 : ∀ a, (![0, 608, 0] : Fin 3 → Nat) a + S16x1x64.size a ≤ S16x1600x64.size a
  inb_S16x1600x64_S16x1x64_0_648_0 : ∀ a, (![0, 648, 0] : Fin 3 → Nat) a + S16x1x64.size a ≤ S16x1600x64.size a
  inb_S16x1600x64_S16x1x64_0_688_0 : ∀ a, (![0, 688, 0] : Fin 3 → Nat) a + S16x1x64.size a ≤ S16x1600x64.size a
  inb_S16x1600x64_S16x1x64_0_728_0 : ∀ a, (![0, 728, 0] : Fin 3 → Nat) a + S16x1x64.size a ≤ S16x1600x64.size a
  inb_S16x1600x64_S16x1x64_0_768_0 : ∀ a, (![0, 768, 0] : Fin 3 → Nat) a + S16x1x64.size a ≤ S16x1600x64.size a
  inb_S16x1600x64_S16x1x64_0_808_0 : ∀ a, (![0, 808, 0] : Fin 3 → Nat) a + S16x1x64.size a ≤ S16x1600x64.size a
  inb_S16x1600x64_S16x1x64_0_848_0 : ∀ a, (![0, 848, 0] : Fin 3 → Nat) a + S16x1x64.size a ≤ S16x1600x64.size a
  inb_S16x1600x64_S16x1x64_0_888_0 : ∀ a, (![0, 888, 0] : Fin 3 → Nat) a + S16x1x64.size a ≤ S16x1600x64.size a
  inb_S16x1600x64_S16x1x64_0_928_0 : ∀ a, (![0, 928, 0] : Fin 3 → Nat) a + S16x1x64.size a ≤ S16x1600x64.size a
  inb_S16x1600x64_S16x1x64_0_968_0 : ∀ a, (![0, 968, 0] : Fin 3 → Nat) a + S16x1x64.size a ≤ S16x1600x64.size a
  inb_S16x1600x64_S16x1x64_0_1008_0 : ∀ a, (![0, 1008, 0] : Fin 3 → Nat) a + S16x1x64.size a ≤ S16x1600x64.size a
  inb_S16x1600x64_S16x1x64_0_1048_0 : ∀ a, (![0, 1048, 0] : Fin 3 → Nat) a + S16x1x64.size a ≤ S16x1600x64.size a
  inb_S16x1600x64_S16x1x64_0_1088_0 : ∀ a, (![0, 1088, 0] : Fin 3 → Nat) a + S16x1x64.size a ≤ S16x1600x64.size a
  inb_S16x1600x64_S16x1x64_0_1128_0 : ∀ a, (![0, 1128, 0] : Fin 3 → Nat) a + S16x1x64.size a ≤ S16x1600x64.size a
  inb_S16x1600x64_S16x1x64_0_1168_0 : ∀ a, (![0, 1168, 0] : Fin 3 → Nat) a + S16x1x64.size a ≤ S16x1600x64.size a
  inb_S16x1600x64_S16x1x64_0_1208_0 : ∀ a, (![0, 1208, 0] : Fin 3 → Nat) a + S16x1x64.size a ≤ S16x1600x64.size a
  inb_S16x1600x64_S16x1x64_0_1248_0 : ∀ a, (![0, 1248, 0] : Fin 3 → Nat) a + S16x1x64.size a ≤ S16x1600x64.size a
  inb_S16x1600x64_S16x1x64_0_1288_0 : ∀ a, (![0, 1288, 0] : Fin 3 → Nat) a + S16x1x64.size a ≤ S16x1600x64.size a
  inb_S16x1600x64_S16x1x64_0_1328_0 : ∀ a, (![0, 1328, 0] : Fin 3 → Nat) a + S16x1x64.size a ≤ S16x1600x64.size a
  inb_S16x1600x64_S16x1x64_0_1368_0 : ∀ a, (![0, 1368, 0] : Fin 3 → Nat) a + S16x1x64.size a ≤ S16x1600x64.size a
  inb_S16x1600x64_S16x1x64_0_1408_0 : ∀ a, (![0, 1408, 0] : Fin 3 → Nat) a + S16x1x64.size a ≤ S16x1600x64.size a
  inb_S16x1600x64_S16x1x64_0_1448_0 : ∀ a, (![0, 1448, 0] : Fin 3 → Nat) a + S16x1x64.size a ≤ S16x1600x64.size a
  inb_S16x1600x64_S16x1x64_0_1488_0 : ∀ a, (![0, 1488, 0] : Fin 3 → Nat) a + S16x1x64.size a ≤ S16x1600x64.size a
  inb_S16x1600x64_S16x1x64_0_1528_0 : ∀ a, (![0, 1528, 0] : Fin 3 → Nat) a + S16x1x64.size a ≤ S16x1600x64.size a
  inb_S16x1600x64_S16x1x64_0_1568_0 : ∀ a, (![0, 1568, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x31x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x31x64 1
  inb_S16x780x64_S16x31x64_0_284_0 : ∀ a, (![0, 284, 0] : Fin 3 → Nat) a + S16x31x64.size a ≤ S16x780x64.size a
  inb_S16x1600x64_S16x30x64_0_370_0 : ∀ a, (![0, 370, 0] : Fin 3 → Nat) a + S16x30x64.size a ≤ S16x1600x64.size a
  h_S16x30x64 : 0 < S16x30x64.numel
  inb_S16x1600x64_S16x1x64_0_409_0 : ∀ a, (![0, 409, 0] : Fin 3 → Nat) a + S16x1x64.size a ≤ S16x1600x64.size a
  inb_S16x1600x64_S16x1x64_0_449_0 : ∀ a, (![0, 449, 0] : Fin 3 → Nat) a + S16x1x64.size a ≤ S16x1600x64.size a
  inb_S16x1600x64_S16x1x64_0_489_0 : ∀ a, (![0, 489, 0] : Fin 3 → Nat) a + S16x1x64.size a ≤ S16x1600x64.size a
  inb_S16x1600x64_S16x1x64_0_529_0 : ∀ a, (![0, 529, 0] : Fin 3 → Nat) a + S16x1x64.size a ≤ S16x1600x64.size a
  inb_S16x1600x64_S16x1x64_0_569_0 : ∀ a, (![0, 569, 0] : Fin 3 → Nat) a + S16x1x64.size a ≤ S16x1600x64.size a
  inb_S16x1600x64_S16x1x64_0_609_0 : ∀ a, (![0, 609, 0] : Fin 3 → Nat) a + S16x1x64.size a ≤ S16x1600x64.size a
  inb_S16x1600x64_S16x1x64_0_649_0 : ∀ a, (![0, 649, 0] : Fin 3 → Nat) a + S16x1x64.size a ≤ S16x1600x64.size a
  inb_S16x1600x64_S16x1x64_0_689_0 : ∀ a, (![0, 689, 0] : Fin 3 → Nat) a + S16x1x64.size a ≤ S16x1600x64.size a
  inb_S16x1600x64_S16x1x64_0_729_0 : ∀ a, (![0, 729, 0] : Fin 3 → Nat) a + S16x1x64.size a ≤ S16x1600x64.size a
  inb_S16x1600x64_S16x1x64_0_769_0 : ∀ a, (![0, 769, 0] : Fin 3 → Nat) a + S16x1x64.size a ≤ S16x1600x64.size a
  inb_S16x1600x64_S16x1x64_0_809_0 : ∀ a, (![0, 809, 0] : Fin 3 → Nat) a + S16x1x64.size a ≤ S16x1600x64.size a
  inb_S16x1600x64_S16x1x64_0_849_0 : ∀ a, (![0, 849, 0] : Fin 3 → Nat) a + S16x1x64.size a ≤ S16x1600x64.size a
  inb_S16x1600x64_S16x1x64_0_889_0 : ∀ a, (![0, 889, 0] : Fin 3 → Nat) a + S16x1x64.size a ≤ S16x1600x64.size a
  inb_S16x1600x64_S16x1x64_0_929_0 : ∀ a, (![0, 929, 0] : Fin 3 → Nat) a + S16x1x64.size a ≤ S16x1600x64.size a
  inb_S16x1600x64_S16x1x64_0_969_0 : ∀ a, (![0, 969, 0] : Fin 3 → Nat) a + S16x1x64.size a ≤ S16x1600x64.size a
  inb_S16x1600x64_S16x1x64_0_1009_0 : ∀ a, (![0, 1009, 0] : Fin 3 → Nat) a + S16x1x64.size a ≤ S16x1600x64.size a
  inb_S16x1600x64_S16x1x64_0_1049_0 : ∀ a, (![0, 1049, 0] : Fin 3 → Nat) a + S16x1x64.size a ≤ S16x1600x64.size a
  inb_S16x1600x64_S16x1x64_0_1089_0 : ∀ a, (![0, 1089, 0] : Fin 3 → Nat) a + S16x1x64.size a ≤ S16x1600x64.size a
  inb_S16x1600x64_S16x1x64_0_1129_0 : ∀ a, (![0, 1129, 0] : Fin 3 → Nat) a + S16x1x64.size a ≤ S16x1600x64.size a
  inb_S16x1600x64_S16x1x64_0_1169_0 : ∀ a, (![0, 1169, 0] : Fin 3 → Nat) a + S16x1x64.size a ≤ S16x1600x64.size a
  inb_S16x1600x64_S16x1x64_0_1209_0 : ∀ a, (![0, 1209, 0] : Fin 3 → Nat) a + S16x1x64.size a ≤ S16x1600x64.size a
  inb_S16x1600x64_S16x1x64_0_1249_0 : ∀ a, (![0, 1249, 0] : Fin 3 → Nat) a + S16x1x64.size a ≤ S16x1600x64.size a
  inb_S16x1600x64_S16x1x64_0_1289_0 : ∀ a, (![0, 1289, 0] : Fin 3 → Nat) a + S16x1x64.size a ≤ S16x1600x64.size a
  inb_S16x1600x64_S16x1x64_0_1329_0 : ∀ a, (![0, 1329, 0] : Fin 3 → Nat) a + S16x1x64.size a ≤ S16x1600x64.size a
  inb_S16x1600x64_S16x1x64_0_1369_0 : ∀ a, (![0, 1369, 0] : Fin 3 → Nat) a + S16x1x64.size a ≤ S16x1600x64.size a
  inb_S16x1600x64_S16x1x64_0_1409_0 : ∀ a, (![0, 1409, 0] : Fin 3 → Nat) a + S16x1x64.size a ≤ S16x1600x64.size a
  inb_S16x1600x64_S16x1x64_0_1449_0 : ∀ a, (![0, 1449, 0] : Fin 3 → Nat) a + S16x1x64.size a ≤ S16x1600x64.size a
  inb_S16x1600x64_S16x1x64_0_1489_0 : ∀ a, (![0, 1489, 0] : Fin 3 → Nat) a + S16x1x64.size a ≤ S16x1600x64.size a
  inb_S16x1600x64_S16x1x64_0_1529_0 : ∀ a, (![0, 1529, 0] : Fin 3 → Nat) a + S16x1x64.size a ≤ S16x1600x64.size a
  inb_S16x1600x64_S16x1x64_0_1569_0 : ∀ a, (![0, 1569, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x30x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x30x64 1
  inb_S16x780x64_S16x30x64_0_315_0 : ∀ a, (![0, 315, 0] : Fin 3 → Nat) a + S16x30x64.size a ≤ S16x780x64.size a
  inb_S16x1600x64_S16x29x64_0_411_0 : ∀ a, (![0, 411, 0] : Fin 3 → Nat) a + S16x29x64.size a ≤ S16x1600x64.size a
  h_S16x29x64 : 0 < S16x29x64.numel
  inb_S16x1600x64_S16x1x64_0_450_0 : ∀ a, (![0, 450, 0] : Fin 3 → Nat) a + S16x1x64.size a ≤ S16x1600x64.size a
  inb_S16x1600x64_S16x1x64_0_490_0 : ∀ a, (![0, 490, 0] : Fin 3 → Nat) a + S16x1x64.size a ≤ S16x1600x64.size a
  inb_S16x1600x64_S16x1x64_0_530_0 : ∀ a, (![0, 530, 0] : Fin 3 → Nat) a + S16x1x64.size a ≤ S16x1600x64.size a
  inb_S16x1600x64_S16x1x64_0_570_0 : ∀ a, (![0, 570, 0] : Fin 3 → Nat) a + S16x1x64.size a ≤ S16x1600x64.size a
  inb_S16x1600x64_S16x1x64_0_610_0 : ∀ a, (![0, 610, 0] : Fin 3 → Nat) a + S16x1x64.size a ≤ S16x1600x64.size a
  inb_S16x1600x64_S16x1x64_0_650_0 : ∀ a, (![0, 650, 0] : Fin 3 → Nat) a + S16x1x64.size a ≤ S16x1600x64.size a
  inb_S16x1600x64_S16x1x64_0_690_0 : ∀ a, (![0, 690, 0] : Fin 3 → Nat) a + S16x1x64.size a ≤ S16x1600x64.size a
  inb_S16x1600x64_S16x1x64_0_730_0 : ∀ a, (![0, 730, 0] : Fin 3 → Nat) a + S16x1x64.size a ≤ S16x1600x64.size a
  inb_S16x1600x64_S16x1x64_0_770_0 : ∀ a, (![0, 770, 0] : Fin 3 → Nat) a + S16x1x64.size a ≤ S16x1600x64.size a
  inb_S16x1600x64_S16x1x64_0_810_0 : ∀ a, (![0, 810, 0] : Fin 3 → Nat) a + S16x1x64.size a ≤ S16x1600x64.size a
  inb_S16x1600x64_S16x1x64_0_850_0 : ∀ a, (![0, 850, 0] : Fin 3 → Nat) a + S16x1x64.size a ≤ S16x1600x64.size a
  inb_S16x1600x64_S16x1x64_0_890_0 : ∀ a, (![0, 890, 0] : Fin 3 → Nat) a + S16x1x64.size a ≤ S16x1600x64.size a
  inb_S16x1600x64_S16x1x64_0_930_0 : ∀ a, (![0, 930, 0] : Fin 3 → Nat) a + S16x1x64.size a ≤ S16x1600x64.size a
  inb_S16x1600x64_S16x1x64_0_970_0 : ∀ a, (![0, 970, 0] : Fin 3 → Nat) a + S16x1x64.size a ≤ S16x1600x64.size a
  inb_S16x1600x64_S16x1x64_0_1010_0 : ∀ a, (![0, 1010, 0] : Fin 3 → Nat) a + S16x1x64.size a ≤ S16x1600x64.size a
  inb_S16x1600x64_S16x1x64_0_1050_0 : ∀ a, (![0, 1050, 0] : Fin 3 → Nat) a + S16x1x64.size a ≤ S16x1600x64.size a
  inb_S16x1600x64_S16x1x64_0_1090_0 : ∀ a, (![0, 1090, 0] : Fin 3 → Nat) a + S16x1x64.size a ≤ S16x1600x64.size a
  inb_S16x1600x64_S16x1x64_0_1130_0 : ∀ a, (![0, 1130, 0] : Fin 3 → Nat) a + S16x1x64.size a ≤ S16x1600x64.size a
  inb_S16x1600x64_S16x1x64_0_1170_0 : ∀ a, (![0, 1170, 0] : Fin 3 → Nat) a + S16x1x64.size a ≤ S16x1600x64.size a
  inb_S16x1600x64_S16x1x64_0_1210_0 : ∀ a, (![0, 1210, 0] : Fin 3 → Nat) a + S16x1x64.size a ≤ S16x1600x64.size a
  inb_S16x1600x64_S16x1x64_0_1250_0 : ∀ a, (![0, 1250, 0] : Fin 3 → Nat) a + S16x1x64.size a ≤ S16x1600x64.size a
  inb_S16x1600x64_S16x1x64_0_1290_0 : ∀ a, (![0, 1290, 0] : Fin 3 → Nat) a + S16x1x64.size a ≤ S16x1600x64.size a
  inb_S16x1600x64_S16x1x64_0_1330_0 : ∀ a, (![0, 1330, 0] : Fin 3 → Nat) a + S16x1x64.size a ≤ S16x1600x64.size a
  inb_S16x1600x64_S16x1x64_0_1370_0 : ∀ a, (![0, 1370, 0] : Fin 3 → Nat) a + S16x1x64.size a ≤ S16x1600x64.size a
  inb_S16x1600x64_S16x1x64_0_1410_0 : ∀ a, (![0, 1410, 0] : Fin 3 → Nat) a + S16x1x64.size a ≤ S16x1600x64.size a
  inb_S16x1600x64_S16x1x64_0_1450_0 : ∀ a, (![0, 1450, 0] : Fin 3 → Nat) a + S16x1x64.size a ≤ S16x1600x64.size a
  inb_S16x1600x64_S16x1x64_0_1490_0 : ∀ a, (![0, 1490, 0] : Fin 3 → Nat) a + S16x1x64.size a ≤ S16x1600x64.size a
  inb_S16x1600x64_S16x1x64_0_1530_0 : ∀ a, (![0, 1530, 0] : Fin 3 → Nat) a + S16x1x64.size a ≤ S16x1600x64.size a
  inb_S16x1600x64_S16x1x64_0_1570_0 : ∀ a, (![0, 1570, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x29x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x29x64 1
  inb_S16x780x64_S16x29x64_0_345_0 : ∀ a, (![0, 345, 0] : Fin 3 → Nat) a + S16x29x64.size a ≤ S16x780x64.size a
  inb_S16x1600x64_S16x28x64_0_452_0 : ∀ a, (![0, 452, 0] : Fin 3 → Nat) a + S16x28x64.size a ≤ S16x1600x64.size a
  h_S16x28x64 : 0 < S16x28x64.numel
  inb_S16x1600x64_S16x1x64_0_491_0 : ∀ a, (![0, 491, 0] : Fin 3 → Nat) a + S16x1x64.size a ≤ S16x1600x64.size a
  inb_S16x1600x64_S16x1x64_0_531_0 : ∀ a, (![0, 531, 0] : Fin 3 → Nat) a + S16x1x64.size a ≤ S16x1600x64.size a
  inb_S16x1600x64_S16x1x64_0_571_0 : ∀ a, (![0, 571, 0] : Fin 3 → Nat) a + S16x1x64.size a ≤ S16x1600x64.size a
  inb_S16x1600x64_S16x1x64_0_611_0 : ∀ a, (![0, 611, 0] : Fin 3 → Nat) a + S16x1x64.size a ≤ S16x1600x64.size a
  inb_S16x1600x64_S16x1x64_0_651_0 : ∀ a, (![0, 651, 0] : Fin 3 → Nat) a + S16x1x64.size a ≤ S16x1600x64.size a
  inb_S16x1600x64_S16x1x64_0_691_0 : ∀ a, (![0, 691, 0] : Fin 3 → Nat) a + S16x1x64.size a ≤ S16x1600x64.size a
  inb_S16x1600x64_S16x1x64_0_731_0 : ∀ a, (![0, 731, 0] : Fin 3 → Nat) a + S16x1x64.size a ≤ S16x1600x64.size a
  inb_S16x1600x64_S16x1x64_0_771_0 : ∀ a, (![0, 771, 0] : Fin 3 → Nat) a + S16x1x64.size a ≤ S16x1600x64.size a
  inb_S16x1600x64_S16x1x64_0_811_0 : ∀ a, (![0, 811, 0] : Fin 3 → Nat) a + S16x1x64.size a ≤ S16x1600x64.size a
  inb_S16x1600x64_S16x1x64_0_851_0 : ∀ a, (![0, 851, 0] : Fin 3 → Nat) a + S16x1x64.size a ≤ S16x1600x64.size a
  inb_S16x1600x64_S16x1x64_0_891_0 : ∀ a, (![0, 891, 0] : Fin 3 → Nat) a + S16x1x64.size a ≤ S16x1600x64.size a
  inb_S16x1600x64_S16x1x64_0_931_0 : ∀ a, (![0, 931, 0] : Fin 3 → Nat) a + S16x1x64.size a ≤ S16x1600x64.size a
  inb_S16x1600x64_S16x1x64_0_971_0 : ∀ a, (![0, 971, 0] : Fin 3 → Nat) a + S16x1x64.size a ≤ S16x1600x64.size a
  inb_S16x1600x64_S16x1x64_0_1011_0 : ∀ a, (![0, 1011, 0] : Fin 3 → Nat) a + S16x1x64.size a ≤ S16x1600x64.size a
  inb_S16x1600x64_S16x1x64_0_1051_0 : ∀ a, (![0, 1051, 0] : Fin 3 → Nat) a + S16x1x64.size a ≤ S16x1600x64.size a
  inb_S16x1600x64_S16x1x64_0_1091_0 : ∀ a, (![0, 1091, 0] : Fin 3 → Nat) a + S16x1x64.size a ≤ S16x1600x64.size a
  inb_S16x1600x64_S16x1x64_0_1131_0 : ∀ a, (![0, 1131, 0] : Fin 3 → Nat) a + S16x1x64.size a ≤ S16x1600x64.size a
  inb_S16x1600x64_S16x1x64_0_1171_0 : ∀ a, (![0, 1171, 0] : Fin 3 → Nat) a + S16x1x64.size a ≤ S16x1600x64.size a
  inb_S16x1600x64_S16x1x64_0_1211_0 : ∀ a, (![0, 1211, 0] : Fin 3 → Nat) a + S16x1x64.size a ≤ S16x1600x64.size a
  inb_S16x1600x64_S16x1x64_0_1251_0 : ∀ a, (![0, 1251, 0] : Fin 3 → Nat) a + S16x1x64.size a ≤ S16x1600x64.size a
  inb_S16x1600x64_S16x1x64_0_1291_0 : ∀ a, (![0, 1291, 0] : Fin 3 → Nat) a + S16x1x64.size a ≤ S16x1600x64.size a
  inb_S16x1600x64_S16x1x64_0_1331_0 : ∀ a, (![0, 1331, 0] : Fin 3 → Nat) a + S16x1x64.size a ≤ S16x1600x64.size a
  inb_S16x1600x64_S16x1x64_0_1371_0 : ∀ a, (![0, 1371, 0] : Fin 3 → Nat) a + S16x1x64.size a ≤ S16x1600x64.size a
  inb_S16x1600x64_S16x1x64_0_1411_0 : ∀ a, (![0, 1411, 0] : Fin 3 → Nat) a + S16x1x64.size a ≤ S16x1600x64.size a
  inb_S16x1600x64_S16x1x64_0_1451_0 : ∀ a, (![0, 1451, 0] : Fin 3 → Nat) a + S16x1x64.size a ≤ S16x1600x64.size a
  inb_S16x1600x64_S16x1x64_0_1491_0 : ∀ a, (![0, 1491, 0] : Fin 3 → Nat) a + S16x1x64.size a ≤ S16x1600x64.size a
  inb_S16x1600x64_S16x1x64_0_1531_0 : ∀ a, (![0, 1531, 0] : Fin 3 → Nat) a + S16x1x64.size a ≤ S16x1600x64.size a
  inb_S16x1600x64_S16x1x64_0_1571_0 : ∀ a, (![0, 1571, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x28x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x28x64 1
  inb_S16x780x64_S16x28x64_0_374_0 : ∀ a, (![0, 374, 0] : Fin 3 → Nat) a + S16x28x64.size a ≤ S16x780x64.size a
  inb_S16x1600x64_S16x27x64_0_493_0 : ∀ a, (![0, 493, 0] : Fin 3 → Nat) a + S16x27x64.size a ≤ S16x1600x64.size a
  h_S16x27x64 : 0 < S16x27x64.numel
  inb_S16x1600x64_S16x1x64_0_532_0 : ∀ a, (![0, 532, 0] : Fin 3 → Nat) a + S16x1x64.size a ≤ S16x1600x64.size a
  inb_S16x1600x64_S16x1x64_0_572_0 : ∀ a, (![0, 572, 0] : Fin 3 → Nat) a + S16x1x64.size a ≤ S16x1600x64.size a
  inb_S16x1600x64_S16x1x64_0_612_0 : ∀ a, (![0, 612, 0] : Fin 3 → Nat) a + S16x1x64.size a ≤ S16x1600x64.size a
  inb_S16x1600x64_S16x1x64_0_652_0 : ∀ a, (![0, 652, 0] : Fin 3 → Nat) a + S16x1x64.size a ≤ S16x1600x64.size a
  inb_S16x1600x64_S16x1x64_0_692_0 : ∀ a, (![0, 692, 0] : Fin 3 → Nat) a + S16x1x64.size a ≤ S16x1600x64.size a
  inb_S16x1600x64_S16x1x64_0_732_0 : ∀ a, (![0, 732, 0] : Fin 3 → Nat) a + S16x1x64.size a ≤ S16x1600x64.size a
  inb_S16x1600x64_S16x1x64_0_772_0 : ∀ a, (![0, 772, 0] : Fin 3 → Nat) a + S16x1x64.size a ≤ S16x1600x64.size a
  inb_S16x1600x64_S16x1x64_0_812_0 : ∀ a, (![0, 812, 0] : Fin 3 → Nat) a + S16x1x64.size a ≤ S16x1600x64.size a
  inb_S16x1600x64_S16x1x64_0_852_0 : ∀ a, (![0, 852, 0] : Fin 3 → Nat) a + S16x1x64.size a ≤ S16x1600x64.size a
  inb_S16x1600x64_S16x1x64_0_892_0 : ∀ a, (![0, 892, 0] : Fin 3 → Nat) a + S16x1x64.size a ≤ S16x1600x64.size a
  inb_S16x1600x64_S16x1x64_0_932_0 : ∀ a, (![0, 932, 0] : Fin 3 → Nat) a + S16x1x64.size a ≤ S16x1600x64.size a
  inb_S16x1600x64_S16x1x64_0_972_0 : ∀ a, (![0, 972, 0] : Fin 3 → Nat) a + S16x1x64.size a ≤ S16x1600x64.size a
  inb_S16x1600x64_S16x1x64_0_1012_0 : ∀ a, (![0, 1012, 0] : Fin 3 → Nat) a + S16x1x64.size a ≤ S16x1600x64.size a
  inb_S16x1600x64_S16x1x64_0_1052_0 : ∀ a, (![0, 1052, 0] : Fin 3 → Nat) a + S16x1x64.size a ≤ S16x1600x64.size a
  inb_S16x1600x64_S16x1x64_0_1092_0 : ∀ a, (![0, 1092, 0] : Fin 3 → Nat) a + S16x1x64.size a ≤ S16x1600x64.size a
  inb_S16x1600x64_S16x1x64_0_1132_0 : ∀ a, (![0, 1132, 0] : Fin 3 → Nat) a + S16x1x64.size a ≤ S16x1600x64.size a
  inb_S16x1600x64_S16x1x64_0_1172_0 : ∀ a, (![0, 1172, 0] : Fin 3 → Nat) a + S16x1x64.size a ≤ S16x1600x64.size a
  inb_S16x1600x64_S16x1x64_0_1212_0 : ∀ a, (![0, 1212, 0] : Fin 3 → Nat) a + S16x1x64.size a ≤ S16x1600x64.size a
  inb_S16x1600x64_S16x1x64_0_1252_0 : ∀ a, (![0, 1252, 0] : Fin 3 → Nat) a + S16x1x64.size a ≤ S16x1600x64.size a
  inb_S16x1600x64_S16x1x64_0_1292_0 : ∀ a, (![0, 1292, 0] : Fin 3 → Nat) a + S16x1x64.size a ≤ S16x1600x64.size a
  inb_S16x1600x64_S16x1x64_0_1332_0 : ∀ a, (![0, 1332, 0] : Fin 3 → Nat) a + S16x1x64.size a ≤ S16x1600x64.size a
  inb_S16x1600x64_S16x1x64_0_1372_0 : ∀ a, (![0, 1372, 0] : Fin 3 → Nat) a + S16x1x64.size a ≤ S16x1600x64.size a
  inb_S16x1600x64_S16x1x64_0_1412_0 : ∀ a, (![0, 1412, 0] : Fin 3 → Nat) a + S16x1x64.size a ≤ S16x1600x64.size a
  inb_S16x1600x64_S16x1x64_0_1452_0 : ∀ a, (![0, 1452, 0] : Fin 3 → Nat) a + S16x1x64.size a ≤ S16x1600x64.size a
  inb_S16x1600x64_S16x1x64_0_1492_0 : ∀ a, (![0, 1492, 0] : Fin 3 → Nat) a + S16x1x64.size a ≤ S16x1600x64.size a
  inb_S16x1600x64_S16x1x64_0_1532_0 : ∀ a, (![0, 1532, 0] : Fin 3 → Nat) a + S16x1x64.size a ≤ S16x1600x64.size a
  inb_S16x1600x64_S16x1x64_0_1572_0 : ∀ a, (![0, 1572, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x27x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x27x64 1
  inb_S16x780x64_S16x27x64_0_402_0 : ∀ a, (![0, 402, 0] : Fin 3 → Nat) a + S16x27x64.size a ≤ S16x780x64.size a
  inb_S16x1600x64_S16x26x64_0_534_0 : ∀ a, (![0, 534, 0] : Fin 3 → Nat) a + S16x26x64.size a ≤ S16x1600x64.size a
  h_S16x26x64 : 0 < S16x26x64.numel
  inb_S16x1600x64_S16x1x64_0_573_0 : ∀ a, (![0, 573, 0] : Fin 3 → Nat) a + S16x1x64.size a ≤ S16x1600x64.size a
  inb_S16x1600x64_S16x1x64_0_613_0 : ∀ a, (![0, 613, 0] : Fin 3 → Nat) a + S16x1x64.size a ≤ S16x1600x64.size a
  inb_S16x1600x64_S16x1x64_0_653_0 : ∀ a, (![0, 653, 0] : Fin 3 → Nat) a + S16x1x64.size a ≤ S16x1600x64.size a
  inb_S16x1600x64_S16x1x64_0_693_0 : ∀ a, (![0, 693, 0] : Fin 3 → Nat) a + S16x1x64.size a ≤ S16x1600x64.size a
  inb_S16x1600x64_S16x1x64_0_733_0 : ∀ a, (![0, 733, 0] : Fin 3 → Nat) a + S16x1x64.size a ≤ S16x1600x64.size a
  inb_S16x1600x64_S16x1x64_0_773_0 : ∀ a, (![0, 773, 0] : Fin 3 → Nat) a + S16x1x64.size a ≤ S16x1600x64.size a
  inb_S16x1600x64_S16x1x64_0_813_0 : ∀ a, (![0, 813, 0] : Fin 3 → Nat) a + S16x1x64.size a ≤ S16x1600x64.size a
  inb_S16x1600x64_S16x1x64_0_853_0 : ∀ a, (![0, 853, 0] : Fin 3 → Nat) a + S16x1x64.size a ≤ S16x1600x64.size a
  inb_S16x1600x64_S16x1x64_0_893_0 : ∀ a, (![0, 893, 0] : Fin 3 → Nat) a + S16x1x64.size a ≤ S16x1600x64.size a
  inb_S16x1600x64_S16x1x64_0_933_0 : ∀ a, (![0, 933, 0] : Fin 3 → Nat) a + S16x1x64.size a ≤ S16x1600x64.size a
  inb_S16x1600x64_S16x1x64_0_973_0 : ∀ a, (![0, 973, 0] : Fin 3 → Nat) a + S16x1x64.size a ≤ S16x1600x64.size a
  inb_S16x1600x64_S16x1x64_0_1013_0 : ∀ a, (![0, 1013, 0] : Fin 3 → Nat) a + S16x1x64.size a ≤ S16x1600x64.size a
  inb_S16x1600x64_S16x1x64_0_1053_0 : ∀ a, (![0, 1053, 0] : Fin 3 → Nat) a + S16x1x64.size a ≤ S16x1600x64.size a
  inb_S16x1600x64_S16x1x64_0_1093_0 : ∀ a, (![0, 1093, 0] : Fin 3 → Nat) a + S16x1x64.size a ≤ S16x1600x64.size a
  inb_S16x1600x64_S16x1x64_0_1133_0 : ∀ a, (![0, 1133, 0] : Fin 3 → Nat) a + S16x1x64.size a ≤ S16x1600x64.size a
  inb_S16x1600x64_S16x1x64_0_1173_0 : ∀ a, (![0, 1173, 0] : Fin 3 → Nat) a + S16x1x64.size a ≤ S16x1600x64.size a
  inb_S16x1600x64_S16x1x64_0_1213_0 : ∀ a, (![0, 1213, 0] : Fin 3 → Nat) a + S16x1x64.size a ≤ S16x1600x64.size a
  inb_S16x1600x64_S16x1x64_0_1253_0 : ∀ a, (![0, 1253, 0] : Fin 3 → Nat) a + S16x1x64.size a ≤ S16x1600x64.size a
  inb_S16x1600x64_S16x1x64_0_1293_0 : ∀ a, (![0, 1293, 0] : Fin 3 → Nat) a + S16x1x64.size a ≤ S16x1600x64.size a
  inb_S16x1600x64_S16x1x64_0_1333_0 : ∀ a, (![0, 1333, 0] : Fin 3 → Nat) a + S16x1x64.size a ≤ S16x1600x64.size a
  inb_S16x1600x64_S16x1x64_0_1373_0 : ∀ a, (![0, 1373, 0] : Fin 3 → Nat) a + S16x1x64.size a ≤ S16x1600x64.size a
  inb_S16x1600x64_S16x1x64_0_1413_0 : ∀ a, (![0, 1413, 0] : Fin 3 → Nat) a + S16x1x64.size a ≤ S16x1600x64.size a
  inb_S16x1600x64_S16x1x64_0_1453_0 : ∀ a, (![0, 1453, 0] : Fin 3 → Nat) a + S16x1x64.size a ≤ S16x1600x64.size a
  inb_S16x1600x64_S16x1x64_0_1493_0 : ∀ a, (![0, 1493, 0] : Fin 3 → Nat) a + S16x1x64.size a ≤ S16x1600x64.size a
  inb_S16x1600x64_S16x1x64_0_1533_0 : ∀ a, (![0, 1533, 0] : Fin 3 → Nat) a + S16x1x64.size a ≤ S16x1600x64.size a
  inb_S16x1600x64_S16x1x64_0_1573_0 : ∀ a, (![0, 1573, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x26x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x26x64 1
  inb_S16x780x64_S16x26x64_0_429_0 : ∀ a, (![0, 429, 0] : Fin 3 → Nat) a + S16x26x64.size a ≤ S16x780x64.size a
  inb_S16x1600x64_S16x25x64_0_575_0 : ∀ a, (![0, 575, 0] : Fin 3 → Nat) a + S16x25x64.size a ≤ S16x1600x64.size a
  h_S16x25x64 : 0 < S16x25x64.numel
  inb_S16x1600x64_S16x1x64_0_614_0 : ∀ a, (![0, 614, 0] : Fin 3 → Nat) a + S16x1x64.size a ≤ S16x1600x64.size a
  inb_S16x1600x64_S16x1x64_0_654_0 : ∀ a, (![0, 654, 0] : Fin 3 → Nat) a + S16x1x64.size a ≤ S16x1600x64.size a
  inb_S16x1600x64_S16x1x64_0_694_0 : ∀ a, (![0, 694, 0] : Fin 3 → Nat) a + S16x1x64.size a ≤ S16x1600x64.size a
  inb_S16x1600x64_S16x1x64_0_734_0 : ∀ a, (![0, 734, 0] : Fin 3 → Nat) a + S16x1x64.size a ≤ S16x1600x64.size a
  inb_S16x1600x64_S16x1x64_0_774_0 : ∀ a, (![0, 774, 0] : Fin 3 → Nat) a + S16x1x64.size a ≤ S16x1600x64.size a
  inb_S16x1600x64_S16x1x64_0_814_0 : ∀ a, (![0, 814, 0] : Fin 3 → Nat) a + S16x1x64.size a ≤ S16x1600x64.size a
  inb_S16x1600x64_S16x1x64_0_854_0 : ∀ a, (![0, 854, 0] : Fin 3 → Nat) a + S16x1x64.size a ≤ S16x1600x64.size a
  inb_S16x1600x64_S16x1x64_0_894_0 : ∀ a, (![0, 894, 0] : Fin 3 → Nat) a + S16x1x64.size a ≤ S16x1600x64.size a
  inb_S16x1600x64_S16x1x64_0_934_0 : ∀ a, (![0, 934, 0] : Fin 3 → Nat) a + S16x1x64.size a ≤ S16x1600x64.size a
  inb_S16x1600x64_S16x1x64_0_974_0 : ∀ a, (![0, 974, 0] : Fin 3 → Nat) a + S16x1x64.size a ≤ S16x1600x64.size a
  inb_S16x1600x64_S16x1x64_0_1014_0 : ∀ a, (![0, 1014, 0] : Fin 3 → Nat) a + S16x1x64.size a ≤ S16x1600x64.size a
  inb_S16x1600x64_S16x1x64_0_1054_0 : ∀ a, (![0, 1054, 0] : Fin 3 → Nat) a + S16x1x64.size a ≤ S16x1600x64.size a
  inb_S16x1600x64_S16x1x64_0_1094_0 : ∀ a, (![0, 1094, 0] : Fin 3 → Nat) a + S16x1x64.size a ≤ S16x1600x64.size a
  inb_S16x1600x64_S16x1x64_0_1134_0 : ∀ a, (![0, 1134, 0] : Fin 3 → Nat) a + S16x1x64.size a ≤ S16x1600x64.size a
  inb_S16x1600x64_S16x1x64_0_1174_0 : ∀ a, (![0, 1174, 0] : Fin 3 → Nat) a + S16x1x64.size a ≤ S16x1600x64.size a
  inb_S16x1600x64_S16x1x64_0_1214_0 : ∀ a, (![0, 1214, 0] : Fin 3 → Nat) a + S16x1x64.size a ≤ S16x1600x64.size a
  inb_S16x1600x64_S16x1x64_0_1254_0 : ∀ a, (![0, 1254, 0] : Fin 3 → Nat) a + S16x1x64.size a ≤ S16x1600x64.size a
  inb_S16x1600x64_S16x1x64_0_1294_0 : ∀ a, (![0, 1294, 0] : Fin 3 → Nat) a + S16x1x64.size a ≤ S16x1600x64.size a
  inb_S16x1600x64_S16x1x64_0_1334_0 : ∀ a, (![0, 1334, 0] : Fin 3 → Nat) a + S16x1x64.size a ≤ S16x1600x64.size a
  inb_S16x1600x64_S16x1x64_0_1374_0 : ∀ a, (![0, 1374, 0] : Fin 3 → Nat) a + S16x1x64.size a ≤ S16x1600x64.size a
  inb_S16x1600x64_S16x1x64_0_1414_0 : ∀ a, (![0, 1414, 0] : Fin 3 → Nat) a + S16x1x64.size a ≤ S16x1600x64.size a
  inb_S16x1600x64_S16x1x64_0_1454_0 : ∀ a, (![0, 1454, 0] : Fin 3 → Nat) a + S16x1x64.size a ≤ S16x1600x64.size a
  inb_S16x1600x64_S16x1x64_0_1494_0 : ∀ a, (![0, 1494, 0] : Fin 3 → Nat) a + S16x1x64.size a ≤ S16x1600x64.size a
  inb_S16x1600x64_S16x1x64_0_1534_0 : ∀ a, (![0, 1534, 0] : Fin 3 → Nat) a + S16x1x64.size a ≤ S16x1600x64.size a
  inb_S16x1600x64_S16x1x64_0_1574_0 : ∀ a, (![0, 1574, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x25x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x25x64 1
  inb_S16x780x64_S16x25x64_0_455_0 : ∀ a, (![0, 455, 0] : Fin 3 → Nat) a + S16x25x64.size a ≤ S16x780x64.size a
  inb_S16x1600x64_S16x24x64_0_616_0 : ∀ a, (![0, 616, 0] : Fin 3 → Nat) a + S16x24x64.size a ≤ S16x1600x64.size a
  h_S16x24x64 : 0 < S16x24x64.numel
  inb_S16x1600x64_S16x1x64_0_655_0 : ∀ a, (![0, 655, 0] : Fin 3 → Nat) a + S16x1x64.size a ≤ S16x1600x64.size a
  inb_S16x1600x64_S16x1x64_0_695_0 : ∀ a, (![0, 695, 0] : Fin 3 → Nat) a + S16x1x64.size a ≤ S16x1600x64.size a
  inb_S16x1600x64_S16x1x64_0_735_0 : ∀ a, (![0, 735, 0] : Fin 3 → Nat) a + S16x1x64.size a ≤ S16x1600x64.size a
  inb_S16x1600x64_S16x1x64_0_775_0 : ∀ a, (![0, 775, 0] : Fin 3 → Nat) a + S16x1x64.size a ≤ S16x1600x64.size a
  inb_S16x1600x64_S16x1x64_0_815_0 : ∀ a, (![0, 815, 0] : Fin 3 → Nat) a + S16x1x64.size a ≤ S16x1600x64.size a
  inb_S16x1600x64_S16x1x64_0_855_0 : ∀ a, (![0, 855, 0] : Fin 3 → Nat) a + S16x1x64.size a ≤ S16x1600x64.size a
  inb_S16x1600x64_S16x1x64_0_895_0 : ∀ a, (![0, 895, 0] : Fin 3 → Nat) a + S16x1x64.size a ≤ S16x1600x64.size a
  inb_S16x1600x64_S16x1x64_0_935_0 : ∀ a, (![0, 935, 0] : Fin 3 → Nat) a + S16x1x64.size a ≤ S16x1600x64.size a
  inb_S16x1600x64_S16x1x64_0_975_0 : ∀ a, (![0, 975, 0] : Fin 3 → Nat) a + S16x1x64.size a ≤ S16x1600x64.size a
  inb_S16x1600x64_S16x1x64_0_1015_0 : ∀ a, (![0, 1015, 0] : Fin 3 → Nat) a + S16x1x64.size a ≤ S16x1600x64.size a
  inb_S16x1600x64_S16x1x64_0_1055_0 : ∀ a, (![0, 1055, 0] : Fin 3 → Nat) a + S16x1x64.size a ≤ S16x1600x64.size a
  inb_S16x1600x64_S16x1x64_0_1095_0 : ∀ a, (![0, 1095, 0] : Fin 3 → Nat) a + S16x1x64.size a ≤ S16x1600x64.size a
  inb_S16x1600x64_S16x1x64_0_1135_0 : ∀ a, (![0, 1135, 0] : Fin 3 → Nat) a + S16x1x64.size a ≤ S16x1600x64.size a
  inb_S16x1600x64_S16x1x64_0_1175_0 : ∀ a, (![0, 1175, 0] : Fin 3 → Nat) a + S16x1x64.size a ≤ S16x1600x64.size a
  inb_S16x1600x64_S16x1x64_0_1215_0 : ∀ a, (![0, 1215, 0] : Fin 3 → Nat) a + S16x1x64.size a ≤ S16x1600x64.size a
  inb_S16x1600x64_S16x1x64_0_1255_0 : ∀ a, (![0, 1255, 0] : Fin 3 → Nat) a + S16x1x64.size a ≤ S16x1600x64.size a
  inb_S16x1600x64_S16x1x64_0_1295_0 : ∀ a, (![0, 1295, 0] : Fin 3 → Nat) a + S16x1x64.size a ≤ S16x1600x64.size a
  inb_S16x1600x64_S16x1x64_0_1335_0 : ∀ a, (![0, 1335, 0] : Fin 3 → Nat) a + S16x1x64.size a ≤ S16x1600x64.size a
  inb_S16x1600x64_S16x1x64_0_1375_0 : ∀ a, (![0, 1375, 0] : Fin 3 → Nat) a + S16x1x64.size a ≤ S16x1600x64.size a
  inb_S16x1600x64_S16x1x64_0_1415_0 : ∀ a, (![0, 1415, 0] : Fin 3 → Nat) a + S16x1x64.size a ≤ S16x1600x64.size a
  inb_S16x1600x64_S16x1x64_0_1455_0 : ∀ a, (![0, 1455, 0] : Fin 3 → Nat) a + S16x1x64.size a ≤ S16x1600x64.size a
  inb_S16x1600x64_S16x1x64_0_1495_0 : ∀ a, (![0, 1495, 0] : Fin 3 → Nat) a + S16x1x64.size a ≤ S16x1600x64.size a
  inb_S16x1600x64_S16x1x64_0_1535_0 : ∀ a, (![0, 1535, 0] : Fin 3 → Nat) a + S16x1x64.size a ≤ S16x1600x64.size a
  inb_S16x1600x64_S16x1x64_0_1575_0 : ∀ a, (![0, 1575, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x24x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x24x64 1
  inb_S16x780x64_S16x24x64_0_480_0 : ∀ a, (![0, 480, 0] : Fin 3 → Nat) a + S16x24x64.size a ≤ S16x780x64.size a
  inb_S16x1600x64_S16x23x64_0_657_0 : ∀ a, (![0, 657, 0] : Fin 3 → Nat) a + S16x23x64.size a ≤ S16x1600x64.size a
  h_S16x23x64 : 0 < S16x23x64.numel
  inb_S16x1600x64_S16x1x64_0_696_0 : ∀ a, (![0, 696, 0] : Fin 3 → Nat) a + S16x1x64.size a ≤ S16x1600x64.size a
  inb_S16x1600x64_S16x1x64_0_736_0 : ∀ a, (![0, 736, 0] : Fin 3 → Nat) a + S16x1x64.size a ≤ S16x1600x64.size a
  inb_S16x1600x64_S16x1x64_0_776_0 : ∀ a, (![0, 776, 0] : Fin 3 → Nat) a + S16x1x64.size a ≤ S16x1600x64.size a
  inb_S16x1600x64_S16x1x64_0_816_0 : ∀ a, (![0, 816, 0] : Fin 3 → Nat) a + S16x1x64.size a ≤ S16x1600x64.size a
  inb_S16x1600x64_S16x1x64_0_856_0 : ∀ a, (![0, 856, 0] : Fin 3 → Nat) a + S16x1x64.size a ≤ S16x1600x64.size a
  inb_S16x1600x64_S16x1x64_0_896_0 : ∀ a, (![0, 896, 0] : Fin 3 → Nat) a + S16x1x64.size a ≤ S16x1600x64.size a
  inb_S16x1600x64_S16x1x64_0_936_0 : ∀ a, (![0, 936, 0] : Fin 3 → Nat) a + S16x1x64.size a ≤ S16x1600x64.size a
  inb_S16x1600x64_S16x1x64_0_976_0 : ∀ a, (![0, 976, 0] : Fin 3 → Nat) a + S16x1x64.size a ≤ S16x1600x64.size a
  inb_S16x1600x64_S16x1x64_0_1016_0 : ∀ a, (![0, 1016, 0] : Fin 3 → Nat) a + S16x1x64.size a ≤ S16x1600x64.size a
  inb_S16x1600x64_S16x1x64_0_1056_0 : ∀ a, (![0, 1056, 0] : Fin 3 → Nat) a + S16x1x64.size a ≤ S16x1600x64.size a
  inb_S16x1600x64_S16x1x64_0_1096_0 : ∀ a, (![0, 1096, 0] : Fin 3 → Nat) a + S16x1x64.size a ≤ S16x1600x64.size a
  inb_S16x1600x64_S16x1x64_0_1136_0 : ∀ a, (![0, 1136, 0] : Fin 3 → Nat) a + S16x1x64.size a ≤ S16x1600x64.size a
  inb_S16x1600x64_S16x1x64_0_1176_0 : ∀ a, (![0, 1176, 0] : Fin 3 → Nat) a + S16x1x64.size a ≤ S16x1600x64.size a
  inb_S16x1600x64_S16x1x64_0_1216_0 : ∀ a, (![0, 1216, 0] : Fin 3 → Nat) a + S16x1x64.size a ≤ S16x1600x64.size a
  inb_S16x1600x64_S16x1x64_0_1256_0 : ∀ a, (![0, 1256, 0] : Fin 3 → Nat) a + S16x1x64.size a ≤ S16x1600x64.size a
  inb_S16x1600x64_S16x1x64_0_1296_0 : ∀ a, (![0, 1296, 0] : Fin 3 → Nat) a + S16x1x64.size a ≤ S16x1600x64.size a
  inb_S16x1600x64_S16x1x64_0_1336_0 : ∀ a, (![0, 1336, 0] : Fin 3 → Nat) a + S16x1x64.size a ≤ S16x1600x64.size a
  inb_S16x1600x64_S16x1x64_0_1376_0 : ∀ a, (![0, 1376, 0] : Fin 3 → Nat) a + S16x1x64.size a ≤ S16x1600x64.size a
  inb_S16x1600x64_S16x1x64_0_1416_0 : ∀ a, (![0, 1416, 0] : Fin 3 → Nat) a + S16x1x64.size a ≤ S16x1600x64.size a
  inb_S16x1600x64_S16x1x64_0_1456_0 : ∀ a, (![0, 1456, 0] : Fin 3 → Nat) a + S16x1x64.size a ≤ S16x1600x64.size a
  inb_S16x1600x64_S16x1x64_0_1496_0 : ∀ a, (![0, 1496, 0] : Fin 3 → Nat) a + S16x1x64.size a ≤ S16x1600x64.size a
  inb_S16x1600x64_S16x1x64_0_1536_0 : ∀ a, (![0, 1536, 0] : Fin 3 → Nat) a + S16x1x64.size a ≤ S16x1600x64.size a
  inb_S16x1600x64_S16x1x64_0_1576_0 : ∀ a, (![0, 1576, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x23x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x23x64 1
  inb_S16x780x64_S16x23x64_0_504_0 : ∀ a, (![0, 504, 0] : Fin 3 → Nat) a + S16x23x64.size a ≤ S16x780x64.size a
  inb_S16x1600x64_S16x22x64_0_698_0 : ∀ a, (![0, 698, 0] : Fin 3 → Nat) a + S16x22x64.size a ≤ S16x1600x64.size a
  h_S16x22x64 : 0 < S16x22x64.numel
  inb_S16x1600x64_S16x1x64_0_737_0 : ∀ a, (![0, 737, 0] : Fin 3 → Nat) a + S16x1x64.size a ≤ S16x1600x64.size a
  inb_S16x1600x64_S16x1x64_0_777_0 : ∀ a, (![0, 777, 0] : Fin 3 → Nat) a + S16x1x64.size a ≤ S16x1600x64.size a
  inb_S16x1600x64_S16x1x64_0_817_0 : ∀ a, (![0, 817, 0] : Fin 3 → Nat) a + S16x1x64.size a ≤ S16x1600x64.size a
  inb_S16x1600x64_S16x1x64_0_857_0 : ∀ a, (![0, 857, 0] : Fin 3 → Nat) a + S16x1x64.size a ≤ S16x1600x64.size a
  inb_S16x1600x64_S16x1x64_0_897_0 : ∀ a, (![0, 897, 0] : Fin 3 → Nat) a + S16x1x64.size a ≤ S16x1600x64.size a
  inb_S16x1600x64_S16x1x64_0_937_0 : ∀ a, (![0, 937, 0] : Fin 3 → Nat) a + S16x1x64.size a ≤ S16x1600x64.size a
  inb_S16x1600x64_S16x1x64_0_977_0 : ∀ a, (![0, 977, 0] : Fin 3 → Nat) a + S16x1x64.size a ≤ S16x1600x64.size a
  inb_S16x1600x64_S16x1x64_0_1017_0 : ∀ a, (![0, 1017, 0] : Fin 3 → Nat) a + S16x1x64.size a ≤ S16x1600x64.size a
  inb_S16x1600x64_S16x1x64_0_1057_0 : ∀ a, (![0, 1057, 0] : Fin 3 → Nat) a + S16x1x64.size a ≤ S16x1600x64.size a
  inb_S16x1600x64_S16x1x64_0_1097_0 : ∀ a, (![0, 1097, 0] : Fin 3 → Nat) a + S16x1x64.size a ≤ S16x1600x64.size a
  inb_S16x1600x64_S16x1x64_0_1137_0 : ∀ a, (![0, 1137, 0] : Fin 3 → Nat) a + S16x1x64.size a ≤ S16x1600x64.size a
  inb_S16x1600x64_S16x1x64_0_1177_0 : ∀ a, (![0, 1177, 0] : Fin 3 → Nat) a + S16x1x64.size a ≤ S16x1600x64.size a
  inb_S16x1600x64_S16x1x64_0_1217_0 : ∀ a, (![0, 1217, 0] : Fin 3 → Nat) a + S16x1x64.size a ≤ S16x1600x64.size a
  inb_S16x1600x64_S16x1x64_0_1257_0 : ∀ a, (![0, 1257, 0] : Fin 3 → Nat) a + S16x1x64.size a ≤ S16x1600x64.size a
  inb_S16x1600x64_S16x1x64_0_1297_0 : ∀ a, (![0, 1297, 0] : Fin 3 → Nat) a + S16x1x64.size a ≤ S16x1600x64.size a
  inb_S16x1600x64_S16x1x64_0_1337_0 : ∀ a, (![0, 1337, 0] : Fin 3 → Nat) a + S16x1x64.size a ≤ S16x1600x64.size a
  inb_S16x1600x64_S16x1x64_0_1377_0 : ∀ a, (![0, 1377, 0] : Fin 3 → Nat) a + S16x1x64.size a ≤ S16x1600x64.size a
  inb_S16x1600x64_S16x1x64_0_1417_0 : ∀ a, (![0, 1417, 0] : Fin 3 → Nat) a + S16x1x64.size a ≤ S16x1600x64.size a
  inb_S16x1600x64_S16x1x64_0_1457_0 : ∀ a, (![0, 1457, 0] : Fin 3 → Nat) a + S16x1x64.size a ≤ S16x1600x64.size a
  inb_S16x1600x64_S16x1x64_0_1497_0 : ∀ a, (![0, 1497, 0] : Fin 3 → Nat) a + S16x1x64.size a ≤ S16x1600x64.size a
  inb_S16x1600x64_S16x1x64_0_1537_0 : ∀ a, (![0, 1537, 0] : Fin 3 → Nat) a + S16x1x64.size a ≤ S16x1600x64.size a
  inb_S16x1600x64_S16x1x64_0_1577_0 : ∀ a, (![0, 1577, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x22x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x22x64 1
  inb_S16x780x64_S16x22x64_0_527_0 : ∀ a, (![0, 527, 0] : Fin 3 → Nat) a + S16x22x64.size a ≤ S16x780x64.size a
  inb_S16x1600x64_S16x21x64_0_739_0 : ∀ a, (![0, 739, 0] : Fin 3 → Nat) a + S16x21x64.size a ≤ S16x1600x64.size a
  h_S16x21x64 : 0 < S16x21x64.numel
  inb_S16x1600x64_S16x1x64_0_778_0 : ∀ a, (![0, 778, 0] : Fin 3 → Nat) a + S16x1x64.size a ≤ S16x1600x64.size a
  inb_S16x1600x64_S16x1x64_0_818_0 : ∀ a, (![0, 818, 0] : Fin 3 → Nat) a + S16x1x64.size a ≤ S16x1600x64.size a
  inb_S16x1600x64_S16x1x64_0_858_0 : ∀ a, (![0, 858, 0] : Fin 3 → Nat) a + S16x1x64.size a ≤ S16x1600x64.size a
  inb_S16x1600x64_S16x1x64_0_898_0 : ∀ a, (![0, 898, 0] : Fin 3 → Nat) a + S16x1x64.size a ≤ S16x1600x64.size a
  inb_S16x1600x64_S16x1x64_0_938_0 : ∀ a, (![0, 938, 0] : Fin 3 → Nat) a + S16x1x64.size a ≤ S16x1600x64.size a
  inb_S16x1600x64_S16x1x64_0_978_0 : ∀ a, (![0, 978, 0] : Fin 3 → Nat) a + S16x1x64.size a ≤ S16x1600x64.size a
  inb_S16x1600x64_S16x1x64_0_1018_0 : ∀ a, (![0, 1018, 0] : Fin 3 → Nat) a + S16x1x64.size a ≤ S16x1600x64.size a
  inb_S16x1600x64_S16x1x64_0_1058_0 : ∀ a, (![0, 1058, 0] : Fin 3 → Nat) a + S16x1x64.size a ≤ S16x1600x64.size a
  inb_S16x1600x64_S16x1x64_0_1098_0 : ∀ a, (![0, 1098, 0] : Fin 3 → Nat) a + S16x1x64.size a ≤ S16x1600x64.size a
  inb_S16x1600x64_S16x1x64_0_1138_0 : ∀ a, (![0, 1138, 0] : Fin 3 → Nat) a + S16x1x64.size a ≤ S16x1600x64.size a
  inb_S16x1600x64_S16x1x64_0_1178_0 : ∀ a, (![0, 1178, 0] : Fin 3 → Nat) a + S16x1x64.size a ≤ S16x1600x64.size a
  inb_S16x1600x64_S16x1x64_0_1218_0 : ∀ a, (![0, 1218, 0] : Fin 3 → Nat) a + S16x1x64.size a ≤ S16x1600x64.size a
  inb_S16x1600x64_S16x1x64_0_1258_0 : ∀ a, (![0, 1258, 0] : Fin 3 → Nat) a + S16x1x64.size a ≤ S16x1600x64.size a
  inb_S16x1600x64_S16x1x64_0_1298_0 : ∀ a, (![0, 1298, 0] : Fin 3 → Nat) a + S16x1x64.size a ≤ S16x1600x64.size a
  inb_S16x1600x64_S16x1x64_0_1338_0 : ∀ a, (![0, 1338, 0] : Fin 3 → Nat) a + S16x1x64.size a ≤ S16x1600x64.size a
  inb_S16x1600x64_S16x1x64_0_1378_0 : ∀ a, (![0, 1378, 0] : Fin 3 → Nat) a + S16x1x64.size a ≤ S16x1600x64.size a
  inb_S16x1600x64_S16x1x64_0_1418_0 : ∀ a, (![0, 1418, 0] : Fin 3 → Nat) a + S16x1x64.size a ≤ S16x1600x64.size a
  inb_S16x1600x64_S16x1x64_0_1458_0 : ∀ a, (![0, 1458, 0] : Fin 3 → Nat) a + S16x1x64.size a ≤ S16x1600x64.size a
  inb_S16x1600x64_S16x1x64_0_1498_0 : ∀ a, (![0, 1498, 0] : Fin 3 → Nat) a + S16x1x64.size a ≤ S16x1600x64.size a
  inb_S16x1600x64_S16x1x64_0_1538_0 : ∀ a, (![0, 1538, 0] : Fin 3 → Nat) a + S16x1x64.size a ≤ S16x1600x64.size a
  inb_S16x1600x64_S16x1x64_0_1578_0 : ∀ a, (![0, 1578, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x21x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x21x64 1
  inb_S16x780x64_S16x21x64_0_549_0 : ∀ a, (![0, 549, 0] : Fin 3 → Nat) a + S16x21x64.size a ≤ S16x780x64.size a
  inb_S16x1600x64_S16x20x64_0_780_0 : ∀ a, (![0, 780, 0] : Fin 3 → Nat) a + S16x20x64.size a ≤ S16x1600x64.size a
  h_S16x20x64 : 0 < S16x20x64.numel
  inb_S16x1600x64_S16x1x64_0_819_0 : ∀ a, (![0, 819, 0] : Fin 3 → Nat) a + S16x1x64.size a ≤ S16x1600x64.size a
  inb_S16x1600x64_S16x1x64_0_859_0 : ∀ a, (![0, 859, 0] : Fin 3 → Nat) a + S16x1x64.size a ≤ S16x1600x64.size a
  inb_S16x1600x64_S16x1x64_0_899_0 : ∀ a, (![0, 899, 0] : Fin 3 → Nat) a + S16x1x64.size a ≤ S16x1600x64.size a
  inb_S16x1600x64_S16x1x64_0_939_0 : ∀ a, (![0, 939, 0] : Fin 3 → Nat) a + S16x1x64.size a ≤ S16x1600x64.size a
  inb_S16x1600x64_S16x1x64_0_979_0 : ∀ a, (![0, 979, 0] : Fin 3 → Nat) a + S16x1x64.size a ≤ S16x1600x64.size a
  inb_S16x1600x64_S16x1x64_0_1019_0 : ∀ a, (![0, 1019, 0] : Fin 3 → Nat) a + S16x1x64.size a ≤ S16x1600x64.size a
  inb_S16x1600x64_S16x1x64_0_1059_0 : ∀ a, (![0, 1059, 0] : Fin 3 → Nat) a + S16x1x64.size a ≤ S16x1600x64.size a
  inb_S16x1600x64_S16x1x64_0_1099_0 : ∀ a, (![0, 1099, 0] : Fin 3 → Nat) a + S16x1x64.size a ≤ S16x1600x64.size a
  inb_S16x1600x64_S16x1x64_0_1139_0 : ∀ a, (![0, 1139, 0] : Fin 3 → Nat) a + S16x1x64.size a ≤ S16x1600x64.size a
  inb_S16x1600x64_S16x1x64_0_1179_0 : ∀ a, (![0, 1179, 0] : Fin 3 → Nat) a + S16x1x64.size a ≤ S16x1600x64.size a
  inb_S16x1600x64_S16x1x64_0_1219_0 : ∀ a, (![0, 1219, 0] : Fin 3 → Nat) a + S16x1x64.size a ≤ S16x1600x64.size a
  inb_S16x1600x64_S16x1x64_0_1259_0 : ∀ a, (![0, 1259, 0] : Fin 3 → Nat) a + S16x1x64.size a ≤ S16x1600x64.size a
  inb_S16x1600x64_S16x1x64_0_1299_0 : ∀ a, (![0, 1299, 0] : Fin 3 → Nat) a + S16x1x64.size a ≤ S16x1600x64.size a
  inb_S16x1600x64_S16x1x64_0_1339_0 : ∀ a, (![0, 1339, 0] : Fin 3 → Nat) a + S16x1x64.size a ≤ S16x1600x64.size a
  inb_S16x1600x64_S16x1x64_0_1379_0 : ∀ a, (![0, 1379, 0] : Fin 3 → Nat) a + S16x1x64.size a ≤ S16x1600x64.size a
  inb_S16x1600x64_S16x1x64_0_1419_0 : ∀ a, (![0, 1419, 0] : Fin 3 → Nat) a + S16x1x64.size a ≤ S16x1600x64.size a
  inb_S16x1600x64_S16x1x64_0_1459_0 : ∀ a, (![0, 1459, 0] : Fin 3 → Nat) a + S16x1x64.size a ≤ S16x1600x64.size a
  inb_S16x1600x64_S16x1x64_0_1499_0 : ∀ a, (![0, 1499, 0] : Fin 3 → Nat) a + S16x1x64.size a ≤ S16x1600x64.size a
  inb_S16x1600x64_S16x1x64_0_1539_0 : ∀ a, (![0, 1539, 0] : Fin 3 → Nat) a + S16x1x64.size a ≤ S16x1600x64.size a
  inb_S16x1600x64_S16x1x64_0_1579_0 : ∀ a, (![0, 1579, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x20x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x20x64 1
  inb_S16x780x64_S16x20x64_0_570_0 : ∀ a, (![0, 570, 0] : Fin 3 → Nat) a + S16x20x64.size a ≤ S16x780x64.size a
  inb_S16x1600x64_S16x19x64_0_821_0 : ∀ a, (![0, 821, 0] : Fin 3 → Nat) a + S16x19x64.size a ≤ S16x1600x64.size a
  h_S16x19x64 : 0 < S16x19x64.numel
  inb_S16x1600x64_S16x1x64_0_860_0 : ∀ a, (![0, 860, 0] : Fin 3 → Nat) a + S16x1x64.size a ≤ S16x1600x64.size a
  inb_S16x1600x64_S16x1x64_0_900_0 : ∀ a, (![0, 900, 0] : Fin 3 → Nat) a + S16x1x64.size a ≤ S16x1600x64.size a
  inb_S16x1600x64_S16x1x64_0_940_0 : ∀ a, (![0, 940, 0] : Fin 3 → Nat) a + S16x1x64.size a ≤ S16x1600x64.size a
  inb_S16x1600x64_S16x1x64_0_980_0 : ∀ a, (![0, 980, 0] : Fin 3 → Nat) a + S16x1x64.size a ≤ S16x1600x64.size a
  inb_S16x1600x64_S16x1x64_0_1020_0 : ∀ a, (![0, 1020, 0] : Fin 3 → Nat) a + S16x1x64.size a ≤ S16x1600x64.size a
  inb_S16x1600x64_S16x1x64_0_1060_0 : ∀ a, (![0, 1060, 0] : Fin 3 → Nat) a + S16x1x64.size a ≤ S16x1600x64.size a
  inb_S16x1600x64_S16x1x64_0_1100_0 : ∀ a, (![0, 1100, 0] : Fin 3 → Nat) a + S16x1x64.size a ≤ S16x1600x64.size a
  inb_S16x1600x64_S16x1x64_0_1140_0 : ∀ a, (![0, 1140, 0] : Fin 3 → Nat) a + S16x1x64.size a ≤ S16x1600x64.size a
  inb_S16x1600x64_S16x1x64_0_1180_0 : ∀ a, (![0, 1180, 0] : Fin 3 → Nat) a + S16x1x64.size a ≤ S16x1600x64.size a
  inb_S16x1600x64_S16x1x64_0_1220_0 : ∀ a, (![0, 1220, 0] : Fin 3 → Nat) a + S16x1x64.size a ≤ S16x1600x64.size a
  inb_S16x1600x64_S16x1x64_0_1260_0 : ∀ a, (![0, 1260, 0] : Fin 3 → Nat) a + S16x1x64.size a ≤ S16x1600x64.size a
  inb_S16x1600x64_S16x1x64_0_1300_0 : ∀ a, (![0, 1300, 0] : Fin 3 → Nat) a + S16x1x64.size a ≤ S16x1600x64.size a
  inb_S16x1600x64_S16x1x64_0_1340_0 : ∀ a, (![0, 1340, 0] : Fin 3 → Nat) a + S16x1x64.size a ≤ S16x1600x64.size a
  inb_S16x1600x64_S16x1x64_0_1380_0 : ∀ a, (![0, 1380, 0] : Fin 3 → Nat) a + S16x1x64.size a ≤ S16x1600x64.size a
  inb_S16x1600x64_S16x1x64_0_1420_0 : ∀ a, (![0, 1420, 0] : Fin 3 → Nat) a + S16x1x64.size a ≤ S16x1600x64.size a
  inb_S16x1600x64_S16x1x64_0_1460_0 : ∀ a, (![0, 1460, 0] : Fin 3 → Nat) a + S16x1x64.size a ≤ S16x1600x64.size a
  inb_S16x1600x64_S16x1x64_0_1500_0 : ∀ a, (![0, 1500, 0] : Fin 3 → Nat) a + S16x1x64.size a ≤ S16x1600x64.size a
  inb_S16x1600x64_S16x1x64_0_1540_0 : ∀ a, (![0, 1540, 0] : Fin 3 → Nat) a + S16x1x64.size a ≤ S16x1600x64.size a
  inb_S16x1600x64_S16x1x64_0_1580_0 : ∀ a, (![0, 1580, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x19x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x19x64 1
  inb_S16x780x64_S16x19x64_0_590_0 : ∀ a, (![0, 590, 0] : Fin 3 → Nat) a + S16x19x64.size a ≤ S16x780x64.size a
  inb_S16x1600x64_S16x18x64_0_862_0 : ∀ a, (![0, 862, 0] : Fin 3 → Nat) a + S16x18x64.size a ≤ S16x1600x64.size a
  h_S16x18x64 : 0 < S16x18x64.numel
  inb_S16x1600x64_S16x1x64_0_901_0 : ∀ a, (![0, 901, 0] : Fin 3 → Nat) a + S16x1x64.size a ≤ S16x1600x64.size a
  inb_S16x1600x64_S16x1x64_0_941_0 : ∀ a, (![0, 941, 0] : Fin 3 → Nat) a + S16x1x64.size a ≤ S16x1600x64.size a
  inb_S16x1600x64_S16x1x64_0_981_0 : ∀ a, (![0, 981, 0] : Fin 3 → Nat) a + S16x1x64.size a ≤ S16x1600x64.size a
  inb_S16x1600x64_S16x1x64_0_1021_0 : ∀ a, (![0, 1021, 0] : Fin 3 → Nat) a + S16x1x64.size a ≤ S16x1600x64.size a
  inb_S16x1600x64_S16x1x64_0_1061_0 : ∀ a, (![0, 1061, 0] : Fin 3 → Nat) a + S16x1x64.size a ≤ S16x1600x64.size a
  inb_S16x1600x64_S16x1x64_0_1101_0 : ∀ a, (![0, 1101, 0] : Fin 3 → Nat) a + S16x1x64.size a ≤ S16x1600x64.size a
  inb_S16x1600x64_S16x1x64_0_1141_0 : ∀ a, (![0, 1141, 0] : Fin 3 → Nat) a + S16x1x64.size a ≤ S16x1600x64.size a
  inb_S16x1600x64_S16x1x64_0_1181_0 : ∀ a, (![0, 1181, 0] : Fin 3 → Nat) a + S16x1x64.size a ≤ S16x1600x64.size a
  inb_S16x1600x64_S16x1x64_0_1221_0 : ∀ a, (![0, 1221, 0] : Fin 3 → Nat) a + S16x1x64.size a ≤ S16x1600x64.size a
  inb_S16x1600x64_S16x1x64_0_1261_0 : ∀ a, (![0, 1261, 0] : Fin 3 → Nat) a + S16x1x64.size a ≤ S16x1600x64.size a
  inb_S16x1600x64_S16x1x64_0_1301_0 : ∀ a, (![0, 1301, 0] : Fin 3 → Nat) a + S16x1x64.size a ≤ S16x1600x64.size a
  inb_S16x1600x64_S16x1x64_0_1341_0 : ∀ a, (![0, 1341, 0] : Fin 3 → Nat) a + S16x1x64.size a ≤ S16x1600x64.size a
  inb_S16x1600x64_S16x1x64_0_1381_0 : ∀ a, (![0, 1381, 0] : Fin 3 → Nat) a + S16x1x64.size a ≤ S16x1600x64.size a
  inb_S16x1600x64_S16x1x64_0_1421_0 : ∀ a, (![0, 1421, 0] : Fin 3 → Nat) a + S16x1x64.size a ≤ S16x1600x64.size a
  inb_S16x1600x64_S16x1x64_0_1461_0 : ∀ a, (![0, 1461, 0] : Fin 3 → Nat) a + S16x1x64.size a ≤ S16x1600x64.size a
  inb_S16x1600x64_S16x1x64_0_1501_0 : ∀ a, (![0, 1501, 0] : Fin 3 → Nat) a + S16x1x64.size a ≤ S16x1600x64.size a
  inb_S16x1600x64_S16x1x64_0_1541_0 : ∀ a, (![0, 1541, 0] : Fin 3 → Nat) a + S16x1x64.size a ≤ S16x1600x64.size a
  inb_S16x1600x64_S16x1x64_0_1581_0 : ∀ a, (![0, 1581, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x1x64_S16x18x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64, S16x1x64] S16x18x64 1
  inb_S16x780x64_S16x18x64_0_609_0 : ∀ a, (![0, 609, 0] : Fin 3 → Nat) a + S16x18x64.size a ≤ S16x780x64.size a
  inb_S16x1600x64_S16x17x64_0_903_0 : ∀ a, (![0, 903, 0] : Fin 3 → Nat) a + S16x17x64.size a ≤ S16x1600x64.size a
  h_S16x17x64 : 0 < S16x17x64.numel
  inb_S16x1600x64_S16x1x64_0_942_0 : ∀ a, (![0, 942, 0] : Fin 3 → Nat) a + S16x1x64.size a ≤ S16x1600x64.size a
  inb_S16x1600x64_S16x1x64_0_982_0 : ∀ a, (![0, 982, 0] : Fin 3 → Nat) a + S16x1x64.size a ≤ S16x1600x64.size a
  inb_S16x1600x64_S16x1x64_0_1022_0 : ∀ a, (![0, 1022, 0] : Fin 3 → Nat) a + S16x1x64.size a ≤ S16x1600x64.size a
  inb_S16x1600x64_S16x1x64_0_1062_0 : ∀ a, (![0, 1062, 0] : Fin 3 → Nat) a + S16x1x64.size a ≤ S16x1600x64.size a
  inb_S16x1600x64_S16x1x64_0_1102_0 : ∀ a, (![0, 1102, 0] : Fin 3 → Nat) a + S16x1x64.size a ≤ S16x1600x64.size a
  inb_S16x1600x64_S16x1x64_0_1142_0 : ∀ a, (![0, 1142, 0] : Fin 3 → Nat) a + S16x1x64.size a ≤ S16x1600x64.size a
  inb_S16x1600x64_S16x1x64_0_1182_0 : ∀ a, (![0, 1182, 0] : Fin 3 → Nat) a + S16x1x64.size a ≤ S16x1600x64.size a
  inb_S16x1600x64_S16x1x64_0_1222_0 : ∀ a, (![0, 1222, 0] : Fin 3 → Nat) a + S16x1x64.size a ≤ S16x1600x64.size a
  inb_S16x1600x64_S16x1x64_0_1262_0 : ∀ a, (![0, 1262, 0] : Fin 3 → Nat) a + S16x1x64.size a ≤ S16x1600x64.size a
  inb_S16x1600x64_S16x1x64_0_1302_0 : ∀ a, (![0, 1302, 0] : Fin 3 → Nat) a + S16x1x64.size a ≤ S16x1600x64.size a
  inb_S16x1600x64_S16x1x64_0_1342_0 : ∀ a, (![0, 1342, 0] : Fin 3 → Nat) a + S16x1x64.size a ≤ S16x1600x64.size a
  inb_S16x1600x64_S16x1x64_0_1382_0 : ∀ a, (![0, 1382, 0] : Fin 3 → Nat) a + S16x1x64.size a ≤ S16x1600x64.size a
  inb_S16x1600x64_S16x1x64_0_1422_0 : ∀ a, (![0, 1422, 0] : Fin 3 → Nat) a + S16x1x64.size a ≤ S16x1600x64.size a
  inb_S16x1600x64_S16x1x64_0_1462_0 : ∀ a, (![0, 1462, 0] : Fin 3 → Nat) a + S16x1x64.size a ≤ S16x1600x64.size a
  inb_S16x1600x64_S16x1x64_0_1502_0 : ∀ a, (![0, 1502, 0] : Fin 3 → Nat) a + S16x1x64.size a ≤ S16x1600x64.size a
  inb_S16x1600x64_S16x1x64_0_1542_0 : ∀ a, (![0, 1542, 0] : Fin 3 → Nat) a + S16x1x64.size a ≤ S16x1600x64.size a
  inb_S16x1600x64_S16x1x64_0_1582_0 : ∀ a, (![0, 1582, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x1x64_S16x17x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64, S16x1x64] S16x17x64 1
  inb_S16x780x64_S16x17x64_0_627_0 : ∀ a, (![0, 627, 0] : Fin 3 → Nat) a + S16x17x64.size a ≤ S16x780x64.size a
  inb_S16x1600x64_S16x16x64_0_944_0 : ∀ a, (![0, 944, 0] : Fin 3 → Nat) a + S16x16x64.size a ≤ S16x1600x64.size a
  h_S16x16x64 : 0 < S16x16x64.numel
  inb_S16x1600x64_S16x1x64_0_983_0 : ∀ a, (![0, 983, 0] : Fin 3 → Nat) a + S16x1x64.size a ≤ S16x1600x64.size a
  inb_S16x1600x64_S16x1x64_0_1023_0 : ∀ a, (![0, 1023, 0] : Fin 3 → Nat) a + S16x1x64.size a ≤ S16x1600x64.size a
  inb_S16x1600x64_S16x1x64_0_1063_0 : ∀ a, (![0, 1063, 0] : Fin 3 → Nat) a + S16x1x64.size a ≤ S16x1600x64.size a
  inb_S16x1600x64_S16x1x64_0_1103_0 : ∀ a, (![0, 1103, 0] : Fin 3 → Nat) a + S16x1x64.size a ≤ S16x1600x64.size a
  inb_S16x1600x64_S16x1x64_0_1143_0 : ∀ a, (![0, 1143, 0] : Fin 3 → Nat) a + S16x1x64.size a ≤ S16x1600x64.size a
  inb_S16x1600x64_S16x1x64_0_1183_0 : ∀ a, (![0, 1183, 0] : Fin 3 → Nat) a + S16x1x64.size a ≤ S16x1600x64.size a
  inb_S16x1600x64_S16x1x64_0_1223_0 : ∀ a, (![0, 1223, 0] : Fin 3 → Nat) a + S16x1x64.size a ≤ S16x1600x64.size a
  inb_S16x1600x64_S16x1x64_0_1263_0 : ∀ a, (![0, 1263, 0] : Fin 3 → Nat) a + S16x1x64.size a ≤ S16x1600x64.size a
  inb_S16x1600x64_S16x1x64_0_1303_0 : ∀ a, (![0, 1303, 0] : Fin 3 → Nat) a + S16x1x64.size a ≤ S16x1600x64.size a
  inb_S16x1600x64_S16x1x64_0_1343_0 : ∀ a, (![0, 1343, 0] : Fin 3 → Nat) a + S16x1x64.size a ≤ S16x1600x64.size a
  inb_S16x1600x64_S16x1x64_0_1383_0 : ∀ a, (![0, 1383, 0] : Fin 3 → Nat) a + S16x1x64.size a ≤ S16x1600x64.size a
  inb_S16x1600x64_S16x1x64_0_1423_0 : ∀ a, (![0, 1423, 0] : Fin 3 → Nat) a + S16x1x64.size a ≤ S16x1600x64.size a
  inb_S16x1600x64_S16x1x64_0_1463_0 : ∀ a, (![0, 1463, 0] : Fin 3 → Nat) a + S16x1x64.size a ≤ S16x1600x64.size a
  inb_S16x1600x64_S16x1x64_0_1503_0 : ∀ a, (![0, 1503, 0] : Fin 3 → Nat) a + S16x1x64.size a ≤ S16x1600x64.size a
  inb_S16x1600x64_S16x1x64_0_1543_0 : ∀ a, (![0, 1543, 0] : Fin 3 → Nat) a + S16x1x64.size a ≤ S16x1600x64.size a
  inb_S16x1600x64_S16x1x64_0_1583_0 : ∀ a, (![0, 1583, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x1x64_S16x16x64_d1 : Shape.Concatenates [S16x1x64, S16x1x64, S16x1x64, S16x1x64, S16x1x64, S16x1x64, S16x1x64, S16x1x64, S16x1x64, S16x1x64, S16x1x64, S16x1x64, S16x1x64, S16x1x64, S16x1x64, S16x1x64] S16x16x64 1
  inb_S16x780x64_S16x16x64_0_644_0 : ∀ a, (![0, 644, 0] : Fin 3 → Nat) a + S16x16x64.size a ≤ S16x780x64.size a
  inb_S16x1600x64_S16x15x64_0_985_0 : ∀ a, (![0, 985, 0] : Fin 3 → Nat) a + S16x15x64.size a ≤ S16x1600x64.size a
  h_S16x15x64 : 0 < S16x15x64.numel
  inb_S16x1600x64_S16x1x64_0_1024_0 : ∀ a, (![0, 1024, 0] : Fin 3 → Nat) a + S16x1x64.size a ≤ S16x1600x64.size a
  inb_S16x1600x64_S16x1x64_0_1064_0 : ∀ a, (![0, 1064, 0] : Fin 3 → Nat) a + S16x1x64.size a ≤ S16x1600x64.size a
  inb_S16x1600x64_S16x1x64_0_1104_0 : ∀ a, (![0, 1104, 0] : Fin 3 → Nat) a + S16x1x64.size a ≤ S16x1600x64.size a
  inb_S16x1600x64_S16x1x64_0_1144_0 : ∀ a, (![0, 1144, 0] : Fin 3 → Nat) a + S16x1x64.size a ≤ S16x1600x64.size a
  inb_S16x1600x64_S16x1x64_0_1184_0 : ∀ a, (![0, 1184, 0] : Fin 3 → Nat) a + S16x1x64.size a ≤ S16x1600x64.size a
  inb_S16x1600x64_S16x1x64_0_1224_0 : ∀ a, (![0, 1224, 0] : Fin 3 → Nat) a + S16x1x64.size a ≤ S16x1600x64.size a
  inb_S16x1600x64_S16x1x64_0_1264_0 : ∀ a, (![0, 1264, 0] : Fin 3 → Nat) a + S16x1x64.size a ≤ S16x1600x64.size a
  inb_S16x1600x64_S16x1x64_0_1304_0 : ∀ a, (![0, 1304, 0] : Fin 3 → Nat) a + S16x1x64.size a ≤ S16x1600x64.size a
  inb_S16x1600x64_S16x1x64_0_1344_0 : ∀ a, (![0, 1344, 0] : Fin 3 → Nat) a + S16x1x64.size a ≤ S16x1600x64.size a
  inb_S16x1600x64_S16x1x64_0_1384_0 : ∀ a, (![0, 1384, 0] : Fin 3 → Nat) a + S16x1x64.size a ≤ S16x1600x64.size a
  inb_S16x1600x64_S16x1x64_0_1424_0 : ∀ a, (![0, 1424, 0] : Fin 3 → Nat) a + S16x1x64.size a ≤ S16x1600x64.size a
  inb_S16x1600x64_S16x1x64_0_1464_0 : ∀ a, (![0, 1464, 0] : Fin 3 → Nat) a + S16x1x64.size a ≤ S16x1600x64.size a
  inb_S16x1600x64_S16x1x64_0_1504_0 : ∀ a, (![0, 1504, 0] : Fin 3 → Nat) a + S16x1x64.size a ≤ S16x1600x64.size a
  inb_S16x1600x64_S16x1x64_0_1544_0 : ∀ a, (![0, 1544, 0] : Fin 3 → Nat) a + S16x1x64.size a ≤ S16x1600x64.size a
  inb_S16x1600x64_S16x1x64_0_1584_0 : ∀ a, (![0, 1584, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x1x64_S16x15x64_d1 : Shape.Concatenates [S16x1x64, S16x1x64, S16x1x64, S16x1x64, S16x1x64, S16x1x64, S16x1x64, S16x1x64, S16x1x64, S16x1x64, S16x1x64, S16x1x64, S16x1x64, S16x1x64, S16x1x64] S16x15x64 1
  inb_S16x780x64_S16x15x64_0_660_0 : ∀ a, (![0, 660, 0] : Fin 3 → Nat) a + S16x15x64.size a ≤ S16x780x64.size a
  inb_S16x1600x64_S16x14x64_0_1026_0 : ∀ a, (![0, 1026, 0] : Fin 3 → Nat) a + S16x14x64.size a ≤ S16x1600x64.size a
  h_S16x14x64 : 0 < S16x14x64.numel
  inb_S16x1600x64_S16x1x64_0_1065_0 : ∀ a, (![0, 1065, 0] : Fin 3 → Nat) a + S16x1x64.size a ≤ S16x1600x64.size a
  inb_S16x1600x64_S16x1x64_0_1105_0 : ∀ a, (![0, 1105, 0] : Fin 3 → Nat) a + S16x1x64.size a ≤ S16x1600x64.size a
  inb_S16x1600x64_S16x1x64_0_1145_0 : ∀ a, (![0, 1145, 0] : Fin 3 → Nat) a + S16x1x64.size a ≤ S16x1600x64.size a
  inb_S16x1600x64_S16x1x64_0_1185_0 : ∀ a, (![0, 1185, 0] : Fin 3 → Nat) a + S16x1x64.size a ≤ S16x1600x64.size a
  inb_S16x1600x64_S16x1x64_0_1225_0 : ∀ a, (![0, 1225, 0] : Fin 3 → Nat) a + S16x1x64.size a ≤ S16x1600x64.size a
  inb_S16x1600x64_S16x1x64_0_1265_0 : ∀ a, (![0, 1265, 0] : Fin 3 → Nat) a + S16x1x64.size a ≤ S16x1600x64.size a
  inb_S16x1600x64_S16x1x64_0_1305_0 : ∀ a, (![0, 1305, 0] : Fin 3 → Nat) a + S16x1x64.size a ≤ S16x1600x64.size a
  inb_S16x1600x64_S16x1x64_0_1345_0 : ∀ a, (![0, 1345, 0] : Fin 3 → Nat) a + S16x1x64.size a ≤ S16x1600x64.size a
  inb_S16x1600x64_S16x1x64_0_1385_0 : ∀ a, (![0, 1385, 0] : Fin 3 → Nat) a + S16x1x64.size a ≤ S16x1600x64.size a
  inb_S16x1600x64_S16x1x64_0_1425_0 : ∀ a, (![0, 1425, 0] : Fin 3 → Nat) a + S16x1x64.size a ≤ S16x1600x64.size a
  inb_S16x1600x64_S16x1x64_0_1465_0 : ∀ a, (![0, 1465, 0] : Fin 3 → Nat) a + S16x1x64.size a ≤ S16x1600x64.size a
  inb_S16x1600x64_S16x1x64_0_1505_0 : ∀ a, (![0, 1505, 0] : Fin 3 → Nat) a + S16x1x64.size a ≤ S16x1600x64.size a
  inb_S16x1600x64_S16x1x64_0_1545_0 : ∀ a, (![0, 1545, 0] : Fin 3 → Nat) a + S16x1x64.size a ≤ S16x1600x64.size a
  inb_S16x1600x64_S16x1x64_0_1585_0 : ∀ a, (![0, 1585, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x1x64_S16x14x64_d1 : Shape.Concatenates [S16x1x64, S16x1x64, S16x1x64, S16x1x64, S16x1x64, S16x1x64, S16x1x64, S16x1x64, S16x1x64, S16x1x64, S16x1x64, S16x1x64, S16x1x64, S16x1x64] S16x14x64 1
  inb_S16x780x64_S16x14x64_0_675_0 : ∀ a, (![0, 675, 0] : Fin 3 → Nat) a + S16x14x64.size a ≤ S16x780x64.size a
  inb_S16x1600x64_S16x13x64_0_1067_0 : ∀ a, (![0, 1067, 0] : Fin 3 → Nat) a + S16x13x64.size a ≤ S16x1600x64.size a
  h_S16x13x64 : 0 < S16x13x64.numel
  inb_S16x1600x64_S16x1x64_0_1106_0 : ∀ a, (![0, 1106, 0] : Fin 3 → Nat) a + S16x1x64.size a ≤ S16x1600x64.size a
  inb_S16x1600x64_S16x1x64_0_1146_0 : ∀ a, (![0, 1146, 0] : Fin 3 → Nat) a + S16x1x64.size a ≤ S16x1600x64.size a
  inb_S16x1600x64_S16x1x64_0_1186_0 : ∀ a, (![0, 1186, 0] : Fin 3 → Nat) a + S16x1x64.size a ≤ S16x1600x64.size a
  inb_S16x1600x64_S16x1x64_0_1226_0 : ∀ a, (![0, 1226, 0] : Fin 3 → Nat) a + S16x1x64.size a ≤ S16x1600x64.size a
  inb_S16x1600x64_S16x1x64_0_1266_0 : ∀ a, (![0, 1266, 0] : Fin 3 → Nat) a + S16x1x64.size a ≤ S16x1600x64.size a
  inb_S16x1600x64_S16x1x64_0_1306_0 : ∀ a, (![0, 1306, 0] : Fin 3 → Nat) a + S16x1x64.size a ≤ S16x1600x64.size a
  inb_S16x1600x64_S16x1x64_0_1346_0 : ∀ a, (![0, 1346, 0] : Fin 3 → Nat) a + S16x1x64.size a ≤ S16x1600x64.size a
  inb_S16x1600x64_S16x1x64_0_1386_0 : ∀ a, (![0, 1386, 0] : Fin 3 → Nat) a + S16x1x64.size a ≤ S16x1600x64.size a
  inb_S16x1600x64_S16x1x64_0_1426_0 : ∀ a, (![0, 1426, 0] : Fin 3 → Nat) a + S16x1x64.size a ≤ S16x1600x64.size a
  inb_S16x1600x64_S16x1x64_0_1466_0 : ∀ a, (![0, 1466, 0] : Fin 3 → Nat) a + S16x1x64.size a ≤ S16x1600x64.size a
  inb_S16x1600x64_S16x1x64_0_1506_0 : ∀ a, (![0, 1506, 0] : Fin 3 → Nat) a + S16x1x64.size a ≤ S16x1600x64.size a
  inb_S16x1600x64_S16x1x64_0_1546_0 : ∀ a, (![0, 1546, 0] : Fin 3 → Nat) a + S16x1x64.size a ≤ S16x1600x64.size a
  inb_S16x1600x64_S16x1x64_0_1586_0 : ∀ a, (![0, 1586, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x1x64_S16x13x64_d1 : Shape.Concatenates [S16x1x64, S16x1x64, S16x1x64, S16x1x64, S16x1x64, S16x1x64, S16x1x64, S16x1x64, S16x1x64, S16x1x64, S16x1x64, S16x1x64, S16x1x64] S16x13x64 1
  inb_S16x780x64_S16x13x64_0_689_0 : ∀ a, (![0, 689, 0] : Fin 3 → Nat) a + S16x13x64.size a ≤ S16x780x64.size a
  inb_S16x1600x64_S16x12x64_0_1108_0 : ∀ a, (![0, 1108, 0] : Fin 3 → Nat) a + S16x12x64.size a ≤ S16x1600x64.size a
  h_S16x12x64 : 0 < S16x12x64.numel
  inb_S16x1600x64_S16x1x64_0_1147_0 : ∀ a, (![0, 1147, 0] : Fin 3 → Nat) a + S16x1x64.size a ≤ S16x1600x64.size a
  inb_S16x1600x64_S16x1x64_0_1187_0 : ∀ a, (![0, 1187, 0] : Fin 3 → Nat) a + S16x1x64.size a ≤ S16x1600x64.size a
  inb_S16x1600x64_S16x1x64_0_1227_0 : ∀ a, (![0, 1227, 0] : Fin 3 → Nat) a + S16x1x64.size a ≤ S16x1600x64.size a
  inb_S16x1600x64_S16x1x64_0_1267_0 : ∀ a, (![0, 1267, 0] : Fin 3 → Nat) a + S16x1x64.size a ≤ S16x1600x64.size a
  inb_S16x1600x64_S16x1x64_0_1307_0 : ∀ a, (![0, 1307, 0] : Fin 3 → Nat) a + S16x1x64.size a ≤ S16x1600x64.size a
  inb_S16x1600x64_S16x1x64_0_1347_0 : ∀ a, (![0, 1347, 0] : Fin 3 → Nat) a + S16x1x64.size a ≤ S16x1600x64.size a
  inb_S16x1600x64_S16x1x64_0_1387_0 : ∀ a, (![0, 1387, 0] : Fin 3 → Nat) a + S16x1x64.size a ≤ S16x1600x64.size a
  inb_S16x1600x64_S16x1x64_0_1427_0 : ∀ a, (![0, 1427, 0] : Fin 3 → Nat) a + S16x1x64.size a ≤ S16x1600x64.size a
  inb_S16x1600x64_S16x1x64_0_1467_0 : ∀ a, (![0, 1467, 0] : Fin 3 → Nat) a + S16x1x64.size a ≤ S16x1600x64.size a
  inb_S16x1600x64_S16x1x64_0_1507_0 : ∀ a, (![0, 1507, 0] : Fin 3 → Nat) a + S16x1x64.size a ≤ S16x1600x64.size a
  inb_S16x1600x64_S16x1x64_0_1547_0 : ∀ a, (![0, 1547, 0] : Fin 3 → Nat) a + S16x1x64.size a ≤ S16x1600x64.size a
  inb_S16x1600x64_S16x1x64_0_1587_0 : ∀ a, (![0, 1587, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x1x64_S16x12x64_d1 : Shape.Concatenates [S16x1x64, S16x1x64, S16x1x64, S16x1x64, S16x1x64, S16x1x64, S16x1x64, S16x1x64, S16x1x64, S16x1x64, S16x1x64, S16x1x64] S16x12x64 1
  inb_S16x780x64_S16x12x64_0_702_0 : ∀ a, (![0, 702, 0] : Fin 3 → Nat) a + S16x12x64.size a ≤ S16x780x64.size a
  inb_S16x1600x64_S16x11x64_0_1149_0 : ∀ a, (![0, 1149, 0] : Fin 3 → Nat) a + S16x11x64.size a ≤ S16x1600x64.size a
  h_S16x11x64 : 0 < S16x11x64.numel
  inb_S16x1600x64_S16x1x64_0_1188_0 : ∀ a, (![0, 1188, 0] : Fin 3 → Nat) a + S16x1x64.size a ≤ S16x1600x64.size a
  inb_S16x1600x64_S16x1x64_0_1228_0 : ∀ a, (![0, 1228, 0] : Fin 3 → Nat) a + S16x1x64.size a ≤ S16x1600x64.size a
  inb_S16x1600x64_S16x1x64_0_1268_0 : ∀ a, (![0, 1268, 0] : Fin 3 → Nat) a + S16x1x64.size a ≤ S16x1600x64.size a
  inb_S16x1600x64_S16x1x64_0_1308_0 : ∀ a, (![0, 1308, 0] : Fin 3 → Nat) a + S16x1x64.size a ≤ S16x1600x64.size a
  inb_S16x1600x64_S16x1x64_0_1348_0 : ∀ a, (![0, 1348, 0] : Fin 3 → Nat) a + S16x1x64.size a ≤ S16x1600x64.size a
  inb_S16x1600x64_S16x1x64_0_1388_0 : ∀ a, (![0, 1388, 0] : Fin 3 → Nat) a + S16x1x64.size a ≤ S16x1600x64.size a
  inb_S16x1600x64_S16x1x64_0_1428_0 : ∀ a, (![0, 1428, 0] : Fin 3 → Nat) a + S16x1x64.size a ≤ S16x1600x64.size a
  inb_S16x1600x64_S16x1x64_0_1468_0 : ∀ a, (![0, 1468, 0] : Fin 3 → Nat) a + S16x1x64.size a ≤ S16x1600x64.size a
  inb_S16x1600x64_S16x1x64_0_1508_0 : ∀ a, (![0, 1508, 0] : Fin 3 → Nat) a + S16x1x64.size a ≤ S16x1600x64.size a
  inb_S16x1600x64_S16x1x64_0_1548_0 : ∀ a, (![0, 1548, 0] : Fin 3 → Nat) a + S16x1x64.size a ≤ S16x1600x64.size a
  inb_S16x1600x64_S16x1x64_0_1588_0 : ∀ a, (![0, 1588, 0] : Fin 3 → Nat) a + S16x1x64.size a ≤ S16x1600x64.size a
  concatenates_S16x1x64_S16x1x64_S16x1x64_S16x1x64_S16x1x64_S16x1x64_S16x1x64_S16x1x64_S16x1x64_S16x1x64_S16x1x64_S16x11x64_d1 : Shape.Concatenates [S16x1x64, S16x1x64, S16x1x64, S16x1x64, S16x1x64, S16x1x64, S16x1x64, S16x1x64, S16x1x64, S16x1x64, S16x1x64] S16x11x64 1
  inb_S16x780x64_S16x11x64_0_714_0 : ∀ a, (![0, 714, 0] : Fin 3 → Nat) a + S16x11x64.size a ≤ S16x780x64.size a
  inb_S16x1600x64_S16x10x64_0_1190_0 : ∀ a, (![0, 1190, 0] : Fin 3 → Nat) a + S16x10x64.size a ≤ S16x1600x64.size a
  h_S16x10x64 : 0 < S16x10x64.numel
  inb_S16x1600x64_S16x1x64_0_1229_0 : ∀ a, (![0, 1229, 0] : Fin 3 → Nat) a + S16x1x64.size a ≤ S16x1600x64.size a
  inb_S16x1600x64_S16x1x64_0_1269_0 : ∀ a, (![0, 1269, 0] : Fin 3 → Nat) a + S16x1x64.size a ≤ S16x1600x64.size a
  inb_S16x1600x64_S16x1x64_0_1309_0 : ∀ a, (![0, 1309, 0] : Fin 3 → Nat) a + S16x1x64.size a ≤ S16x1600x64.size a
  inb_S16x1600x64_S16x1x64_0_1349_0 : ∀ a, (![0, 1349, 0] : Fin 3 → Nat) a + S16x1x64.size a ≤ S16x1600x64.size a
  inb_S16x1600x64_S16x1x64_0_1389_0 : ∀ a, (![0, 1389, 0] : Fin 3 → Nat) a + S16x1x64.size a ≤ S16x1600x64.size a
  inb_S16x1600x64_S16x1x64_0_1429_0 : ∀ a, (![0, 1429, 0] : Fin 3 → Nat) a + S16x1x64.size a ≤ S16x1600x64.size a
  inb_S16x1600x64_S16x1x64_0_1469_0 : ∀ a, (![0, 1469, 0] : Fin 3 → Nat) a + S16x1x64.size a ≤ S16x1600x64.size a
  inb_S16x1600x64_S16x1x64_0_1509_0 : ∀ a, (![0, 1509, 0] : Fin 3 → Nat) a + S16x1x64.size a ≤ S16x1600x64.size a
  inb_S16x1600x64_S16x1x64_0_1549_0 : ∀ a, (![0, 1549, 0] : Fin 3 → Nat) a + S16x1x64.size a ≤ S16x1600x64.size a
  inb_S16x1600x64_S16x1x64_0_1589_0 : ∀ a, (![0, 1589, 0] : Fin 3 → Nat) a + S16x1x64.size a ≤ S16x1600x64.size a
  concatenates_S16x1x64_S16x1x64_S16x1x64_S16x1x64_S16x1x64_S16x1x64_S16x1x64_S16x1x64_S16x1x64_S16x1x64_S16x10x64_d1 : Shape.Concatenates [S16x1x64, S16x1x64, S16x1x64, S16x1x64, S16x1x64, S16x1x64, S16x1x64, S16x1x64, S16x1x64, S16x1x64] S16x10x64 1
  inb_S16x780x64_S16x10x64_0_725_0 : ∀ a, (![0, 725, 0] : Fin 3 → Nat) a + S16x10x64.size a ≤ S16x780x64.size a
  inb_S16x1600x64_S16x9x64_0_1231_0 : ∀ a, (![0, 1231, 0] : Fin 3 → Nat) a + S16x9x64.size a ≤ S16x1600x64.size a
  h_S16x9x64 : 0 < S16x9x64.numel
  inb_S16x1600x64_S16x1x64_0_1270_0 : ∀ a, (![0, 1270, 0] : Fin 3 → Nat) a + S16x1x64.size a ≤ S16x1600x64.size a
  inb_S16x1600x64_S16x1x64_0_1310_0 : ∀ a, (![0, 1310, 0] : Fin 3 → Nat) a + S16x1x64.size a ≤ S16x1600x64.size a
  inb_S16x1600x64_S16x1x64_0_1350_0 : ∀ a, (![0, 1350, 0] : Fin 3 → Nat) a + S16x1x64.size a ≤ S16x1600x64.size a
  inb_S16x1600x64_S16x1x64_0_1390_0 : ∀ a, (![0, 1390, 0] : Fin 3 → Nat) a + S16x1x64.size a ≤ S16x1600x64.size a
  inb_S16x1600x64_S16x1x64_0_1430_0 : ∀ a, (![0, 1430, 0] : Fin 3 → Nat) a + S16x1x64.size a ≤ S16x1600x64.size a
  inb_S16x1600x64_S16x1x64_0_1470_0 : ∀ a, (![0, 1470, 0] : Fin 3 → Nat) a + S16x1x64.size a ≤ S16x1600x64.size a
  inb_S16x1600x64_S16x1x64_0_1510_0 : ∀ a, (![0, 1510, 0] : Fin 3 → Nat) a + S16x1x64.size a ≤ S16x1600x64.size a
  inb_S16x1600x64_S16x1x64_0_1550_0 : ∀ a, (![0, 1550, 0] : Fin 3 → Nat) a + S16x1x64.size a ≤ S16x1600x64.size a
  inb_S16x1600x64_S16x1x64_0_1590_0 : ∀ a, (![0, 1590, 0] : Fin 3 → Nat) a + S16x1x64.size a ≤ S16x1600x64.size a
  concatenates_S16x1x64_S16x1x64_S16x1x64_S16x1x64_S16x1x64_S16x1x64_S16x1x64_S16x1x64_S16x1x64_S16x9x64_d1 : Shape.Concatenates [S16x1x64, S16x1x64, S16x1x64, S16x1x64, S16x1x64, S16x1x64, S16x1x64, S16x1x64, S16x1x64] S16x9x64 1
  inb_S16x780x64_S16x9x64_0_735_0 : ∀ a, (![0, 735, 0] : Fin 3 → Nat) a + S16x9x64.size a ≤ S16x780x64.size a
  inb_S16x1600x64_S16x8x64_0_1272_0 : ∀ a, (![0, 1272, 0] : Fin 3 → Nat) a + S16x8x64.size a ≤ S16x1600x64.size a
  h_S16x8x64 : 0 < S16x8x64.numel
  inb_S16x1600x64_S16x1x64_0_1311_0 : ∀ a, (![0, 1311, 0] : Fin 3 → Nat) a + S16x1x64.size a ≤ S16x1600x64.size a
  inb_S16x1600x64_S16x1x64_0_1351_0 : ∀ a, (![0, 1351, 0] : Fin 3 → Nat) a + S16x1x64.size a ≤ S16x1600x64.size a
  inb_S16x1600x64_S16x1x64_0_1391_0 : ∀ a, (![0, 1391, 0] : Fin 3 → Nat) a + S16x1x64.size a ≤ S16x1600x64.size a
  inb_S16x1600x64_S16x1x64_0_1431_0 : ∀ a, (![0, 1431, 0] : Fin 3 → Nat) a + S16x1x64.size a ≤ S16x1600x64.size a
  inb_S16x1600x64_S16x1x64_0_1471_0 : ∀ a, (![0, 1471, 0] : Fin 3 → Nat) a + S16x1x64.size a ≤ S16x1600x64.size a
  inb_S16x1600x64_S16x1x64_0_1511_0 : ∀ a, (![0, 1511, 0] : Fin 3 → Nat) a + S16x1x64.size a ≤ S16x1600x64.size a
  inb_S16x1600x64_S16x1x64_0_1551_0 : ∀ a, (![0, 1551, 0] : Fin 3 → Nat) a + S16x1x64.size a ≤ S16x1600x64.size a
  inb_S16x1600x64_S16x1x64_0_1591_0 : ∀ a, (![0, 1591, 0] : Fin 3 → Nat) a + S16x1x64.size a ≤ S16x1600x64.size a
  concatenates_S16x1x64_S16x1x64_S16x1x64_S16x1x64_S16x1x64_S16x1x64_S16x1x64_S16x1x64_S16x8x64_d1 : Shape.Concatenates [S16x1x64, S16x1x64, S16x1x64, S16x1x64, S16x1x64, S16x1x64, S16x1x64, S16x1x64] S16x8x64 1
  inb_S16x780x64_S16x8x64_0_744_0 : ∀ a, (![0, 744, 0] : Fin 3 → Nat) a + S16x8x64.size a ≤ S16x780x64.size a
  inb_S16x1600x64_S16x7x64_0_1313_0 : ∀ a, (![0, 1313, 0] : Fin 3 → Nat) a + S16x7x64.size a ≤ S16x1600x64.size a
  h_S16x7x64 : 0 < S16x7x64.numel
  inb_S16x1600x64_S16x1x64_0_1352_0 : ∀ a, (![0, 1352, 0] : Fin 3 → Nat) a + S16x1x64.size a ≤ S16x1600x64.size a
  inb_S16x1600x64_S16x1x64_0_1392_0 : ∀ a, (![0, 1392, 0] : Fin 3 → Nat) a + S16x1x64.size a ≤ S16x1600x64.size a
  inb_S16x1600x64_S16x1x64_0_1432_0 : ∀ a, (![0, 1432, 0] : Fin 3 → Nat) a + S16x1x64.size a ≤ S16x1600x64.size a
  inb_S16x1600x64_S16x1x64_0_1472_0 : ∀ a, (![0, 1472, 0] : Fin 3 → Nat) a + S16x1x64.size a ≤ S16x1600x64.size a
  inb_S16x1600x64_S16x1x64_0_1512_0 : ∀ a, (![0, 1512, 0] : Fin 3 → Nat) a + S16x1x64.size a ≤ S16x1600x64.size a
  inb_S16x1600x64_S16x1x64_0_1552_0 : ∀ a, (![0, 1552, 0] : Fin 3 → Nat) a + S16x1x64.size a ≤ S16x1600x64.size a
  inb_S16x1600x64_S16x1x64_0_1592_0 : ∀ a, (![0, 1592, 0] : Fin 3 → Nat) a + S16x1x64.size a ≤ S16x1600x64.size a
  concatenates_S16x1x64_S16x1x64_S16x1x64_S16x1x64_S16x1x64_S16x1x64_S16x1x64_S16x7x64_d1 : Shape.Concatenates [S16x1x64, S16x1x64, S16x1x64, S16x1x64, S16x1x64, S16x1x64, S16x1x64] S16x7x64 1
  inb_S16x780x64_S16x7x64_0_752_0 : ∀ a, (![0, 752, 0] : Fin 3 → Nat) a + S16x7x64.size a ≤ S16x780x64.size a
  inb_S16x1600x64_S16x6x64_0_1354_0 : ∀ a, (![0, 1354, 0] : Fin 3 → Nat) a + S16x6x64.size a ≤ S16x1600x64.size a
  h_S16x6x64 : 0 < S16x6x64.numel
  inb_S16x1600x64_S16x1x64_0_1393_0 : ∀ a, (![0, 1393, 0] : Fin 3 → Nat) a + S16x1x64.size a ≤ S16x1600x64.size a
  inb_S16x1600x64_S16x1x64_0_1433_0 : ∀ a, (![0, 1433, 0] : Fin 3 → Nat) a + S16x1x64.size a ≤ S16x1600x64.size a
  inb_S16x1600x64_S16x1x64_0_1473_0 : ∀ a, (![0, 1473, 0] : Fin 3 → Nat) a + S16x1x64.size a ≤ S16x1600x64.size a
  inb_S16x1600x64_S16x1x64_0_1513_0 : ∀ a, (![0, 1513, 0] : Fin 3 → Nat) a + S16x1x64.size a ≤ S16x1600x64.size a
  inb_S16x1600x64_S16x1x64_0_1553_0 : ∀ a, (![0, 1553, 0] : Fin 3 → Nat) a + S16x1x64.size a ≤ S16x1600x64.size a
  inb_S16x1600x64_S16x1x64_0_1593_0 : ∀ a, (![0, 1593, 0] : Fin 3 → Nat) a + S16x1x64.size a ≤ S16x1600x64.size a
  concatenates_S16x1x64_S16x1x64_S16x1x64_S16x1x64_S16x1x64_S16x1x64_S16x6x64_d1 : Shape.Concatenates [S16x1x64, S16x1x64, S16x1x64, S16x1x64, S16x1x64, S16x1x64] S16x6x64 1
  inb_S16x780x64_S16x6x64_0_759_0 : ∀ a, (![0, 759, 0] : Fin 3 → Nat) a + S16x6x64.size a ≤ S16x780x64.size a
  inb_S16x1600x64_S16x5x64_0_1395_0 : ∀ a, (![0, 1395, 0] : Fin 3 → Nat) a + S16x5x64.size a ≤ S16x1600x64.size a
  h_S16x5x64 : 0 < S16x5x64.numel
  inb_S16x1600x64_S16x1x64_0_1434_0 : ∀ a, (![0, 1434, 0] : Fin 3 → Nat) a + S16x1x64.size a ≤ S16x1600x64.size a
  inb_S16x1600x64_S16x1x64_0_1474_0 : ∀ a, (![0, 1474, 0] : Fin 3 → Nat) a + S16x1x64.size a ≤ S16x1600x64.size a
  inb_S16x1600x64_S16x1x64_0_1514_0 : ∀ a, (![0, 1514, 0] : Fin 3 → Nat) a + S16x1x64.size a ≤ S16x1600x64.size a
  inb_S16x1600x64_S16x1x64_0_1554_0 : ∀ a, (![0, 1554, 0] : Fin 3 → Nat) a + S16x1x64.size a ≤ S16x1600x64.size a
  inb_S16x1600x64_S16x1x64_0_1594_0 : ∀ a, (![0, 1594, 0] : Fin 3 → Nat) a + S16x1x64.size a ≤ S16x1600x64.size a
  concatenates_S16x1x64_S16x1x64_S16x1x64_S16x1x64_S16x1x64_S16x5x64_d1 : Shape.Concatenates [S16x1x64, S16x1x64, S16x1x64, S16x1x64, S16x1x64] S16x5x64 1
  inb_S16x780x64_S16x5x64_0_765_0 : ∀ a, (![0, 765, 0] : Fin 3 → Nat) a + S16x5x64.size a ≤ S16x780x64.size a
  inb_S16x1600x64_S16x4x64_0_1436_0 : ∀ a, (![0, 1436, 0] : Fin 3 → Nat) a + S16x4x64.size a ≤ S16x1600x64.size a
  h_S16x4x64 : 0 < S16x4x64.numel
  inb_S16x1600x64_S16x1x64_0_1475_0 : ∀ a, (![0, 1475, 0] : Fin 3 → Nat) a + S16x1x64.size a ≤ S16x1600x64.size a
  inb_S16x1600x64_S16x1x64_0_1515_0 : ∀ a, (![0, 1515, 0] : Fin 3 → Nat) a + S16x1x64.size a ≤ S16x1600x64.size a
  inb_S16x1600x64_S16x1x64_0_1555_0 : ∀ a, (![0, 1555, 0] : Fin 3 → Nat) a + S16x1x64.size a ≤ S16x1600x64.size a
  inb_S16x1600x64_S16x1x64_0_1595_0 : ∀ a, (![0, 1595, 0] : Fin 3 → Nat) a + S16x1x64.size a ≤ S16x1600x64.size a
  concatenates_S16x1x64_S16x1x64_S16x1x64_S16x1x64_S16x4x64_d1 : Shape.Concatenates [S16x1x64, S16x1x64, S16x1x64, S16x1x64] S16x4x64 1
  inb_S16x780x64_S16x4x64_0_770_0 : ∀ a, (![0, 770, 0] : Fin 3 → Nat) a + S16x4x64.size a ≤ S16x780x64.size a
  inb_S16x1600x64_S16x3x64_0_1477_0 : ∀ a, (![0, 1477, 0] : Fin 3 → Nat) a + S16x3x64.size a ≤ S16x1600x64.size a
  h_S16x3x64 : 0 < S16x3x64.numel
  inb_S16x1600x64_S16x1x64_0_1516_0 : ∀ a, (![0, 1516, 0] : Fin 3 → Nat) a + S16x1x64.size a ≤ S16x1600x64.size a
  inb_S16x1600x64_S16x1x64_0_1556_0 : ∀ a, (![0, 1556, 0] : Fin 3 → Nat) a + S16x1x64.size a ≤ S16x1600x64.size a
  inb_S16x1600x64_S16x1x64_0_1596_0 : ∀ a, (![0, 1596, 0] : Fin 3 → Nat) a + S16x1x64.size a ≤ S16x1600x64.size a
  concatenates_S16x1x64_S16x1x64_S16x1x64_S16x3x64_d1 : Shape.Concatenates [S16x1x64, S16x1x64, S16x1x64] S16x3x64 1
  inb_S16x780x64_S16x3x64_0_774_0 : ∀ a, (![0, 774, 0] : Fin 3 → Nat) a + S16x3x64.size a ≤ S16x780x64.size a
  inb_S16x1600x64_S16x2x64_0_1518_0 : ∀ a, (![0, 1518, 0] : Fin 3 → Nat) a + S16x2x64.size a ≤ S16x1600x64.size a
  h_S16x2x64 : 0 < S16x2x64.numel
  inb_S16x1600x64_S16x1x64_0_1557_0 : ∀ a, (![0, 1557, 0] : Fin 3 → Nat) a + S16x1x64.size a ≤ S16x1600x64.size a
  inb_S16x1600x64_S16x1x64_0_1597_0 : ∀ a, (![0, 1597, 0] : Fin 3 → Nat) a + S16x1x64.size a ≤ S16x1600x64.size a
  concatenates_S16x1x64_S16x1x64_S16x2x64_d1 : Shape.Concatenates [S16x1x64, S16x1x64] S16x2x64 1
  inb_S16x780x64_S16x2x64_0_777_0 : ∀ a, (![0, 777, 0] : Fin 3 → Nat) a + S16x2x64.size a ≤ S16x780x64.size a
  inb_S16x1600x64_S16x1x64_0_1559_0 : ∀ a, (![0, 1559, 0] : Fin 3 → Nat) a + S16x1x64.size a ≤ S16x1600x64.size a
  inb_S16x1600x64_S16x1x64_0_1598_0 : ∀ a, (![0, 1598, 0] : Fin 3 → Nat) a + S16x1x64.size a ≤ S16x1600x64.size a
  inb_S16x780x64_S16x1x64_0_779_0 : ∀ a, (![0, 779, 0] : Fin 3 → Nat) a + S16x1x64.size a ≤ S16x780x64.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1600x64.size a ≤ S2048x1600x64.size a
  hwx0_0 : ∀ i : grid0.Coords, EltTy.bits .f32 = 32 ∨ (Rect.block (s := S2048x1600x64) S16x1600x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x780x64.size a ≤ S2048x780x64.size a
  hwx0_1 : ∀ i : grid0.Coords, EltTy.bits .f32 = 32 ∨ (Rect.block (s := S2048x780x64) S16x780x64.size (cc0_transform_1 i) (hinb0_1 i)).WholeWords (EltTy.packing .f32)

variable [Facts₀]

abbrev win0_0 : Pipeline.Window sig grid0 :=
  Pipeline.Window.ofSpec (Memref.whole main_arg0) S16x1600x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x780x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x1600x64 : Shape := ⟨3, ![2048, 1600, 64]⟩
abbrev S2048x40x40x64 : Shape := ⟨4, ![2048, 40, 40, 64]⟩
abbrev S_ : Shape := ⟨0, ![]⟩
abbrev S40x40 : Shape := ⟨2, ![40, 40]⟩
abbrev S1600 : Shape := ⟨1, ![1600]⟩
abbrev S780 : Shape := ⟨1, ![780]⟩
abbrev S1600x1 : Shape := ⟨2, ![1600, 1]⟩
abbrev S780x1 : Shape := ⟨2, ![780, 1]⟩
abbrev S780x2 : Shape := ⟨2, ![780, 2]⟩
abbrev S2048x780x64 : Shape := ⟨3, ![2048, 780, 64]⟩

abbrev nBuf : Space → Nat
  | .hbm => 156
  | .vmem => 0
  | .smem => 0
  | _ => 0

abbrev hbmTy0_0 (i : Nat) : BufTy := match i % 128 with
  | 0 => ⟨S2048x1600x64, .f32⟩
  | 1 => ⟨S2048x40x40x64, .f32⟩
  | 2 => ⟨S_, .f32⟩
  | 3 => ⟨S40x40, .f32⟩
  | 4 => ⟨S40x40, .i32⟩
  | 5 => ⟨S_, .i32⟩
  | 6 => ⟨S40x40, .i32⟩
  | 7 => ⟨S40x40, .i32⟩
  | 8 => ⟨S40x40, .i32⟩
  | 9 => ⟨S40x40, .i1⟩
  | 10 => ⟨S_, .f32⟩
  | 11 => ⟨S40x40, .f32⟩
  | 12 => ⟨S40x40, .f32⟩
  | 13 => ⟨S_, .f32⟩
  | 14 => ⟨S40x40, .f32⟩
  | 15 => ⟨S40x40, .i1⟩
  | 16 => ⟨S1600, .i1⟩
  | 17 => ⟨S1600, .i32⟩
  | 18 => ⟨S_, .i32⟩
  | 19 => ⟨S_, .i32⟩
  | 20 => ⟨S1600, .i32⟩
  | 21 => ⟨S_, .i32⟩
  | 22 => ⟨S780, .i32⟩
  | 23 => ⟨S_, .i32⟩
  | 24 => ⟨S_, .i32⟩
  | 25 => ⟨S1600, .i32⟩
  | 26 => ⟨S1600, .i32⟩
  | 27 => ⟨S_, .i32⟩
  | 28 => ⟨S1600, .i32⟩
  | 29 => ⟨S1600, .i1⟩
  | 30 => ⟨S_, .i32⟩
  | 31 => ⟨S1600, .i32⟩
  | 32 => ⟨S1600, .i32⟩
  | 33 => ⟨S1600, .i32⟩
  | 34 => ⟨S1600x1, .i32⟩
  | 35 => ⟨S_, .i32⟩
  | 36 => ⟨S1600, .i32⟩
  | 37 => ⟨S780, .i32⟩
  | 38 => ⟨S_, .i32⟩
  | 39 => ⟨S_, .i32⟩
  | 40 => ⟨S780, .i32⟩
  | 41 => ⟨S_, .i32⟩
  | 42 => ⟨S780, .i32⟩
  | 43 => ⟨S780, .i32⟩
  | 44 => ⟨S780, .i32⟩
  | 45 => ⟨S_, .i32⟩
  | 46 => ⟨S780, .i32⟩
  | 47 => ⟨S780, .i1⟩
  | 48 => ⟨S780, .i32⟩
  | 49 => ⟨S780, .i32⟩
  | 50 => ⟨S_, .i32⟩
  | 51 => ⟨S780, .i32⟩
  | 52 => ⟨S780, .i1⟩
  | 53 => ⟨S780, .i1⟩
  | 54 => ⟨S_, .i32⟩
  | 55 => ⟨S780, .i32⟩
  | 56 => ⟨S780, .i32⟩
  | 57 => ⟨S780, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S780, .i32⟩
  | 65 => ⟨S780, .i32⟩
  | 66 => ⟨S_, .i32⟩
  | 67 => ⟨S780, .i32⟩
  | 68 => ⟨S780, .i1⟩
  | 69 => ⟨S_, .i32⟩
  | 70 => ⟨S780, .i32⟩
  | 71 => ⟨S780, .i1⟩
  | 72 => ⟨S_, .i32⟩
  | 73 => ⟨S_, .i1⟩
  | 74 => ⟨S780, .i1⟩
  | 75 => ⟨S780, .i1⟩
  | 76 => ⟨S780, .i1⟩
  | 77 => ⟨S780, .i32⟩
  | 78 => ⟨S780, .i32⟩
  | 79 => ⟨S780, .i32⟩
  | 80 => ⟨S_, .i32⟩
  | 81 => ⟨S780, .i32⟩
  | 82 => ⟨S780, .i32⟩
  | 83 => ⟨S780, .i32⟩
  | 84 => ⟨S_, .i32⟩
  | 85 => ⟨S780, .i32⟩
  | 86 => ⟨S780, .i1⟩
  | 87 => ⟨S780, .i32⟩
  | 88 => ⟨S780, .i32⟩
  | 89 => ⟨S_, .i32⟩
  | 90 => ⟨S780, .i32⟩
  | 91 => ⟨S780, .i1⟩
  | 92 => ⟨S780, .i1⟩
  | 93 => ⟨S_, .i32⟩
  | 94 => ⟨S780, .i32⟩
  | 95 => ⟨S780, .i32⟩
  | 96 => ⟨S780, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S780, .i32⟩
  | 104 => ⟨S780, .i32⟩
  | 105 => ⟨S_, .i32⟩
  | 106 => ⟨S780, .i32⟩
  | 107 => ⟨S780, .i1⟩
  | 108 => ⟨S_, .i32⟩
  | 109 => ⟨S780, .i32⟩
  | 110 => ⟨S780, .i1⟩
  | 111 => ⟨S_, .i32⟩
  | 112 => ⟨S_, .i1⟩
  | 113 => ⟨S780, .i1⟩
  | 114 => ⟨S780, .i1⟩
  | 115 => ⟨S780, .i1⟩
  | 116 => ⟨S780, .i32⟩
  | 117 => ⟨S780, .i32⟩
  | 118 => ⟨S780, .i32⟩
  | 119 => ⟨S_, .i32⟩
  | 120 => ⟨S780, .i32⟩
  | 121 => ⟨S780, .i1⟩
  | 122 => ⟨S_, .i32⟩
  | 123 => ⟨S780, .i32⟩
  | 124 => ⟨S780, .i32⟩
  | 125 => ⟨S780, .i32⟩
  | 126 => ⟨S_, .i32⟩
  | 127 => ⟨S780, .i32⟩
  | _ => ⟨S2048x1600x64, .f32⟩

abbrev hbmTy0_1 (i : Nat) : BufTy := match i % 128 with
  | 0 => ⟨S780, .i1⟩
  | 1 => ⟨S_, .i32⟩
  | 2 => ⟨S780, .i32⟩
  | 3 => ⟨S780, .i32⟩
  | 4 => ⟨S780, .i32⟩
  | 5 => ⟨S780x1, .i32⟩
  | 6 => ⟨S780x1, .i32⟩
  | 7 => ⟨S780x2, .i32⟩
  | 8 => ⟨S2048x780x64, .f32⟩
  | 9 => ⟨S_, .i32⟩
  | 10 => ⟨S780, .i32⟩
  | 11 => ⟨S780, .i1⟩
  | 12 => ⟨S_, .i32⟩
  | 13 => ⟨S780, .i32⟩
  | 14 => ⟨S780, .i32⟩
  | 15 => ⟨S780, .i32⟩
  | 16 => ⟨S_, .i32⟩
  | 17 => ⟨S780, .i32⟩
  | 18 => ⟨S780, .i1⟩
  | 19 => ⟨S_, .i32⟩
  | 20 => ⟨S780, .i32⟩
  | 21 => ⟨S780, .i32⟩
  | 22 => ⟨S780, .i32⟩
  | 23 => ⟨S780x1, .i32⟩
  | 24 => ⟨S780x1, .i32⟩
  | 25 => ⟨S780x2, .i32⟩
  | 26 => ⟨S2048x780x64, .f32⟩
  | 27 => ⟨S2048x780x64, .f32⟩
  | _ => ⟨S2048x1600x64, .f32⟩

abbrev hbmTy (i : Nat) : BufTy := match i / 128 with
  | 0 => hbmTy0_0 i
  | 1 => hbmTy0_1 i
  | _ => ⟨S2048x1600x64, .f32⟩

abbrev bufTy : (tb : Table) → Fin (tcTables nBuf tb) → BufTy
  | .hbm, ⟨i, _⟩ => hbmTy i
  | _, _ => ⟨S2048x1600x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_v1 : Ref sig .tc := ⟨.hbm, 17, rfl⟩
abbrev main_call1_call0_c : Ref sig .tc := ⟨.hbm, 18, rfl⟩
abbrev main_call1_call0_v0 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_v7 : Ref sig .tc := ⟨.hbm, 26, rfl⟩
abbrev main_c_2 : Ref sig .tc := ⟨.hbm, 27, rfl⟩
abbrev main_v8 : Ref sig .tc := ⟨.hbm, 28, rfl⟩
abbrev main_v9 : Ref sig .tc := ⟨.hbm, 29, rfl⟩
abbrev main_c_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_v15 : Ref sig .tc := ⟨.hbm, 37, rfl⟩
abbrev main_call3_call0_c : Ref sig .tc := ⟨.hbm, 38, rfl⟩
abbrev main_call3_call0_v0 : Ref sig .tc := ⟨.hbm, 39, rfl⟩
abbrev main_v16 : Ref sig .tc := ⟨.hbm, 40, rfl⟩
abbrev main_c_5 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_call4_v5 : Ref sig .tc := ⟨.hbm, 47, rfl⟩
abbrev main_call4_v6 : Ref sig .tc := ⟨.hbm, 48, rfl⟩
abbrev main_call4_v7 : Ref sig .tc := ⟨.hbm, 49, rfl⟩
abbrev main_call4_c : Ref sig .tc := ⟨.hbm, 50, rfl⟩
abbrev main_call4_v8 : Ref sig .tc := ⟨.hbm, 51, rfl⟩
abbrev main_call4_v9 : Ref sig .tc := ⟨.hbm, 52, rfl⟩
abbrev main_call4_v10 : Ref sig .tc := ⟨.hbm, 53, rfl⟩
abbrev main_call4_c_0 : Ref sig .tc := ⟨.hbm, 54, rfl⟩
abbrev main_call4_v11 : Ref sig .tc := ⟨.hbm, 55, rfl⟩
abbrev main_call4_v12 : Ref sig .tc := ⟨.hbm, 56, rfl⟩
abbrev main_v17 : Ref sig .tc := ⟨.hbm, 57, rfl⟩
abbrev main_c_6 : Ref sig .tc := ⟨.hbm, 58, rfl⟩
abbrev main_call5_v0 : Ref sig .tc := ⟨.hbm, 59, rfl⟩
abbrev main_call5_c : Ref sig .tc := ⟨.hbm, 60, rfl⟩
abbrev main_call5_v1 : Ref sig .tc := ⟨.hbm, 61, rfl⟩
abbrev main_call5_c_0 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_c_1 : Ref sig .tc := ⟨.hbm, 66, rfl⟩
abbrev main_call5_v5 : Ref sig .tc := ⟨.hbm, 67, rfl⟩
abbrev main_call5_v6 : Ref sig .tc := ⟨.hbm, 68, rfl⟩
abbrev main_call5_c_2 : Ref sig .tc := ⟨.hbm, 69, rfl⟩
abbrev main_call5_v7 : Ref sig .tc := ⟨.hbm, 70, rfl⟩
abbrev main_call5_v8 : Ref sig .tc := ⟨.hbm, 71, rfl⟩
abbrev main_call5_c_3 : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_v12 : Ref sig .tc := ⟨.hbm, 76, rfl⟩
abbrev main_call5_v13 : Ref sig .tc := ⟨.hbm, 77, rfl⟩
abbrev main_call5_v14 : Ref sig .tc := ⟨.hbm, 78, rfl⟩
abbrev main_v18 : Ref sig .tc := ⟨.hbm, 79, rfl⟩
abbrev main_c_7 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_v7 : Ref sig .tc := ⟨.hbm, 88, rfl⟩
abbrev main_call6_c : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_call6_c_0 : Ref sig .tc := ⟨.hbm, 93, rfl⟩
abbrev main_call6_v11 : Ref sig .tc := ⟨.hbm, 94, rfl⟩
abbrev main_call6_v12 : Ref sig .tc := ⟨.hbm, 95, rfl⟩
abbrev main_v19 : Ref sig .tc := ⟨.hbm, 96, rfl⟩
abbrev main_c_8 : Ref sig .tc := ⟨.hbm, 97, rfl⟩
abbrev main_call7_v0 : Ref sig .tc := ⟨.hbm, 98, rfl⟩
abbrev main_call7_c : Ref sig .tc := ⟨.hbm, 99, rfl⟩
abbrev main_call7_v1 : Ref sig .tc := ⟨.hbm, 100, rfl⟩
abbrev main_call7_c_0 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_call7_c_1 : Ref sig .tc := ⟨.hbm, 105, rfl⟩
abbrev main_call7_v5 : Ref sig .tc := ⟨.hbm, 106, rfl⟩
abbrev main_call7_v6 : Ref sig .tc := ⟨.hbm, 107, rfl⟩
abbrev main_call7_c_2 : Ref sig .tc := ⟨.hbm, 108, rfl⟩
abbrev main_call7_v7 : Ref sig .tc := ⟨.hbm, 109, rfl⟩
abbrev main_call7_v8 : Ref sig .tc := ⟨.hbm, 110, rfl⟩
abbrev main_call7_c_3 : Ref sig .tc := ⟨.hbm, 111, rfl⟩
abbrev main_call7_v9 : Ref sig .tc := ⟨.hbm, 112, rfl⟩
abbrev main_call7_v10 : Ref sig .tc := ⟨.hbm, 113, rfl⟩
abbrev main_call7_v11 : Ref sig .tc := ⟨.hbm, 114, rfl⟩
abbrev main_call7_v12 : Ref sig .tc := ⟨.hbm, 115, rfl⟩
abbrev main_call7_v13 : Ref sig .tc := ⟨.hbm, 116, rfl⟩
abbrev main_call7_v14 : Ref sig .tc := ⟨.hbm, 117, rfl⟩
abbrev main_v20 : Ref sig .tc := ⟨.hbm, 118, rfl⟩
abbrev main_c_9 : Ref sig .tc := ⟨.hbm, 119, rfl⟩
abbrev main_v21 : Ref sig .tc := ⟨.hbm, 120, rfl⟩
abbrev main_v22 : Ref sig .tc := ⟨.hbm, 121, rfl⟩
abbrev main_c_10 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_c_11 : Ref sig .tc := ⟨.hbm, 126, rfl⟩
abbrev main_v26 : Ref sig .tc := ⟨.hbm, 127, rfl⟩
abbrev main_v27 : Ref sig .tc := ⟨.hbm, 128, rfl⟩
abbrev main_c_12 : Ref sig .tc := ⟨.hbm, 129, rfl⟩
abbrev main_v28 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩
abbrev main_c_13 : Ref sig .tc := ⟨.hbm, 137, rfl⟩
abbrev main_v35 : Ref sig .tc := ⟨.hbm, 138, rfl⟩
abbrev main_v36 : Ref sig .tc := ⟨.hbm, 139, rfl⟩
abbrev main_c_14 : Ref sig .tc := ⟨.hbm, 140, rfl⟩
abbrev main_v37 : Ref sig .tc := ⟨.hbm, 141, rfl⟩
abbrev main_v38 : Ref sig .tc := ⟨.hbm, 142, rfl⟩
abbrev main_v39 : Ref sig .tc := ⟨.hbm, 143, rfl⟩
abbrev main_c_15 : Ref sig .tc := ⟨.hbm, 144, rfl⟩
abbrev main_v40 : Ref sig .tc := ⟨.hbm, 145, rfl⟩
abbrev main_v41 : Ref sig .tc := ⟨.hbm, 146, rfl⟩
abbrev main_c_16 : Ref sig .tc := ⟨.hbm, 147, rfl⟩
abbrev main_v42 : Ref sig .tc := ⟨.hbm, 148, rfl⟩
abbrev main_v43 : Ref sig .tc := ⟨.hbm, 149, rfl⟩
abbrev main_v44 : Ref sig .tc := ⟨.hbm, 150, rfl⟩
abbrev main_v45 : Ref sig .tc := ⟨.hbm, 151, rfl⟩
abbrev main_v46 : Ref sig .tc := ⟨.hbm, 152, rfl⟩
abbrev main_v47 : Ref sig .tc := ⟨.hbm, 153, rfl⟩
abbrev main_v48 : Ref sig .tc := ⟨.hbm, 154, rfl⟩
abbrev main_v49 : Ref sig .tc := ⟨.hbm, 155, rfl⟩

abbrev nD : Nat := 1
abbrev τ : Topo := Topo.v7x

variable {F : FTy → Type} [FloatOps F]

class Facts₀ : Prop where
  shapeCasts_S2048x1600x64_S2048x40x40x64 : S2048x1600x64.ShapeCasts S2048x40x40x64
  bcast_S_S40x40 : S_.BroadcastsInDim S40x40 (![] : Fin 0 → Fin S40x40.rank)
  shapeCasts_S40x40_S1600 : S40x40.ShapeCasts S1600
  natLt_1_32 : 1 < 32
  bcast_S_S_ : S_.BroadcastsInDim S_ (![] : Fin 0 → Fin S_.rank)
  reduceWindows_S1600_S1600_w1600s1p1599_0 : S1600.ReduceWindows (![1600] : Fin 1 → Nat) ![1] ![1599] ![0] S1600
  h_S_ : 0 < S_.numel
  bcast_S_S780 : S_.BroadcastsInDim S780 (![] : Fin 0 → Fin S780.rank)
  bcast_S_S1600 : S_.BroadcastsInDim S1600 (![] : Fin 0 → Fin S1600.rank)
  bcast_S1600_S1600x1_0 : S1600.BroadcastsInDim S1600x1 (![0] : Fin 1 → Fin S1600x1.rank)
  reduceWindows_S780_S780_w780s1p779_0 : S780.ReduceWindows (![780] : Fin 1 → Nat) ![1] ![779] ![0] S780
  bcast_S780_S780x1_0 : S780.BroadcastsInDim S780x1 (![0] : Fin 1 → Fin S780x1.rank)
  concatenates_S780x1_S780x1_S780x2_d1 : Shape.Concatenates [S780x1, S780x1] S780x2 1
  scatter_S780_S1600x1_S1600_n_0_0_1_wf : ScatterDims.WF S780 S1600x1 S1600 [] [0] [0] 1
  gather_S2048x40x40x64_S780x2_S2048x780x64_02_12_n_n_12_1_20481164_wf : GatherDims.WF S2048x40x40x64 S780x2 S2048x780x64 [0, 2] [1, 2] [] [1, 2] [] 1 ![2048, 1, 1, 64]

variable [Facts₀]

def scatter_S780_S1600x1_S1600_n_0_0_1 : ScatterDims S780 S1600x1 S1600 where
  updateWindowDims := []
  insertedWindowDims := [0]
  scatterDimsToOperandDims := [0]
  indexVectorDim := 1
  wf := scatter_S780_S1600x1_S1600_n_0_0_1_wf
def gather_S2048x40x40x64_S780x2_S2048x780x64_02_12_n_n_12_1_20481164 : GatherDims S2048x40x40x64 S780x2 S2048x780x64 where
  offsetDims := [0, 2]
  collapsedSliceDims := [1, 2]
  operandBatchingDims := []
  startIndicesBatchingDims := []
  startIndexMap := [1, 2]
  indexVectorDim := 1
  sliceSizes := ![2048, 1, 1, 64]
  wf := gather_S2048x40x40x64_S780x2_S2048x780x64_02_12_n_n_12_1_20481164_wf

class Facts : Prop extends Facts₀ where

variable [Facts]
-- ==== Proof.PairOrder.lean ====
/-
  The arithmetic of the pair order, with no program in sight.

  The 40 × 40 field grid is numbered flat, position f = 40·i + j. A position is UPPER when i < j. There are
  780 upper positions; the kernel and the reference both list them in increasing flat order:

  * the reference finds the q-th upper position by counting: with c(f) the number of upper positions ≤ f, it is
    the number of positions f < 1600 with c(f) ≤ q (a running count, a histogram of the counts, a running sum of the
    histogram) — called sel q here;
  * the kernel writes field i's pairs (i, i+1), …, (i, 39) as one run of 39 − i output rows that starts at row
    rowStart i = 39 + 38 + … + (40 − i), so output row rowStart i + l pairs position 41·i + 1 + l = 40·i + (i + 1 + l)
    with its transpose 40·(i + 1 + l) + i.

  sel_row says the two agree: sel (rowStart i + l) = 41·i + 1 + l.
-/
import Mathlib.Order.Interval.Finset.Nat
import Mathlib.Data.Nat.Count

namespace Cert.FieldPairs

/-- Flat position f = 40·i + j of the 40 × 40 grid lies strictly above the diagonal: i < j. -/
def Upper (f : ℕ) : Prop := f / 40 < f % 40

instance : DecidablePred Upper := fun f => Nat.decLt _ _

/-- The flat position the counting procedure assigns to output row q: how many positions have an inclusive
    running count of upper positions that is at most q. -/
def sel (q : ℕ) : ℕ := ((Finset.range 1600).filter fun f => Nat.count Upper (f + 1) ≤ q).card

/-- The first output row of field i's run: 39 + 38 + … + (40 − i). -/
def rowStart (i : ℕ) : ℕ := i * (79 - i) / 2

/-- The transposed position: (i, j) ↦ (j, i). -/
def swap (f : ℕ) : ℕ := 40 * (f % 40) + f / 40

/-- Before position 40·i + (i + 1 + l) lie the full runs of the fields before i and l pairs of field i. -/
theorem count_row : ∀ i < 39, ∀ l < 39 - i, Nat.count Upper (41 * i + 1 + l) = rowStart i + l := by
  decide +kernel

theorem upper_row (i l : ℕ) (hi : i < 39) (hl : l < 39 - i) : Upper (41 * i + 1 + l) := by
  unfold Upper
  have h1 : (41 * i + 1 + l) / 40 = i := by omega
  have h2 : (41 * i + 1 + l) % 40 = i + 1 + l := by omega
  rw [h1, h2]; omega

/-- Every output row belongs to exactly one field's run. -/
theorem row_decomp : ∀ q < 780, ∃ i < 39, ∃ l < 39 - i, q = rowStart i + l := by
  decide +kernel

/-- The counting procedure finds field i's l-th pair at output row rowStart i + l: positions before 41·i + 1 + l have
    a running count of at most the count there, positions from it on have one more at least. -/
theorem sel_row (i l : ℕ) (hi : i < 39) (hl : l < 39 - i) : sel (rowStart i + l) = 41 * i + 1 + l := by
  have hc := count_row i hi l hl
  have hu := upper_row i l hi hl
  have hn : 41 * i + 1 + l ≤ 1600 := by omega
  unfold sel
  have : ((Finset.range 1600).filter fun f => Nat.count Upper (f + 1) ≤ rowStart i + l)
      = Finset.range (41 * i + 1 + l) := by
    ext f
    simp only [Finset.mem_filter, Finset.mem_range]
    constructor
    · rintro ⟨_, hle⟩
      by_contra hge
      have hge' : 41 * i + 1 + l + 1 ≤ f + 1 := by omega
      have hmono := Nat.count_monotone Upper hge'
      rw [Nat.count_succ, if_pos hu, hc] at hmono
      omega
    · intro hlt
      refine ⟨by omega, ?_⟩
      have hmono := Nat.count_monotone Upper (show f + 1 ≤ 41 * i + 1 + l by omega)
      rw [hc] at hmono
      exact hmono
  rw [this, Finset.card_range]

theorem sel_lt (q : ℕ) (hq : q < 780) : sel q < 1600 := by
  obtain ⟨i, hi, l, hl, rfl⟩ := row_decomp q hq
  rw [sel_row i l hi hl]; omega

theorem swap_lt (f : ℕ) (hf : f < 1600) : swap f < 1600 := by
  unfold swap; omega

theorem swap_row (i l : ℕ) (hi : i < 39) (hl : l < 39 - i) : swap (41 * i + 1 + l) = 40 * (i + 1 + l) + i := by
  unfold swap
  have h1 : (41 * i + 1 + l) / 40 = i := by omega
  have h2 : (41 * i + 1 + l) % 40 = i + 1 + l := by omega
  rw [h1, h2]

end Cert.FieldPairs
-- ==== Proof.PairProduct.lean ====
/-
  The result both programs compute, as one function of the argument array: at batch row b, output row q and lane e,
  the entry at the q-th upper position times the entry at its transpose. Stated for any batch extent, so that it
  speaks of the whole [2048, 1600, 64] array and of one 16-row block of it alike.
-/
import proofs.«177074_j69715909148812_1_alg».proof.Proof.PairOrder
import Idealize.ShloMosaic.Lib.ValueIdx
import Idealize.ShloMosaic.PureOps.Ideal

noncomputable section

namespace Cert.FieldPairs

open Idealize.ShloMosaic Idealize.ShloMosaic.ValueIdx

/-- The flat position of output row q. -/
def posOf (q : Fin 780) : Fin 1600 := ⟨sel q.val, sel_lt q.val q.isLt⟩

/-- Its transpose. -/
def swapOf (q : Fin 780) : Fin 1600 := ⟨swap (sel q.val), swap_lt _ (sel_lt q.val q.isLt)⟩

/-- x[b, i, j, :] · x[b, j, i, :] over the upper pairs (i, j) in increasing flat order. -/
def pairProd {B : ℕ} (x : (⟨3, ![B, 1600, 64]⟩ : Shape).Idx → EReal) : (⟨3, ![B, 780, 64]⟩ : Shape).Idx → EReal :=
  fun y => x (ix3 (n0 := B) (n1 := 1600) (n2 := 64) (y 0) (posOf (y 1)) (y 2))
    * x (ix3 (n0 := B) (n1 := 1600) (n2 := 64) (y 0) (swapOf (y 1)) (y 2))

theorem pairProd_ix3 {B : ℕ} (x : (⟨3, ![B, 1600, 64]⟩ : Shape).Idx → EReal) (b : Fin B) (q : Fin 780) (e : Fin 64) :
    pairProd x (ix3 b q e) = x (ix3 b (posOf q) e) * x (ix3 b (swapOf q) e) := rfl

/-- Field i's l-th pair: row rowStart i + l of the output reads positions 41·i + 1 + l and 40·(i + 1 + l) + i. -/
theorem posOf_row (i l : ℕ) (hi : i < 39) (hl : l < 39 - i) (h : rowStart i + l < 780) :
    posOf ⟨rowStart i + l, h⟩ = ⟨41 * i + 1 + l, by omega⟩ :=
  Fin.ext (sel_row i l hi hl)

theorem swapOf_row (i l : ℕ) (hi : i < 39) (hl : l < 39 - i) (h : rowStart i + l < 780) :
    swapOf ⟨rowStart i + l, h⟩ = ⟨40 * (i + 1 + l) + i, by omega⟩ :=
  Fin.ext (by show swap (sel (rowStart i + l)) = _; rw [sel_row i l hi hl, swap_row i l hi hl])

/-- A field's run of output rows ends inside the 780 rows. -/
theorem rowStart_add_le : ∀ i ≤ 38, rowStart i + (39 - i) ≤ 780 := by decide

end Cert.FieldPairs

end
-- ==== Proof.KernelStore.lean ====
/-
  One store of the kernel body, in closed form, and what it writes.

  The body runs over the fields i = 0 … 38. For field i it loads the contiguous rows 41·i + 1 … 40·i + 39 of the
  input block (the pairs (i, i+1) … (i, 39)), loads the 39 − i single rows 40·j + i, j = i + 1 … 39 (their
  transposes), lays those rows side by side, multiplies, and stores the 39 − i product rows at output rows
  rowStart i … . So the payload of store i at local row l is x[b, 41·i + 1 + l, e] · x[b, 40·(i + 1 + l) + i, e], which
  is the pair product at output row rowStart i + l.
-/
import proofs.«177074_j69715909148812_1_alg».proof.Proof.Gen.KernelIdeal.Frame.RunA
import proofs.«177074_j69715909148812_1_alg».proof.Proof.PairProduct
import Idealize.ShloMosaic.Lib.Pipeline.Value
import Idealize.ShloMosaic.Lib.ValueIdx
import Idealize.ShloMosaic.PureOps.Ideal

noncomputable section

namespace Cert.KernelIdeal.Store

open Cert.KernelIdeal Cert.KernelIdeal.Gen Cert.FieldPairs
open Idealize.ShloMosaic Idealize.ShloMosaic.TcCoe Idealize.ShloMosaic.ValueIdx Idealize.SL.Sem

variable {F : FTy → Type} [FloatOps F]

/-- One row of the block, all batch rows and lanes. -/
abbrev Srow : Shape := ⟨3, ![16, 1, 64]⟩
/-- L rows of the block. -/
abbrev Sblk (L : ℕ) : Shape := ⟨3, ![16, L, 64]⟩

theorem inbRows (r L : ℕ) (h : r + L ≤ 1600) :
    ∀ a, (![0, r, 0] : Fin 3 → ℕ) a + (![16, L, 64] : Fin 3 → ℕ) a ≤ S16x1600x64.size a := by
  intro a; match a with
  | ⟨0, _⟩ => exact Nat.le_refl 16
  | ⟨1, _⟩ => exact h
  | ⟨2, _⟩ => exact Nat.le_refl 64

/-- The load of rows r … r + L − 1 of the input block. -/
def rowsLoad (arg1 : Memref sig .tc .vmem S16x1600x64 .f32) (harg1 : arg1.IsWhole) (x0 : Vec F S16x1600x64 .f32)
    (r L : ℕ) (h : r + L ≤ 1600) : (Sblk L).Idx → Elt F .f32 :=
  View.readAt (Elt F) arg1.view (Rect.unit (s := S16x1600x64) ![0, r, 0] ![16, L, 64] (inbRows r L h)).toLoadRect
    (harg1.unread x0)

/-- It reads the block's entries at rows r + l. -/
theorem rowsLoad_apply (arg1 : Memref sig .tc .vmem S16x1600x64 .f32) (harg1 : arg1.IsWhole) (x0 : Vec F S16x1600x64 .f32)
    (r L : ℕ) (h : r + L ≤ 1600) (b : Fin 16) (l : Fin L) (e : Fin 64) :
    rowsLoad arg1 harg1 x0 r L h (ix3 b l e) = x0 (ix3 b (⟨r + l.val, by omega⟩ : Fin 1600) e) := by
  unfold rowsLoad
  rw [View.readAt_eq_ld, harg1.read_unread]
  show x0 _ = x0 _
  congr 1; funext a
  match a with
  | ⟨0, _⟩ => apply Fin.ext; show 0 + 1 * b.val = b.val; omega
  | ⟨1, _⟩ => apply Fin.ext; show r + 1 * l.val = r + l.val; omega
  | ⟨2, _⟩ => apply Fin.ext; show 0 + 1 * e.val = e.val; omega

theorem cc1 : Shape.ShapeCasts Srow S16x64 := by decide
theorem cc2 : Shape.ShapeCasts S16x64 Srow := by decide

/-- N ≥ 2 single rows laid side by side along the row axis make N rows. -/
theorem concatRows {α : Type} (N : ℕ) (hN : 2 ≤ N) (f : Fin N → (Srow.Idx → α)) :
    Shape.Concatenates ((List.ofFn fun n : Fin N => (⟨Srow, f n⟩ : (s : Shape) × (s.Idx → α))).map (·.1)) (Sblk N) 1 := by
  have hmap : (List.ofFn fun n : Fin N => (⟨Srow, f n⟩ : (s : Shape) × (s.Idx → α))).map (·.1) = List.replicate N Srow := by
    rw [List.map_ofFn]; exact List.ofFn_const N Srow
  rw [hmap]
  refine ⟨by simpa using hN, ?_, ?_⟩
  · intro s hs
    obtain rfl := List.eq_of_mem_replicate hs
    refine ⟨rfl, fun b hb => ?_⟩
    match b with
    | ⟨0, _⟩ => rfl
    | ⟨1, _⟩ => exact absurd rfl hb
    | ⟨2, _⟩ => rfl
  · rw [List.map_replicate, List.sum_replicate]
    show N • (if h : Srow.rank = (Sblk N).rank then Srow.size ((1 : Fin (Sblk N).rank).cast h.symm) else 0) = N
    rw [dif_pos rfl]; show N • 1 = N; simp

/-- The transposed row of pair (i, i + 1 + n), as the body makes it: loaded, flattened to [16, 64], and given its
    unit row axis back. -/
def transRow (arg1 : Memref sig .tc .vmem S16x1600x64 .f32) (harg1 : arg1.IsWhole) (x0 : Vec F S16x1600x64 .f32)
    (i : ℕ) (hi : i < 39) (n : Fin (39 - i)) : Srow.Idx → Elt F .f32 :=
  shapeCast Srow (shapeCast S16x64 (rowsLoad arg1 harg1 x0 (40 * (i + 1 + n.val) + i) 1 (by omega)) cc1) cc2

/-- The payload of the store for field i < 38 (at least two pairs): the contiguous rows times the transposed rows laid
    side by side. -/
def storeForm (arg1 : Memref sig .tc .vmem S16x1600x64 .f32) (harg1 : arg1.IsWhole) (x0 : Vec F S16x1600x64 .f32)
    (i : ℕ) (hi : i < 38) : (Sblk (39 - i)).Idx → Elt F .f32 :=
  mulf (φ := .f32) (rowsLoad arg1 harg1 x0 (41 * i + 1) (39 - i) (by omega))
    (concatenate (Sblk (39 - i)) 1
      (List.ofFn fun n : Fin (39 - i) => (⟨Srow, transRow arg1 harg1 x0 i (by omega) n⟩ : (s : Shape) × (s.Idx → Elt F .f32)))
      (concatRows (39 - i) (by omega) _))

/-- The payload of the last store (field 38, the one pair (38, 39)): no rows to lay side by side. -/
def lastForm (arg1 : Memref sig .tc .vmem S16x1600x64 .f32) (harg1 : arg1.IsWhole) (x0 : Vec F S16x1600x64 .f32) :
    (Sblk 1).Idx → Elt F .f32 :=
  mulf (φ := .f32) (rowsLoad arg1 harg1 x0 1559 1 (by omega)) (transRow arg1 harg1 x0 38 (by omega) ⟨0, by omega⟩)

theorem transRow_apply (arg1 : Memref sig .tc .vmem S16x1600x64 .f32) (harg1 : arg1.IsWhole) (x0 : Vec F S16x1600x64 .f32)
    (i : ℕ) (hi : i < 39) (n : Fin (39 - i)) (b : Fin 16) (e : Fin 64) :
    transRow arg1 harg1 x0 i hi n (ix3 b (0 : Fin 1) e) = x0 (ix3 b (⟨40 * (i + 1 + n.val) + i, by omega⟩ : Fin 1600) e) := by
  unfold transRow
  rw [shapeCast_shapeCast]
  exact rowsLoad_apply arg1 harg1 x0 _ 1 _ b 0 e

/-- Store i's payload at local row l: the entry at position 41·i + 1 + l times the entry at its transpose. -/
theorem storeForm_apply (arg1 : Memref sig .tc .vmem S16x1600x64 .f32) (harg1 : arg1.IsWhole) (x0 : Vec Ideal S16x1600x64 .f32)
    (i : ℕ) (hi : i < 38) (b : Fin 16) (l : Fin (39 - i)) (e : Fin 64) :
    storeForm (F := Ideal) arg1 harg1 x0 i hi (ix3 b l e)
      = x0 (ix3 b (⟨41 * i + 1 + l.val, by omega⟩ : Fin 1600) e) * x0 (ix3 b (⟨40 * (i + 1 + l.val) + i, by omega⟩ : Fin 1600) e) := by
  unfold storeForm
  rw [ValueIdx.mulf_apply]
  congr 1
  · exact rowsLoad_apply arg1 harg1 x0 _ _ _ b l e
  · refine (concatenate_ofFn_unit_apply (t := Sblk (39 - i)) (s₁ := Srow) (1 : Fin 3)
      (fun n : Fin (39 - i) => transRow arg1 harg1 x0 i (by omega) n) _ rfl rfl (ix3 b l e) l rfl (ix3 b (0 : Fin 1) e) ?_).trans ?_
    · intro a ha
      match a with
      | ⟨0, _⟩ => rfl
      | ⟨1, _⟩ => exact absurd rfl ha
      | ⟨2, _⟩ => rfl
    · exact transRow_apply arg1 harg1 x0 i (by omega) l b e

theorem lastForm_apply (arg1 : Memref sig .tc .vmem S16x1600x64 .f32) (harg1 : arg1.IsWhole) (x0 : Vec Ideal S16x1600x64 .f32)
    (b : Fin 16) (e : Fin 64) :
    lastForm (F := Ideal) arg1 harg1 x0 (ix3 b (0 : Fin 1) e)
      = x0 (ix3 b (⟨1559, by omega⟩ : Fin 1600) e) * x0 (ix3 b (⟨1598, by omega⟩ : Fin 1600) e) := by
  unfold lastForm
  rw [ValueIdx.mulf_apply]
  congr 1
  · exact rowsLoad_apply arg1 harg1 x0 1559 1 _ b 0 e
  · exact transRow_apply arg1 harg1 x0 38 (by omega) ⟨0, by omega⟩ b e

/-! ## Where a store lands -/

theorem inbStore (i : ℕ) (hi : i ≤ 38) :
    ∀ a, (![0, rowStart i, 0] : Fin 3 → ℕ) a + (![16, 39 - i, 64] : Fin 3 → ℕ) a ≤ S16x780x64.size a := by
  intro a; match a with
  | ⟨0, _⟩ => exact Nat.le_refl 16
  | ⟨1, _⟩ => exact rowStart_add_le i hi
  | ⟨2, _⟩ => exact Nat.le_refl 64

/-- Store i writes the 39 − i output rows from rowStart i on. -/
abbrev storeRect (i : ℕ) (hi : i ≤ 38) : Rect S16x780x64 :=
  Rect.unit (s := S16x780x64) ![0, rowStart i, 0] ![16, 39 - i, 64] (inbStore i hi)

/-- A local index of store i sits rowStart i rows down in the output block. -/
theorem storeRect_emb (i : ℕ) (hi : i ≤ 38) (b : Fin 16) (l : Fin (39 - i)) (e : Fin 64) :
    (storeRect i hi).emb (ix3 (n0 := 16) (n1 := 39 - i) (n2 := 64) b l e)
      = ix3 (n0 := 16) (n1 := 780) (n2 := 64) b (⟨rowStart i + l.val, by have := rowStart_add_le i hi; omega⟩ : Fin 780) e := by
  funext a
  match a with
  | ⟨0, _⟩ => apply Fin.ext; show 0 + 1 * b.val = b.val; omega
  | ⟨1, _⟩ => apply Fin.ext; show rowStart i + 1 * l.val = rowStart i + l.val; omega
  | ⟨2, _⟩ => apply Fin.ext; show 0 + 1 * e.val = e.val; omega

/-- Under its rectangle, store i's payload is the pair product of the input block. -/
theorem storeForm_agrees (arg1 : Memref sig .tc .vmem S16x1600x64 .f32) (harg1 : arg1.IsWhole) (x0 : Vec Ideal S16x1600x64 .f32)
    (i : ℕ) (hi : i < 38) (y : (Sblk (39 - i)).Idx) :
    storeForm (F := Ideal) arg1 harg1 x0 i hi y = pairProd (B := 16) x0 ((storeRect i (by omega)).emb y) := by
  obtain ⟨b, l, e, rfl⟩ : ∃ (b : Fin 16) (l : Fin (39 - i)) (e : Fin 64), y = ix3 b l e := ⟨y 0, y 1, y 2, eq_ix3 y⟩
  have hle := rowStart_add_le i (by omega)
  refine (storeForm_apply arg1 harg1 x0 i hi b l e).trans
    (Eq.trans ?_ (congrArg (pairProd (B := 16) x0) (storeRect_emb i (by omega) b l e)).symm)
  rw [pairProd_ix3, posOf_row i l.val (by omega) l.isLt, swapOf_row i l.val (by omega) l.isLt]

theorem lastForm_agrees (arg1 : Memref sig .tc .vmem S16x1600x64 .f32) (harg1 : arg1.IsWhole) (x0 : Vec Ideal S16x1600x64 .f32)
    (y : (Sblk (39 - 38)).Idx) :
    lastForm (F := Ideal) arg1 harg1 x0 y = pairProd (B := 16) x0 ((storeRect 38 (by omega)).emb y) := by
  obtain ⟨b, l, e, rfl⟩ : ∃ (b : Fin 16) (l : Fin (39 - 38)) (e : Fin 64), y = ix3 b l e := ⟨y 0, y 1, y 2, eq_ix3 y⟩
  have hl0 : l = (0 : Fin 1) := Fin.ext (by have := l.isLt; omega)
  subst hl0
  refine (lastForm_apply arg1 harg1 x0 b e).trans
    (Eq.trans ?_ (congrArg (pairProd (B := 16) x0) (storeRect_emb 38 (by omega) b (0 : Fin 1) e)).symm)
  rw [pairProd_ix3, posOf_row 38 (0 : Fin 1).val (by omega) (by decide), swapOf_row 38 (0 : Fin 1).val (by omega) (by decide)]
  rfl

end Cert.KernelIdeal.Store

end
-- ==== Proof.KernelPieces.lean ====
/-
  The 39 stores of one body run, listed, and what they leave in the output block: the pair product of the input block.

  The run of the body ends with the output block's staging buffer holding 39 pieces, the store for field 38 first (it
  ran last) down to the store for field 0. Piece i sits on the output rows of field i's run and its payload is the
  closed form of Store: each of the 39 equalities below holds by unfolding the run's named values. Every index of the
  block lies in one of the pieces, and under its rectangle each payload is the pair product, so the block read back is the
  pair product of the input block.
-/
import proofs.«177074_j69715909148812_1_alg».proof.Proof.KernelStore
import proofs.«177074_j69715909148812_1_alg».proof.Proof.KernelIdealFrame

set_option maxRecDepth 16384

noncomputable section

namespace Cert.KernelIdeal.Store

open Cert.KernelIdeal Cert.KernelIdeal.Gen Cert.KernelIdeal.GenP Cert.FieldPairs
open Idealize.ShloMosaic Idealize.ShloMosaic.TcCoe Idealize.ShloMosaic.ValueIdx Idealize.SL.Sem

variable {F : FTy → Type} [FloatOps F]

/-- The piece store i < 38 leaves. -/
def storePiece (arg1 : Memref sig .tc .vmem S16x1600x64 .f32) (harg1 : arg1.IsWhole) (x0 : Vec F S16x1600x64 .f32)
    (i : Fin 38) : View.Piece (Elt F) S16x780x64 .f32 :=
  ⟨storeRect i.val (by omega), storeForm arg1 harg1 x0 i.val i.isLt⟩

/-- The piece the last store leaves. -/
def lastPiece (arg1 : Memref sig .tc .vmem S16x1600x64 .f32) (harg1 : arg1.IsWhole) (x0 : Vec F S16x1600x64 .f32) :
    View.Piece (Elt F) S16x780x64 .f32 :=
  ⟨storeRect 38 (by omega), lastForm arg1 harg1 x0⟩

/-- What the run leaves, last store first. -/
def storePieces (arg1 : Memref sig .tc .vmem S16x1600x64 .f32) (harg1 : arg1.IsWhole) (x0 : Vec F S16x1600x64 .f32) :
    List (View.Piece (Elt F) S16x780x64 .f32) :=
  lastPiece arg1 harg1 x0 :: ((List.finRange 38).reverse.map (storePiece arg1 harg1 x0))

/-- The run's pieces are these: each store's rectangle is the one named by rowStart, and its payload, the run's named
    values unfolded, is the closed form. -/
theorem run_pieces (c : Dev nD) (i : grid0.Coords) (arg1 : Memref sig .tc .vmem S16x1600x64 .f32) (harg1 : arg1.IsWhole)
    (arg2 : Memref sig .tc .vmem S16x780x64 .f32) (harg2 : arg2.IsWhole) (x0 : Vec F S16x1600x64 .f32) :
    (kernelRun0_A c i arg1 harg1 arg2 harg2 x0).1 = storePieces arg1 harg1 x0 := by
  unfold kernelRun0_A
  rfl

/-- Under its rectangle every piece's payload is the pair product of the input block. -/
theorem pieces_agree (arg1 : Memref sig .tc .vmem S16x1600x64 .f32) (harg1 : arg1.IsWhole) (x0 : Vec Ideal S16x1600x64 .f32) :
    ∀ p ∈ storePieces (F := Ideal) arg1 harg1 x0, ∀ y : p.1.shape.Idx, p.2 y = pairProd (B := 16) x0 (p.1.emb y) := by
  intro p hp
  rcases List.mem_cons.mp hp with rfl | hp
  · exact lastForm_agrees arg1 harg1 x0
  · obtain ⟨i, -, rfl⟩ := List.mem_map.mp hp
    exact storeForm_agrees arg1 harg1 x0 i.val i.isLt

/-- The output block after the body is the pair product of the input block. -/
theorem out_block (c : Dev nD) (i : grid0.Coords) (arg1 : Memref sig .tc .vmem S16x1600x64 .f32) (harg1 : arg1.IsWhole)
    (arg2 : Memref sig .tc .vmem S16x780x64 .f32) (harg2 : arg2.IsWhole) (x0 : Vec Ideal S16x1600x64 .f32) :
    out0_A_1 (F := Ideal) c i arg1 harg1 arg2 harg2 x0 = pairProd (B := 16) x0 := by
  funext y
  unfold out0_A_1
  rw [View.read_writes_eq_canon _ _ _ (cover0_A_1 c i arg1 harg1 arg2 harg2 x0)]
  have hc := cover0_A_1 c i arg1 harg1 arg2 harg2 x0 y
  rw [run_pieces] at hc ⊢
  exact View.canon_apply_of_pieces (pairProd (B := 16) x0) _ (pieces_agree arg1 harg1 x0) y hc

end Cert.KernelIdeal.Store

end
-- ==== Proof.KernelValue.lean ====
/-
  From blocks to the array: the kernel's result is the pair product of the whole argument.

  Grid point t stages rows 16·t … 16·t + 15 of the argument (all 1600 positions, all lanes) and writes back the same
  batch rows of the result (all 780 output rows). What it writes back is the pair product of its input block
  (Pieces), and the pair product only ever pairs entries of one batch row, so that is block t of the pair product of
  the whole argument. The 128 blocks cover the result array.
-/
import proofs.«177074_j69715909148812_1_alg».proof.Proof.KernelPieces
import proofs.«177074_j69715909148812_1_alg».proof.Proof.KernelIdealValue

set_option maxRecDepth 16384

noncomputable section

namespace Cert.KernelIdeal.HandValue

open Cert.KernelIdeal Cert.KernelIdeal.Gen Cert.KernelIdeal.GenP Cert.KernelIdeal.ValueP Cert.KernelIdeal.Store Cert.FieldPairs
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The printed index maps, decided over the grid: both windows sit at block t along the batch axis and at block 0
    along the other two. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

theorem point_lt (t : Fin cfg0.N) : t.val < 128 := Nat.lt_of_lt_of_eq t.isLt N_0

/-- The argument array as the region finds it, at its literal type. -/
abbrev xarr (c : Dev nD) : Vec Ideal S2048x1600x64 .f32 := V m c main_arg0

/-- Point t's input block, at its literal type. -/
abbrev xblk (c : Dev nD) (t : Fin cfg0.N) : Vec Ideal S16x1600x64 .f32 := iblk m c 0 t

/-- An entry of point t's input block is the argument's entry 16·t batch rows further on. -/
theorem iblk_apply (c : Dev nD) (t : Fin cfg0.N) (b : Fin 16) (r : Fin 1600) (e : Fin 64) :
    xblk m c t (ix3 b r e) = xarr m c (ix3 (⟨16 * t.val + b.val, by have := point_lt t; omega⟩ : Fin 2048) r e) := by
  obtain ⟨e0, e1, e2, -, -, -⟩ := idx_facts t
  show xarr m c (((cfg0.win 0).blk t).view.emb (ix3 b r e)) = _
  congr 1; funext a; apply Fin.ext
  match a with
  | ⟨0, _⟩ => show win0_0.index t (0 : Fin 3) * 16 + 1 * b.val = 16 * t.val + b.val; omega
  | ⟨1, _⟩ => show win0_0.index t (1 : Fin 3) * 1600 + 1 * r.val = r.val; omega
  | ⟨2, _⟩ => show win0_0.index t (2 : Fin 3) * 64 + 1 * e.val = e.val; omega

/-- The pair product of point t's input block is the pair product of the argument, 16·t batch rows further on: a pair
    never leaves its batch row. -/
theorem pairProd_iblk (c : Dev nD) (t : Fin cfg0.N) (b : Fin 16) (q : Fin 780) (e : Fin 64) :
    pairProd (B := 16) (xblk m c t) (ix3 b q e)
      = pairProd (B := 2048) (xarr m c) (ix3 (⟨16 * t.val + b.val, by have := point_lt t; omega⟩ : Fin 2048) q e) := by
  show xblk m c t (ix3 b (posOf q) e) * xblk m c t (ix3 b (swapOf q) e) = xarr m c _ * xarr m c _
  rw [iblk_apply, iblk_apply]

/-- A local index of point t's output block sits 16·t batch rows down in the result array. -/
theorem oblk_emb (t : Fin cfg0.N) (b : Fin 16) (q : Fin 780) (e : Fin 64) :
    ((cfg0.win 1).blk t).view.emb (ix3 (n0 := 16) (n1 := 780) (n2 := 64) b q e)
      = ix3 (n0 := 2048) (n1 := 780) (n2 := 64) (⟨16 * t.val + b.val, by have := point_lt t; omega⟩ : Fin 2048) q e := by
  obtain ⟨-, -, -, e3, e4, e5⟩ := idx_facts t
  funext a; apply Fin.ext
  match a with
  | ⟨0, _⟩ => show win0_1.index t (0 : Fin 3) * 16 + 1 * b.val = 16 * t.val + b.val; omega
  | ⟨1, _⟩ => show win0_1.index t (1 : Fin 3) * 780 + 1 * q.val = q.val; omega
  | ⟨2, _⟩ => show win0_1.index t (2 : Fin 3) * 64 + 1 * e.val = e.val; omega

/-- WHAT POINT t WRITES BACK is block t of the pair product of the argument as the region finds it. -/
theorem flushed_eq (c : Dev nD) (t : Fin cfg0.N) :
    (dats m 0 c).flushed 1 t = ((cfg0.win 1).blk t).view.read (Elt Ideal) (pairProd (B := 2048) (xarr m c)) := by
  rw [flushed1_A, out_block]
  funext j
  obtain ⟨b, q, e, rfl⟩ : ∃ (b : Fin 16) (q : Fin 780) (e : Fin 64), j = ix3 (n0 := 16) (n1 := 780) (n2 := 64) b q e :=
    ⟨j 0, j 1, j 2, eq_ix3 (n0 := 16) (n1 := 780) (n2 := 64) j⟩
  show pairProd (B := 16) (xblk m c t) (ix3 b q e)
    = pairProd (B := 2048) (xarr m c) (((cfg0.win 1).blk t).view.emb (ix3 (n0 := 16) (n1 := 780) (n2 := 64) b q e))
  exact (pairProd_iblk m c t b q e).trans (congrArg (pairProd (B := 2048) (xarr m c)) (oblk_emb t b q e)).symm

/-- An index of the result array is in point t's block iff each coordinate is in the block's range on its axis. -/
theorem mem_blk (t : Fin cfg0.N) (i : S2048x780x64.Idx) :
    i ∈ ((cfg0.win 1).blk t).view.set ↔ ∀ a : Fin 3, win0_1.index t a * S16x780x64.size a ≤ (i a).val ∧ (i a).val < win0_1.index t a * S16x780x64.size a + S16x780x64.size a := by
  show i ∈ ((View.whole main_v0).slice (win0_1.rect t)).set ↔ _
  rw [View.set_slice_whole, Rect.mem_set_unit]
  exact Iff.rfl

/-- Every index of the result array lies in the block of the point that owns its batch row. -/
theorem cover (i : S2048x780x64.Idx) : ∃ t : Fin cfg0.N, (cfg0.win 1).flush t = true ∧ i ∈ ((cfg0.win 1).blk t).view.set := by
  have hi0 : (i 0).val < 2048 := (i 0).isLt
  have hi1 : (i 1).val < 780 := (i 1).isLt
  have hi2 : (i 2).val < 64 := (i 2).isLt
  have hlt : (i 0).val / 16 < cfg0.N := Nat.lt_of_lt_of_eq (show (i 0).val / 16 < 128 by omega) N_0.symm
  refine ⟨⟨(i 0).val / 16, hlt⟩, flush0_1 _, ?_⟩
  obtain ⟨-, -, -, e3', e4, e5⟩ := idx_facts ⟨(i 0).val / 16, hlt⟩
  have e3 : win0_1.index ⟨(i 0).val / 16, hlt⟩ (0 : Fin 3) = (i 0).val / 16 := e3'
  rw [mem_blk]
  intro a
  match a with
  | ⟨0, _⟩ => show win0_1.index ⟨(i 0).val / 16, hlt⟩ (0 : Fin 3) * 16 ≤ (i 0).val ∧ (i 0).val < win0_1.index ⟨(i 0).val / 16, hlt⟩ (0 : Fin 3) * 16 + 16; omega
  | ⟨1, _⟩ => show win0_1.index ⟨(i 0).val / 16, hlt⟩ (1 : Fin 3) * 780 ≤ (i 1).val ∧ (i 1).val < win0_1.index ⟨(i 0).val / 16, hlt⟩ (1 : Fin 3) * 780 + 780; omega
  | ⟨2, _⟩ => show win0_1.index ⟨(i 0).val / 16, hlt⟩ (2 : Fin 3) * 64 ≤ (i 2).val ∧ (i 2).val < win0_1.index ⟨(i 0).val / 16, hlt⟩ (2 : Fin 3) * 64 + 64; omega

/-- THE RESULT ARRAY after the run: the pair product of the argument. -/
theorem final (c : Dev nD) :
    (dats m 0 c).arrAt 1 cfg0.N = pairProd (B := 2048) (m ((c : Thread nD τ).loc main_arg0)) :=
  ((dats m 0 c).arrAt_eq_of_cover 1 (pairProd (B := 2048) (xarr m c)) (fun t _ => flushed_eq m c t) cover).trans
    rfl

/-- The kernel's run, its result named: every weakly fair execution ends with the result at the pair product of the
    argument and the argument unchanged. -/
theorem run : θ_run (defs (F := Ideal)) (onTc (τ := τ) (main (F := Ideal))) ⟨m, fun _ => 0, ρ⟩ fun r => ∀ c : Dev nD,
      r.2.mem ((c : Thread nD τ).loc main_v0) = pairProd (B := 2048) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.HandValue

end
-- ==== Proof.RefStages.lean ====
/-
  The reference's value, stage by stage, as functions of the argument array (at the ideal instance).

  jnp.triu_indices(40, k=1) is traced, so the reference computes the two index tables at run time:
  ones → triu → "≠ 0" gives the mask of the upper positions; jnp.nonzero(size=780) turns the mask into flat positions
  by a running count, a histogram of the running counts (a scatter-add of ones), and a running sum of the histogram;
  the positions are split into row and column by floor-division and remainder by 40; numpy's negative-index wrap and
  two gathers over the array seen as [2048, 40, 40, 64] follow, and the product.
  Each definition below is one of these stages, spelled with the operations the printed program applies.
-/
import proofs.«177074_j69715909148812_1_alg».proof.ReferenceIdeal
import Idealize.ShloMosaic.PureOps.Ideal

noncomputable section

namespace Cert.ReferenceIdeal.Stages

open Cert.ReferenceIdeal Idealize.ShloMosaic
open Facts₀ Facts

variable [Facts]

/-- 1 where the row index is at least the column index: the part triu(·, k = 1) replaces by zero. -/
def lowerMask : IVec S40x40 1 :=
  cmpi .sge (addi (iotaInDim S40x40 32 0) (broadcastInDim S40x40 ![] bcast_S_S40x40 (constantI S_ 32 0#32)))
    (iotaInDim S40x40 32 1)

/-- triu(ones, k = 1): zero on and below the diagonal, one above. -/
def triuOnes : FVec Ideal S40x40 .f32 :=
  select lowerMask (broadcastInDim S40x40 ![] bcast_S_S40x40 (constant (F := Ideal) S_ .f32 0x00000000#32))
    (broadcastInDim S40x40 ![] bcast_S_S40x40 (constant (F := Ideal) S_ .f32 0x3F800000#32))

/-- The mask of the upper positions: where triu(ones) is not zero. -/
def upperMask : IVec S40x40 1 :=
  cmpf (F := Ideal) .une triuOnes (broadcastInDim S40x40 ![] bcast_S_S40x40 (constant (F := Ideal) S_ .f32 0x00000000#32))

/-- The mask, flat and widened to words. -/
def upperWords : IVec S1600 32 := extui 32 (shapeCast S1600 upperMask shapeCasts_S40x40_S1600) natLt_1_32

/-- The inclusive running count of upper positions. -/
def runCount : IVec S1600 32 :=
  Host.reduceWindow IntOp.addi ![1600] ![1] ![1599] ![0] upperWords
    (broadcastInDim S_ ![] bcast_S_S_ (constantI S_ 32 0#32)) reduceWindows_S1600_S1600_w1600s1p1599_0 h_S_

/-- The running count clipped below at zero. -/
def clipped : IVec S1600 32 := maxsi (broadcastInDim S1600 ![] bcast_S_S1600 (id (constantI S_ 32 0#32))) runCount

/-- The histogram bin of each position: its clipped running count, a negative one wrapped by 780. -/
def binOf : IVec S1600 32 :=
  select (cmpi .slt clipped (broadcastInDim S1600 ![] bcast_S_S1600 (constantI S_ 32 0#32)))
    (addi clipped (broadcastInDim S1600 ![] bcast_S_S1600 (constantI S_ 32 780#32))) clipped

/-- The histogram of the running counts over the bins 0 … 779 (a count of 780 falls outside and is dropped). -/
def hist : IVec S780 32 :=
  Host.scatter scatter_S780_S1600x1_S1600_n_0_0_1 IntOp.addi (broadcastInDim S780 ![] bcast_S_S780 (constantI S_ 32 0#32))
    (broadcastInDim S1600x1 ![0] bcast_S1600_S1600x1_0 binOf) (broadcastInDim S1600 ![] bcast_S_S1600 (constantI S_ 32 1#32))

/-- The flat position of each output row: the running sum of the histogram. -/
def flatPos : IVec S780 32 :=
  Host.reduceWindow IntOp.addi ![780] ![1] ![779] ![0] hist
    (broadcastInDim S_ ![] bcast_S_S_ (constantI S_ 32 0#32)) reduceWindows_S780_S780_w780s1p779_0 h_S_

/-- jnp.floor_divide on words: the truncating quotient, less one where the signs differ and the division is inexact. -/
def floorDiv (a : IVec S780 32) (d : IVec S_ 32) : IVec S780 32 :=
  select
    (andi (cmpi .ne (signi a) (broadcastInDim S780 ![] bcast_S_S780 (signi d)))
      (cmpi .ne (Host.remsi a (broadcastInDim S780 ![] bcast_S_S780 d)) (broadcastInDim S780 ![] bcast_S_S780 (constantI S_ 32 0#32))))
    (subi (Host.divsi a (broadcastInDim S780 ![] bcast_S_S780 d)) (broadcastInDim S780 ![] bcast_S_S780 (constantI S_ 32 1#32)))
    (Host.divsi a (broadcastInDim S780 ![] bcast_S_S780 d))

/-- The divisor jnp.remainder really uses: 1 in place of 0. -/
def safeDiv (d : IVec S_ 32) : IVec S_ 32 := select (cmpi .eq (id d) (constantI S_ 32 0#32)) (constantI S_ 32 1#32) (id d)

/-- jnp.remainder on words: the truncating remainder, plus the divisor where it is not zero and its sign differs from
    the divisor's. -/
def pyMod (a : IVec S780 32) (d : IVec S_ 32) : IVec S780 32 :=
  select
    (andi
      (cmpi .ne
        (cmpi .slt (Host.remsi a (broadcastInDim S780 ![] bcast_S_S780 (safeDiv d))) (broadcastInDim S780 ![] bcast_S_S780 (constantI S_ 32 0#32)))
        (broadcastInDim S780 ![] bcast_S_S780 (cmpi .slt (safeDiv d) (constantI S_ 32 0#32))))
      (cmpi .ne (Host.remsi a (broadcastInDim S780 ![] bcast_S_S780 (safeDiv d))) (broadcastInDim S780 ![] bcast_S_S780 (constantI S_ 32 0#32))))
    (addi (Host.remsi a (broadcastInDim S780 ![] bcast_S_S780 (safeDiv d))) (broadcastInDim S780 ![] bcast_S_S780 (safeDiv d)))
    (Host.remsi a (broadcastInDim S780 ![] bcast_S_S780 (safeDiv d)))

/-- The row (first field) of each output row's position: (position div 40) mod 40. -/
def rowOfPos : IVec S780 32 := pyMod (floorDiv flatPos (constantI S_ 32 40#32)) (constantI S_ 32 40#32)

/-- The column (second field): (position div 1) mod 40. -/
def colOfPos : IVec S780 32 := pyMod (floorDiv flatPos (constantI S_ 32 1#32)) (constantI S_ 32 40#32)

/-- numpy's wrap of a negative index along an axis of extent 40. -/
def wrap40 (v : IVec S780 32) : IVec S780 32 :=
  select (cmpi .slt v (broadcastInDim S780 ![] bcast_S_S780 (constantI S_ 32 0#32)))
    (addi v (broadcastInDim S780 ![] bcast_S_S780 (constantI S_ 32 40#32))) v

/-- Two index columns side by side: the start indices of a gather along axes 1 and 2. -/
def pairIdx (a b : IVec S780 32) : IVec S780x2 32 :=
  concatenate S780x2 1 [⟨S780x1, broadcastInDim S780x1 ![0] bcast_S780_S780x1_0 a⟩,
    ⟨S780x1, broadcastInDim S780x1 ![0] bcast_S780_S780x1_0 b⟩] concatenates_S780x1_S780x1_S780x2_d1

/-- The array seen as [2048, 40, 40, 64]. -/
def grid4 (x : FVec Ideal S2048x1600x64 .f32) : FVec Ideal S2048x40x40x64 .f32 :=
  shapeCast S2048x40x40x64 x shapeCasts_S2048x1600x64_S2048x40x40x64

/-- x[:, iu, ju, :]. -/
def upperPick (x : FVec Ideal S2048x1600x64 .f32) : FVec Ideal S2048x780x64 .f32 :=
  Host.gather gather_S2048x40x40x64_S780x2_S2048x780x64_02_12_n_n_12_1_20481164 (grid4 x)
    (pairIdx (wrap40 rowOfPos) (wrap40 colOfPos))

/-- x[:, ju, iu, :]. -/
def lowerPick (x : FVec Ideal S2048x1600x64 .f32) : FVec Ideal S2048x780x64 .f32 :=
  Host.gather gather_S2048x40x40x64_S780x2_S2048x780x64_02_12_n_n_12_1_20481164 (grid4 x)
    (pairIdx (wrap40 colOfPos) (wrap40 rowOfPos))

/-- The reference's result as a function of its argument. -/
def refTerm (x : FVec Ideal S2048x1600x64 .f32) : FVec Ideal S2048x780x64 .f32 :=
  mulf (upperPick x) (lowerPick x)

end Cert.ReferenceIdeal.Stages

end
-- ==== Proof.LibCumsum.lean ====
/-
  A general fact about the host's running sum: jnp.cumsum of a word vector of length n prints as a reduce_window with
  window n, stride 1 and n − 1 cells of padding below; read at position j it is the sum of the entries 0 … j, and when
  the whole vector's entries (read as naturals) sum to less than 2³² no word addition wraps.
-/
import Idealize.ShloMosaic.PureOps.Contract
import Idealize.ShloMosaic.Lib.ValueIdx
import Idealize.ShloMosaic.Lib.StableHlo.Predicate
import Mathlib.Algebra.BigOperators.Fin
import Mathlib.Algebra.BigOperators.Intervals

noncomputable section

namespace Cert.HostRead

open Idealize.ShloMosaic Idealize.ShloMosaic.ValueIdx

/-- Adding the words g m, m running through a list, to a word a gives a plus the word of the natural sum of their
    values: word addition is addition of naturals modulo 2³². -/
private theorem foldl_addi_eq {ι : Type} (l : List ι) (g : ι → BitVec 32) (a : BitVec 32) :
    l.foldl (fun r m => IntOp.addi r (g m)) a = a + BitVec.ofNat 32 ((l.map fun m => (g m).toNat).sum) := by
  induction l generalizing a with
  | nil => simp
  | cons m l ih =>
    rw [List.foldl_cons, ih, List.map_cons, List.sum_cons]
    show a + g m + _ = _
    rw [BitVec.ofNat_add, BitVec.ofNat_toNat, BitVec.setWidth_eq, BitVec.add_assoc]

/-- The window at output j, re-indexed: with lo = n − 1 cells of padding below, window position k reads entry j + k − lo
    when lo ≤ j + k and padding otherwise, and k ↦ j + k − lo maps the positions that read an entry one-to-one onto the
    entries 0 … j (the inverse is g ↦ g + lo − j). -/
private theorem sum_window {n lo : ℕ} (hlo : lo + 1 = n) (X : ℕ → ℕ) (j : ℕ) (hj : j < n) :
    ∑ k ∈ Finset.range n, (if lo ≤ j + k then X (j + k - lo) else 0)
      = ∑ g ∈ Finset.range n, if g ≤ j then X g else 0 := by
  rw [← Finset.sum_filter, ← Finset.sum_filter]
  refine Finset.sum_nbij' (fun k => j + k - lo) (fun g => g + lo - j) ?_ ?_ ?_ ?_ ?_
  all_goals (intro a ha; simp only [Finset.mem_filter, Finset.mem_range] at ha ⊢; try omega)

/-- The running sum at position j, as a natural number: the entries up to j added up. -/
theorem cumsum_toNat {n lo : ℕ} (hlo : lo + 1 = n) (x : IVec ⟨1, ![n]⟩ 32) (z : IVec ⟨0, ![]⟩ 32) (hz : z ix0 = 0#32)
    (h : (⟨1, ![n]⟩ : Shape).ReduceWindows (![n] : Fin 1 → ℕ) ![1] ![lo] ![0] ⟨1, ![n]⟩)
    (hu : 0 < (⟨0, ![]⟩ : Shape).numel)
    (hsmall : (∑ g : Fin n, (x (ix1 g)).toNat) < 2 ^ 32) (j : Fin n) :
    (Host.reduceWindow (s := ⟨1, ![n]⟩) (t := ⟨1, ![n]⟩) (u := ⟨0, ![]⟩) IntOp.addi ![n] ![1] ![lo] ![0] x z h hu (ix1 j)).toNat
      = ∑ g : Fin n, if g.val ≤ j.val then (x (ix1 g)).toNat else 0 := by
  have hz' : z (Shape.Idx.first hu) = 0#32 := by rw [eq_ix0 (Shape.Idx.first hu)]; exact hz
  -- the entries, read as naturals, extended by zero past the end
  let X : ℕ → ℕ := fun g => if hg : g < n then (x (ix1 ⟨g, hg⟩)).toNat else 0
  -- the word the fold adds at window position i
  let G : (⟨1, ![n]⟩ : Shape).Idx → BitVec 32 := fun i =>
    if hin : ∀ a : Fin 1, ![lo] a ≤ (ix1 j (Fin.cast h.1.symm a)).val * ![1] a + (i a).val ∧
        (ix1 j (Fin.cast h.1.symm a)).val * ![1] a + (i a).val - ![lo] a < ![n] a then
      x fun a => ⟨(ix1 j (Fin.cast h.1.symm a)).val * ![1] a + (i a).val - ![lo] a, (hin a).2⟩
    else z (Shape.Idx.first hu)
  have hG : ∀ k : Fin n, (G (ix1 k)).toNat = if lo ≤ j.val + k.val then X (j.val + k.val - lo) else 0 := by
    intro k
    by_cases hk : lo ≤ j.val + k.val
    · have hlt : j.val + k.val - lo < n := by omega
      have hin : ∀ a : Fin 1, ![lo] a ≤ (ix1 j (Fin.cast h.1.symm a)).val * ![1] a + (ix1 k a).val ∧
          (ix1 j (Fin.cast h.1.symm a)).val * ![1] a + (ix1 k a).val - ![lo] a < ![n] a := by
        intro a
        obtain rfl : a = 0 := Subsingleton.elim _ _
        show lo ≤ j.val * 1 + k.val ∧ j.val * 1 + k.val - lo < n
        omega
      rw [if_pos hk]
      show BitVec.toNat (dite _ _ _) = _
      rw [dif_pos hin]
      show _ = dite _ _ _
      rw [dif_pos hlt]
      congr 2
      funext a
      obtain rfl : a = 0 := Subsingleton.elim _ _
      apply Fin.ext
      show j.val * 1 + k.val - lo = j.val + k.val - lo
      omega
    · have hin : ¬ ∀ a : Fin 1, ![lo] a ≤ (ix1 j (Fin.cast h.1.symm a)).val * ![1] a + (ix1 k a).val ∧
          (ix1 j (Fin.cast h.1.symm a)).val * ![1] a + (ix1 k a).val - ![lo] a < ![n] a := by
        intro hh
        have := (hh 0).1
        change lo ≤ j.val * 1 + k.val at this
        omega
      rw [if_neg hk]
      show BitVec.toNat (dite _ _ _) = _
      rw [dif_neg hin, hz']
      rfl
  -- the running sum is the fold of word addition over the n window positions, from the initial word 0
  show (List.foldl (fun r m => IntOp.addi r (G ((⟨1, ![n]⟩ : Shape).rowMajor.symm m))) (z (Shape.Idx.first hu))
    (List.finRange (⟨1, ![n]⟩ : Shape).numel)).toNat = _
  rw [foldl_addi_eq, hz', BitVec.zero_add, BitVec.toNat_ofNat, ← Fin.sum_univ_def]
  -- the natural sum over the window positions is the sum of the entries 0 … j
  have key : ∑ i, (G ((⟨1, ![n]⟩ : Shape).rowMajor.symm i)).toNat
      = ∑ g : Fin n, if g.val ≤ j.val then (x (ix1 g)).toNat else 0 := by
    rw [Equiv.sum_comp (⟨1, ![n]⟩ : Shape).rowMajor.symm (fun i => (G i).toNat)]
    let e : Fin n ≃ (⟨1, ![n]⟩ : Shape).Idx := ⟨ix1, fun i => i 0, fun k => rfl, fun i => (eq_ix1 i).symm⟩
    rw [← Equiv.sum_comp e (fun i => (G i).toNat)]
    show ∑ k : Fin n, (G (ix1 k)).toNat = _
    rw [Finset.sum_congr rfl (fun k _ => hG k)]
    rw [Fin.sum_univ_eq_sum_range (fun k => if lo ≤ j.val + k then X (j.val + k - lo) else 0) n,
      sum_window hlo X j.val j.isLt, ← Fin.sum_univ_eq_sum_range (fun g => if g ≤ j.val then X g else 0) n]
    refine Finset.sum_congr rfl fun g _ => ?_
    show (if g.val ≤ j.val then dite _ _ _ else 0) = _
    rw [dif_pos g.isLt]
  -- and that sum is at most the sum of all the entries, so it is below 2³²: no wrap
  rw [key]
  refine Nat.mod_eq_of_lt (lt_of_le_of_lt (Finset.sum_le_sum fun g _ => ?_) hsmall)
  split_ifs
  · exact le_rfl
  · exact Nat.zero_le _

end Cert.HostRead

end
-- ==== Proof.RefCount.lean ====
/-
  The first half of the counting: the mask of upper positions, and its inclusive running count.
-/
import proofs.«177074_j69715909148812_1_alg».proof.Proof.RefStages
import proofs.«177074_j69715909148812_1_alg».proof.Proof.PairOrder
import proofs.«177074_j69715909148812_1_alg».proof.Proof.LibCumsum
import Idealize.ShloMosaic.PureOps.IdealRules
import Idealize.ShloMosaic.PureOps.Ideal.Laws
import Idealize.ShloMosaic.Lib.Pipeline.Value
import Idealize.ShloMosaic.Lib.ValueIdx
import Idealize.ShloMosaic.Lib.StableHlo.Predicate

noncomputable section

namespace Cert.ReferenceIdeal.Stages

open Cert.ReferenceIdeal Idealize.ShloMosaic Idealize.ShloMosaic.ValueIdx Cert.FieldPairs
open Facts₀ Facts

variable [Facts]

/-! ### The mask at a grid position -/

/-- The comparison word of the lower mask at (i, j): the row index (plus the offset 0) against the column index. -/
private theorem lowerMask_apply (i j : Fin 40) :
    lowerMask (ix2 i j) = IntOp.cmpi .sge (IntOp.addi (BitVec.ofNat 32 i.val) 0#32) (BitVec.ofNat 32 j.val) := rfl

/-- The lower mask is set exactly on and below the diagonal: both indices are below 40, so the signed comparison of
    the words is the comparison of the numbers. -/
private theorem lowerMask_iff (i j : Fin 40) : lowerMask (ix2 i j) = 1#1 ↔ j.val ≤ i.val := by
  rw [lowerMask_apply]
  have hi : (BitVec.ofNat 32 i.val).toNat = i.val := by
    rw [BitVec.toNat_ofNat]; exact Nat.mod_eq_of_lt (by have := i.isLt; omega)
  have hj : (BitVec.ofNat 32 j.val).toNat = j.val := by
    rw [BitVec.toNat_ofNat]; exact Nat.mod_eq_of_lt (by have := j.isLt; omega)
  have h0 : IntOp.addi (BitVec.ofNat 32 i.val) 0#32 = BitVec.ofNat 32 i.val := BitVec.add_zero _
  rw [h0, StableHlo.Predicate.sge_iff_toNat (by rw [hi]; have := i.isLt; omega) (by rw [hj]; have := j.isLt; omega), hi, hj]

/-- triu(ones, k = 1) at (i, j): the real 0 on and below the diagonal, the real 1 above. -/
private theorem triuOnes_apply (i j : Fin 40) :
    triuOnes (ix2 i j) = if j.val ≤ i.val then (0 : Ideal .f32) else 1 := by
  have h : triuOnes (ix2 i j)
      = Scalar.select (lowerMask (ix2 i j)) (Ideal.ofBits .f32 0x00000000#32) (Ideal.ofBits .f32 0x3F800000#32) := rfl
  have h1 : Ideal.ofBits .f32 0x3F800000#32 = 1 := IdealRules.sign_bit.ideal_onePat .f32
  rw [h, Ideal.ofBits_zero_f32, h1]
  by_cases hc : j.val ≤ i.val
  · rw [if_pos hc, (lowerMask_iff i j).2 hc, select_one]
  · rw [if_neg hc, eq_zero_of_ne_one (fun e => hc ((lowerMask_iff i j).1 e)), select_zero]

/-- The mask of upper positions at (i, j): set exactly above the diagonal. -/
private theorem upperMask_apply (i j : Fin 40) : upperMask (ix2 i j) = if i.val < j.val then 1#1 else 0#1 := by
  have h : upperMask (ix2 i j)
      = Ideal.cmp .une (triuOnes (ix2 i j)) (Ideal.ofBits .f32 0x00000000#32) := rfl
  rw [h, Ideal.ofBits_zero_f32, triuOnes_apply]
  by_cases hc : j.val ≤ i.val
  · rw [if_pos hc, if_neg (by omega)]
    simp [Ideal.cmp]
  · rw [if_neg hc, if_pos (by omega)]
    simp [Ideal.cmp]

/-! ### The flat, widened mask -/

/-- The widened flat mask is 1 exactly at the upper positions. -/
theorem upperWords_eq (f : Fin 1600) : upperWords (ix1 f) = if Upper f.val then 1#32 else 0#32 := by
  have hlt : f.val / 40 < 40 := by have := f.isLt; omega
  -- position f of the flat mask is position (f / 40, f % 40) of the grid
  have hc : shapeCast S1600 upperMask shapeCasts_S40x40_S1600 (ix1 f)
      = upperMask (ix2 (⟨f.val / 40, hlt⟩ : Fin 40) (⟨f.val % 40, Nat.mod_lt _ (by norm_num)⟩ : Fin 40)) := by
    refine shapeCast_apply upperMask shapeCasts_S40x40_S1600 (ix1 f) _ ?_
    rw [Shape.rowMajor_val_two, Shape.rowMajor_val_one]
    show f.val / 40 * 40 + f.val % 40 = f.val
    omega
  have hw : upperWords (ix1 f) = (shapeCast S1600 upperMask shapeCasts_S40x40_S1600 (ix1 f)).setWidth 32 := rfl
  rw [hw, hc, upperMask_apply]
  show (if f.val / 40 < f.val % 40 then 1#1 else 0#1).setWidth 32 = _
  by_cases hu : Upper f.val
  · rw [if_pos hu, if_pos (show f.val / 40 < f.val % 40 from hu)]; rfl
  · rw [if_neg hu, if_neg (show ¬ f.val / 40 < f.val % 40 from hu)]; rfl

/-- As a number, the widened mask is the indicator of the upper positions. -/
private theorem upperWords_toNat (g : Fin 1600) : (upperWords (ix1 g)).toNat = if Upper g.val then 1 else 0 := by
  rw [upperWords_eq]
  by_cases hu : Upper g.val
  · rw [if_pos hu, if_pos hu]; rfl
  · rw [if_neg hu, if_neg hu]; rfl

/-! ### The running count -/

/-- Adding the indicator of a predicate over the positions up to and including f counts the positions below f + 1
    that satisfy it. -/
private theorem sum_indicator_le (p : ℕ → Prop) [DecidablePred p] (n f : ℕ) (hf : f < n) :
    (∑ g : Fin n, if g.val ≤ f then (if p g.val then 1 else 0) else 0) = Nat.count p (f + 1) := by
  rw [Fin.sum_univ_eq_sum_range (fun g => if g ≤ f then (if p g then 1 else 0) else 0) n,
    Nat.count_eq_card_filter_range, Finset.card_filter, ← Finset.sum_filter]
  refine Finset.sum_congr ?_ fun _ _ => rfl
  ext g
  simp only [Finset.mem_filter, Finset.mem_range]
  omega

/-- The running count, as a number. -/
private theorem runCount_toNat (f : Fin 1600) : (runCount (ix1 f)).toNat = Nat.count Upper (f.val + 1) := by
  have hsmall : (∑ g : Fin 1600, (upperWords (ix1 g)).toNat) < 2 ^ 32 := by
    have hle : (∑ g : Fin 1600, (upperWords (ix1 g)).toNat) ≤ ∑ g : Fin 1600, 1 :=
      Finset.sum_le_sum fun g _ => by rw [upperWords_toNat]; split <;> omega
    have hc : (∑ g : Fin 1600, 1) = 1600 := by simp
    omega
  have h := Cert.HostRead.cumsum_toNat (n := 1600) (lo := 1599) rfl upperWords
    (broadcastInDim S_ ![] bcast_S_S_ (constantI S_ 32 0#32)) rfl
    reduceWindows_S1600_S1600_w1600s1p1599_0 h_S_ hsmall f
  have hr : (runCount (ix1 f)).toNat
      = ∑ g : Fin 1600, if g.val ≤ f.val then (upperWords (ix1 g)).toNat else 0 := h
  rw [hr]
  simp only [upperWords_toNat]
  exact sum_indicator_le Upper 1600 f.val f.isLt

/-- The running count at position f is the number of upper positions up to and including f. -/
theorem runCount_eq (f : Fin 1600) : runCount (ix1 f) = BitVec.ofNat 32 (Nat.count Upper (f.val + 1)) := by
  apply BitVec.eq_of_toNat_eq
  rw [runCount_toNat, BitVec.toNat_ofNat]
  have h1 : Nat.count Upper (f.val + 1) ≤ f.val + 1 := Nat.count_le Upper
  have h2 := f.isLt
  exact (Nat.mod_eq_of_lt (by omega)).symm

/-! ### Clipping and the negative wrap -/

/-- A small count is not negative as a signed word. -/
private theorem not_slt_zero (c : ℕ) (hc : c < 2 ^ 31) : (BitVec.ofNat 32 c).slt 0#32 = false := by
  have h := StableHlo.Predicate.slt_ofNat_iff c 0 hc (by norm_num)
  cases hb : (BitVec.ofNat 32 c).slt (BitVec.ofNat 32 0)
  · rfl
  · rw [hb] at h
    exact absurd (h.1 rfl) (Nat.not_lt_zero c)

/-- Clipping a count below at zero leaves it as it is. -/
private theorem clipped_eq (f : Fin 1600) : clipped (ix1 f) = BitVec.ofNat 32 (Nat.count Upper (f.val + 1)) := by
  have h : clipped (ix1 f) = IntOp.maxsi 0#32 (runCount (ix1 f)) := rfl
  have h1 : Nat.count Upper (f.val + 1) ≤ f.val + 1 := Nat.count_le Upper
  have h2 := f.isLt
  rw [h, runCount_eq]
  unfold IntOp.maxsi
  rw [not_slt_zero _ (by omega)]
  rfl

/-- Clipping at zero and the negative wrap leave a count as it is: the histogram bin of position f is its running count. -/
theorem binOf_eq (f : Fin 1600) : binOf (ix1 f) = BitVec.ofNat 32 (Nat.count Upper (f.val + 1)) := by
  have h : binOf (ix1 f)
      = Scalar.select (IntOp.cmpi .slt (clipped (ix1 f)) 0#32) (IntOp.addi (clipped (ix1 f)) 780#32) (clipped (ix1 f)) := rfl
  have h1 : Nat.count Upper (f.val + 1) ≤ f.val + 1 := Nat.count_le Upper
  have h2 := f.isLt
  have hz : IntOp.cmpi .slt (BitVec.ofNat 32 (Nat.count Upper (f.val + 1))) 0#32 = 0#1 := by
    unfold IntOp.cmpi
    show BitVec.ofBool ((BitVec.ofNat 32 (Nat.count Upper (f.val + 1))).slt 0#32) = 0#1
    rw [not_slt_zero _ (by omega)]
    rfl
  rw [h, clipped_eq, hz, select_zero]

end Cert.ReferenceIdeal.Stages

end
-- ==== Proof.RefHist.lean ====
/-
  The histogram: the scatter-add of ones, one per position, into the bin its running count names.

  The scatter is a left fold over the 1600 positions in increasing order. Position n carries the update 1 and the
  scatter index binOf n, read as a signed word; the update lands in bin binOf n when 0 ≤ binOf n < 780 and is dropped
  otherwise. Since binOf n is the running count c(n) ≤ 1600 < 2³¹, the signed reading is c(n) itself, so after the fold
  bin k holds (as a word) the number of positions n with c(n) = k.
-/
import proofs.«177074_j69715909148812_1_alg».proof.Proof.RefCount

noncomputable section

namespace Cert.ReferenceIdeal.Stages

open Cert.ReferenceIdeal Idealize.ShloMosaic Idealize.ShloMosaic.ValueIdx Cert.FieldPairs
open Facts₀ Facts

variable [Facts]

/-- A scatter-add of ones, as a fold over any list of update numbers started from any operand x: the element at k ends
    at x k plus the number of updates in the list that land at k. By induction on the list: the first update either
    lands at k (one more on both sides), lands elsewhere, or is dropped (both sides unchanged). -/
private theorem scatter_count {s si u : Shape} {w : ℕ} (d : ScatterDims s si u) (idx : IVec si w)
    (upd : u.Idx → BitVec 32) (hupd : ∀ j, upd j = 1#32) (k : s.Idx) (L : List (Fin u.numel)) :
    ∀ x : s.Idx → BitVec 32,
    (L.foldl (fun r n =>
      match d.resultIdx? (u.rowMajor.symm n) idx with
      | some i => fun i' => if i' = i then IntOp.addi (r i) (upd (u.rowMajor.symm n)) else r i'
      | none => r) x) k
      = x k + BitVec.ofNat 32 (L.countP fun n => decide (d.resultIdx? (u.rowMajor.symm n) idx = some k)) := by
  induction L with
  | nil => intro x; simp
  | cons n L ih =>
    intro x
    rw [List.foldl_cons, ih, List.countP_cons]
    cases h : d.resultIdx? (u.rowMajor.symm n) idx with
    | none => simp
    | some i =>
      simp only [hupd, IntOp.addi]
      by_cases hk : k = i
      · subst hk
        simp only [if_true, decide_true, Nat.add_comm _ 1, BitVec.ofNat_add]
        exact BitVec.add_assoc _ _ _
      · have hk' : ¬ (i = k) := fun e => hk e.symm
        simp [hk, hk']

/-- The same for the scatter itself, whose list is all the update numbers in row-major order. -/
private theorem scatter_count' {s si u : Shape} {w : ℕ} (d : ScatterDims s si u) (idx : IVec si w)
    (upd : u.Idx → BitVec 32) (hupd : ∀ j, upd j = 1#32) (x : s.Idx → BitVec 32) (k : s.Idx) :
    Host.scatter d IntOp.addi x idx upd k
      = x k + BitVec.ofNat 32 ((List.finRange u.numel).countP fun n => decide (d.resultIdx? (u.rowMajor.symm n) idx = some k)) := by
  unfold Host.scatter
  exact scatter_count d idx upd hupd k _ x

/-- Counting along the list 0, 1, …, N − 1 is the cardinality of the filtered set of all numbers below N. -/
private theorem count_finRange (N : ℕ) (P : ℕ → Prop) [DecidablePred P] :
    (List.finRange N).countP (fun n => decide (P n.val)) = (Finset.univ.filter fun f : Fin N => P f.val).card := by
  rw [Fin.univ_def, Finset.card, Finset.filter_val]
  simp [List.countP_eq_length_filter]

/-- That cardinality depends on the bound N only through its value. -/
private theorem card_cast (P : ℕ → Prop) [DecidablePred P] {N M : ℕ} (h : N = M) :
    (Finset.univ.filter fun f : Fin N => P f.val).card = (Finset.univ.filter fun f : Fin M => P f.val).card := by
  subst h; rfl

/-- A vector of 1600 entries has 1600 elements. -/
private theorem numel_S1600 : S1600.numel = 1600 := by simp [Shape.numel]

/-- In a vector, the element with row-major number n is the one at coordinate n. -/
private theorem rowMajor_symm_S1600 (n : Fin S1600.numel) :
    S1600.rowMajor.symm n = ix1 (⟨n.val, numel_S1600 ▸ n.isLt⟩ : Fin 1600) := by
  rw [Equiv.symm_apply_eq]
  apply Fin.ext
  rw [Shape.rowMajor_val_one]

/-- Where update n aims on the operand's one axis: the axis is a scattered one with no window on it, so the target is
    the scatter index of row n alone, which is the column's entry v n read as a signed word — the natural c when
    v n is the word of c < 2³¹. -/
private theorem start_window (v : IVec S1600 32) (n : Fin 1600) (c : ℕ) (hc : c < 2 ^ 31)
    (hv : v (ix1 n) = BitVec.ofNat 32 c) (a : Fin S780.rank) :
    scatter_S780_S1600x1_S1600_n_0_0_1.start (ix1 n) (broadcastInDim S1600x1 ![0] bcast_S1600_S1600x1_0 v) a
      + (scatter_S780_S1600x1_S1600_n_0_0_1.window (ix1 n) a : Int) = (c : Int) := by
  have ha : a = 0 := Subsingleton.elim _ _
  have hw : scatter_S780_S1600x1_S1600_n_0_0_1.window (ix1 n) a = 0 := by
    unfold ScatterDims.window
    rw [dif_neg]
    simp [ScatterDims.sKept, Shape.kept, scatter_S780_S1600x1_S1600_n_0_0_1, ha]
  have hs : scatter_S780_S1600x1_S1600_n_0_0_1.start (ix1 n) (broadcastInDim S1600x1 ![0] bcast_S1600_S1600x1_0 v) a
      = (v (ix1 n)).toInt := by
    unfold ScatterDims.start
    rw [dif_pos (by simp [scatter_S780_S1600x1_S1600_n_0_0_1, ha])]
    refine congrArg BitVec.toInt ?_
    unfold broadcastInDim
    refine congrArg v (funext fun b => Fin.ext ?_)
    have hb : b = 0 := Subsingleton.elim _ _
    subst hb
    rw [dif_neg (by decide)]
    rfl
  rw [hs, hw, hv, StableHlo.Predicate.toInt_ofNat_small _ hc]
  simp

/-- Update n lands at bin k exactly when its count c equals k: the target coordinate is c, inside the operand when
    c < 780 (then the landing index has coordinate c) and outside it, so dropped, when c ≥ 780 > k. -/
private theorem target_iff (v : IVec S1600 32) (n : Fin 1600) (c : ℕ) (hc : c < 2 ^ 31)
    (hv : v (ix1 n) = BitVec.ofNat 32 c) (k : Fin 780) :
    scatter_S780_S1600x1_S1600_n_0_0_1.resultIdx? (ix1 n) (broadcastInDim S1600x1 ![0] bcast_S1600_S1600x1_0 v) = some (ix1 k)
      ↔ c = k.val := by
  have hsw := start_window v n c hc hv
  unfold ScatterDims.resultIdx?
  constructor
  · intro h
    split at h
    · have h2 := congrArg (fun j : S780.Idx => (j 0).val) (Option.some.inj h)
      simp only [hsw] at h2
      simpa using h2
    · exact absurd h (by simp)
  · intro h
    have hk := k.isLt
    have hh : ∀ a, 0 ≤ scatter_S780_S1600x1_S1600_n_0_0_1.start (ix1 n) (broadcastInDim S1600x1 ![0] bcast_S1600_S1600x1_0 v) a
          + (scatter_S780_S1600x1_S1600_n_0_0_1.window (ix1 n) a : Int)
        ∧ scatter_S780_S1600x1_S1600_n_0_0_1.start (ix1 n) (broadcastInDim S1600x1 ![0] bcast_S1600_S1600x1_0 v) a
          + (scatter_S780_S1600x1_S1600_n_0_0_1.window (ix1 n) a : Int) < (S780.size a : Int) := by
      intro a
      rw [hsw a]
      have ha : a = 0 := Subsingleton.elim _ _
      subst ha
      refine ⟨by omega, ?_⟩
      show (c : Int) < (780 : ℕ)
      omega
    rw [dif_pos hh]
    refine congrArg some (funext fun a => Fin.ext ?_)
    have ha : a = 0 := Subsingleton.elim _ _
    subst ha
    show (scatter_S780_S1600x1_S1600_n_0_0_1.start (ix1 n) (broadcastInDim S1600x1 ![0] bcast_S1600_S1600x1_0 v) 0
          + (scatter_S780_S1600x1_S1600_n_0_0_1.window (ix1 n) 0 : Int)).toNat = k.val
    rw [hsw 0]
    simp [h]

/-- Bin k of the histogram counts the positions whose running count is k (a count of 780 names no bin and is dropped). -/
theorem hist_eq (k : Fin 780) :
    hist (ix1 k) = BitVec.ofNat 32 ((Finset.univ.filter fun f : Fin 1600 => Nat.count Upper (f.val + 1) = k.val).card) := by
  have h1 : ∀ j, broadcastInDim S1600 ![] bcast_S_S1600 (constantI S_ 32 1#32) j = 1#32 := fun j => rfl
  have h2 := scatter_count' scatter_S780_S1600x1_S1600_n_0_0_1 (broadcastInDim S1600x1 ![0] bcast_S1600_S1600x1_0 binOf)
    (broadcastInDim S1600 ![] bcast_S_S1600 (constantI S_ 32 1#32)) h1
    (broadcastInDim S780 ![] bcast_S_S780 (constantI S_ 32 0#32)) (ix1 k)
  have h0 : broadcastInDim S780 ![] bcast_S_S780 (constantI S_ 32 0#32) (ix1 k) = 0#32 := rfl
  have hp : ∀ n : Fin S1600.numel,
      decide (scatter_S780_S1600x1_S1600_n_0_0_1.resultIdx? (S1600.rowMajor.symm n)
        (broadcastInDim S1600x1 ![0] bcast_S1600_S1600x1_0 binOf) = some (ix1 k))
      = decide (Nat.count Upper (n.val + 1) = k.val) := by
    intro n
    rw [rowMajor_symm_S1600]
    refine decide_eq_decide.2 (target_iff binOf _ _ ?_ (binOf_eq _) k)
    have := Nat.count_le (p := Upper) (n := n.val + 1)
    have := n.isLt
    have := numel_S1600
    show Nat.count Upper (n.val + 1) < 2 ^ 31
    omega
  unfold hist
  rw [h2, h0, BitVec.zero_add, funext hp, count_finRange S1600.numel (fun m => Nat.count Upper (m + 1) = k.val)]
  exact congrArg (BitVec.ofNat 32) (card_cast (fun m => Nat.count Upper (m + 1) = k.val) numel_S1600)

end Cert.ReferenceIdeal.Stages

end
-- ==== Proof.RefFlat.lean ====
/-
  The flat positions: the running sum of the histogram.
-/
import proofs.«177074_j69715909148812_1_alg».proof.Proof.RefHist
import Mathlib.Algebra.BigOperators.Fin
import Mathlib.Algebra.Order.BigOperators.Group.Finset
import Mathlib.Data.Fintype.BigOperators

noncomputable section

namespace Cert.ReferenceIdeal.Stages

open Cert.ReferenceIdeal Idealize.ShloMosaic Idealize.ShloMosaic.ValueIdx Cert.FieldPairs
open Facts₀ Facts

variable [Facts]

/-- Counting the indices below n that satisfy a property of their value is the same over Fin n and over range n. -/
private theorem card_fin_filter (n : ℕ) (p : ℕ → Prop) [DecidablePred p] :
    (Finset.univ.filter fun f : Fin n => p f.val).card = ((Finset.range n).filter p).card := by
  refine Finset.card_bij (fun f _ => f.val) ?_ ?_ ?_
  · intro a ha
    simp only [Finset.mem_filter, Finset.mem_univ, true_and, Finset.mem_range] at ha ⊢
    exact ⟨a.isLt, ha⟩
  · intro a _ b _ h
    exact Fin.ext h
  · intro b hb
    simp only [Finset.mem_filter, Finset.mem_range] at hb
    refine ⟨⟨b, hb.1⟩, ?_, rfl⟩
    simp only [Finset.mem_filter, Finset.mem_univ, true_and]
    exact hb.2

/-- A histogram bin holds at most 1600 positions. -/
private theorem fibre_le (k : ℕ) :
    (Finset.univ.filter fun f : Fin 1600 => Nat.count Upper (f.val + 1) = k).card ≤ 1600 := by
  have h := Finset.card_filter_le (Finset.univ : Finset (Fin 1600)) (fun f => Nat.count Upper (f.val + 1) = k)
  rw [Finset.card_univ, Fintype.card_fin] at h
  exact h

/-- Bin k of the histogram, read as a natural number: the word does not wrap. -/
private theorem hist_toNat (k : Fin 780) :
    (hist (ix1 k)).toNat = (Finset.univ.filter fun f : Fin 1600 => Nat.count Upper (f.val + 1) = k.val).card := by
  rw [hist_eq, BitVec.toNat_ofNat]
  apply Nat.mod_eq_of_lt
  have := fibre_le k.val
  omega

/-- The fibres of a function over the values 0 … q together hold exactly the points whose value is at most q
    (the fibres are disjoint). -/
private theorem sum_fibres_gen (n m : ℕ) (c : ℕ → ℕ) (q : ℕ) (hq : q < n) :
    (∑ g : Fin n, if g.val ≤ q then (Finset.univ.filter fun f : Fin m => c f.val = g.val).card else 0)
      = (Finset.univ.filter fun f : Fin m => c f.val ≤ q).card := by
  have h1 := Fin.sum_univ_eq_sum_range (fun k : ℕ => if k ≤ q then
        (Finset.univ.filter fun f : Fin m => c f.val = k).card else 0) n
  refine h1.trans ?_
  rw [← Finset.sum_filter]
  have hset : (Finset.range n).filter (fun k => k ≤ q) = Finset.range (q + 1) := by
    ext k
    simp only [Finset.mem_filter, Finset.mem_range]
    omega
  rw [hset]
  have h2 := Finset.card_eq_sum_card_fiberwise
    (f := fun f : Fin m => c f.val)
    (s := Finset.univ.filter fun f : Fin m => c f.val ≤ q)
    (t := Finset.range (q + 1))
    (by
      intro x hx
      have hx' : c x.val ≤ q := by simpa using hx
      simp only [Finset.coe_range, Set.mem_Iio]
      omega)
  rw [h2]
  refine Finset.sum_congr rfl ?_
  intro k hk
  simp only [Finset.mem_range] at hk
  congr 1
  ext f
  simp only [Finset.mem_filter, Finset.mem_univ, true_and]
  constructor
  · intro h
    exact ⟨by omega, h⟩
  · intro h
    exact h.2

/-- The bins 0 … q together hold exactly the positions whose running count is at most q. -/
private theorem sum_fibres (q : Fin 780) :
    (∑ g : Fin 780, if g.val ≤ q.val then
        (Finset.univ.filter fun f : Fin 1600 => Nat.count Upper (f.val + 1) = g.val).card else 0)
      = (Finset.univ.filter fun f : Fin 1600 => Nat.count Upper (f.val + 1) ≤ q.val).card :=
  sum_fibres_gen 780 1600 (fun f => Nat.count Upper (f + 1)) q.val q.isLt

/-- Output row q's flat position is the number of positions whose running count is at most q. -/
theorem flatPos_eq (q : Fin 780) : flatPos (ix1 q) = BitVec.ofNat 32 (sel q.val) := by
  -- the whole histogram sums to far less than 2³², so the running sum never wraps
  have hsmall : (∑ g : Fin 780, (hist (ix1 g)).toNat) < 2 ^ 32 := by
    have hle : (∑ g : Fin 780, (hist (ix1 g)).toNat) ≤ (Finset.univ : Finset (Fin 780)).card • 1600 := by
      refine Finset.sum_le_card_nsmul _ _ _ ?_
      intro g _
      rw [hist_toNat]
      exact fibre_le g.val
    rw [Finset.card_univ, Fintype.card_fin] at hle
    simp only [smul_eq_mul] at hle
    omega
  have key := Cert.HostRead.cumsum_toNat (n := 780) (lo := 779) rfl hist
    (broadcastInDim S_ ![] bcast_S_S_ (constantI S_ 32 0#32)) rfl
    reduceWindows_S780_S780_w780s1p779_0 h_S_ hsmall q
  have hsel : sel q.val < 2 ^ 32 := by
    have := sel_lt q.val q.isLt
    omega
  apply BitVec.eq_of_toNat_eq
  rw [BitVec.toNat_ofNat, Nat.mod_eq_of_lt hsel]
  refine (show (flatPos (ix1 q)).toNat = _ from key).trans ?_
  simp only [hist_toNat]
  rw [sum_fibres q]
  exact card_fin_filter 1600 (fun f => Nat.count Upper (f + 1) ≤ q.val)

end Cert.ReferenceIdeal.Stages

end
-- ==== Proof.RefRowCol.lean ====
/-
  Row and column of a flat position, as jax computes them on words: floor-division and remainder by 40, then numpy's
  wrap of a negative index. On the small non-negative positions met here they are the natural quotient and remainder.
-/
import proofs.«177074_j69715909148812_1_alg».proof.Proof.RefFlat
import Idealize.ShloMosaic.Lib.ValueIdx
import Idealize.ShloMosaic.Lib.StableHlo.Predicate

noncomputable section

namespace Cert.ReferenceIdeal.Stages

open Cert.ReferenceIdeal Idealize.ShloMosaic Idealize.ShloMosaic.ValueIdx Cert.FieldPairs
open Facts₀ Facts

variable [Facts]

/-! ## One word at a time

Each stage acts lane by lane, and the divisors are literal scalars, so a lane of floor_divide, remainder and the wrap is
a function of one dividend word and one divisor word. -/

/-- The sign word: 0, 1 or −1. -/
private def sgnW (x : BitVec 32) : BitVec 32 := if x = 0 then 0 else if x.msb then -1 else 1

/-- jnp.floor_divide on one word. -/
private def floorDivW (x c : BitVec 32) : BitVec 32 :=
  Scalar.select
    (IntOp.andi (IntOp.cmpi .ne (sgnW x) (sgnW c)) (IntOp.cmpi .ne (IntOp.remsi .host x c) 0#32))
    (IntOp.subi (IntOp.divsi .host x c) 1#32)
    (IntOp.divsi .host x c)

/-- The divisor jnp.remainder uses, on one word. -/
private def safeDivW (c : BitVec 32) : BitVec 32 := Scalar.select (IntOp.cmpi .eq c 0#32) 1#32 c

/-- jnp.remainder on one word. -/
private def pyModW (x c : BitVec 32) : BitVec 32 :=
  Scalar.select
    (IntOp.andi
      (IntOp.cmpi .ne (IntOp.cmpi .slt (IntOp.remsi .host x (safeDivW c)) 0#32) (IntOp.cmpi .slt (safeDivW c) 0#32))
      (IntOp.cmpi .ne (IntOp.remsi .host x (safeDivW c)) 0#32))
    (IntOp.addi (IntOp.remsi .host x (safeDivW c)) (safeDivW c))
    (IntOp.remsi .host x (safeDivW c))

/-- numpy's wrap on one word. -/
private def wrapW (v : BitVec 32) : BitVec 32 := Scalar.select (IntOp.cmpi .slt v 0#32) (IntOp.addi v 40#32) v

private theorem floorDiv_apply (a : IVec S780 32) (c : BitVec 32) (i : S780.Idx) :
    floorDiv a (constantI S_ 32 c) i = floorDivW (a i) c := rfl

private theorem pyMod_apply (a : IVec S780 32) (c : BitVec 32) (i : S780.Idx) :
    pyMod a (constantI S_ 32 c) i = pyModW (a i) c := rfl

private theorem wrap40_apply (v : IVec S780 32) (i : S780.Idx) : wrap40 v i = wrapW (v i) := rfl

/-! ## Small non-negative words -/

private theorem toNat_ofNat_small (n : ℕ) (hn : n < 2 ^ 31) : (BitVec.ofNat 32 n).toNat = n := by
  rw [BitVec.toNat_ofNat]; exact Nat.mod_eq_of_lt (by omega)

private theorem msb_false_of_lt {x : BitVec 32} (h : x.toNat < 2 ^ 31) : x.msb = false :=
  BitVec.msb_eq_false_iff_two_mul_lt.mpr (by omega)

/-- A divisor strictly between 0 and 2³¹ is neither 0 nor −1: signed division by it meets no corner. -/
private theorem no_corner (x c : BitVec 32) (k : ℕ) (hc : c.toNat = k) (hk0 : 0 < k) (hk : k < 2 ^ 31) :
    ¬ IntOp.SDivCorner x c := by
  rintro (h | ⟨_, h⟩)
  · rw [h] at hc; simp at hc; omega
  · rw [h] at hc
    have : (-1 : BitVec 32).toNat = 4294967295 := by decide
    omega

/-- The truncating signed quotient of two small non-negative words is the natural quotient. -/
private theorem divsi_small (n k : ℕ) (c : BitVec 32) (hn : n < 2 ^ 31) (hc : c.toNat = k) (hk0 : 0 < k) (hk : k < 2 ^ 31) :
    IntOp.divsi .host (BitVec.ofNat 32 n) c = BitVec.ofNat 32 (n / k) := by
  have hx : (BitVec.ofNat 32 n).toNat = n := toNat_ofNat_small n hn
  have hm : (BitVec.ofNat 32 n).msb = false := msb_false_of_lt (by omega)
  have hmc : c.msb = false := msb_false_of_lt (by omega)
  have hq : n / k < 2 ^ 31 := lt_of_le_of_lt (Nat.div_le_self n k) hn
  apply BitVec.eq_of_toNat_eq
  simp only [IntOp.divsi, if_neg (no_corner _ c k hc hk0 hk), BitVec.sdiv_eq, hm, hmc, BitVec.udiv_eq, BitVec.toNat_udiv, hx, hc,
    toNat_ofNat_small _ hq]

/-- The truncating signed remainder of two small non-negative words is the natural remainder. -/
private theorem remsi_small (n k : ℕ) (c : BitVec 32) (hn : n < 2 ^ 31) (hc : c.toNat = k) (hk0 : 0 < k) (hk : k < 2 ^ 31) :
    IntOp.remsi .host (BitVec.ofNat 32 n) c = BitVec.ofNat 32 (n % k) := by
  have hx : (BitVec.ofNat 32 n).toNat = n := toNat_ofNat_small n hn
  have hm : (BitVec.ofNat 32 n).msb = false := msb_false_of_lt (by omega)
  have hmc : c.msb = false := msb_false_of_lt (by omega)
  have hq : n % k < 2 ^ 31 := lt_of_le_of_lt (Nat.mod_le n k) hn
  apply BitVec.eq_of_toNat_eq
  simp only [IntOp.remsi, if_neg (no_corner _ c k hc hk0 hk), BitVec.srem_eq, hm, hmc, BitVec.umod_eq, BitVec.toNat_umod, hx, hc,
    toNat_ofNat_small _ hq]

/-- The sign word of a small positive word is 1. -/
private theorem sgnW_pos {x : BitVec 32} (h0 : 0 < x.toNat) (h : x.toNat < 2 ^ 31) : sgnW x = 1 := by
  have hne : x ≠ 0 := by intro hx; rw [hx] at h0; exact absurd h0 (by decide)
  simp only [sgnW, if_neg hne, msb_false_of_lt h, Bool.false_eq_true, if_false]

/-- A small non-negative word is not below zero. -/
private theorem slt_zero_small {x : BitVec 32} (h : x.toNat < 2 ^ 31) : IntOp.cmpi .slt x 0#32 = 0#1 := by
  apply eq_zero_of_ne_one; intro h1
  have h2 := (StableHlo.Predicate.slt_iff_toNat h (by decide)).mp h1
  have h0 : (0#32 : BitVec 32).toNat = 0 := rfl
  omega

/-- Floor division of small non-negative words: the signs agree unless the dividend is zero, and then the division is
    exact, so no correction is made. -/
private theorem floorDivW_small (n k : ℕ) (c : BitVec 32) (hn : n < 2 ^ 31) (hc : c.toNat = k) (hk0 : 0 < k) (hk : k < 2 ^ 31) :
    floorDivW (BitVec.ofNat 32 n) c = BitVec.ofNat 32 (n / k) := by
  unfold floorDivW
  rw [remsi_small n k c hn hc hk0 hk, divsi_small n k c hn hc hk0 hk]
  have hcond : IntOp.andi (IntOp.cmpi .ne (sgnW (BitVec.ofNat 32 n)) (sgnW c)) (IntOp.cmpi .ne (BitVec.ofNat 32 (n % k)) 0#32) = 0#1 := by
    by_cases h0 : n = 0
    · subst h0
      rw [Nat.zero_mod]
      show (_ &&& BitVec.ofBool (BitVec.ofNat 32 0 != 0#32)) = 0#1
      simp
    · have h1 : sgnW (BitVec.ofNat 32 n) = 1 :=
        sgnW_pos (by rw [toNat_ofNat_small n hn]; omega) (by rw [toNat_ofNat_small n hn]; exact hn)
      have h2 : sgnW c = 1 := sgnW_pos (by omega) (by omega)
      rw [h1, h2]
      show (BitVec.ofBool ((1 : BitVec 32) != 1) &&& _) = 0#1
      simp
  rw [hcond]; exact select_zero _ _

/-- A positive divisor is kept as it is. -/
private theorem safeDivW_pos (c : BitVec 32) (h0 : 0 < c.toNat) : safeDivW c = c := by
  have hne : c ≠ 0#32 := by intro hx; rw [hx] at h0; exact absurd h0 (by decide)
  have hz : IntOp.cmpi .eq c 0#32 = 0#1 := eq_zero_of_ne_one (fun h => hne (StableHlo.Predicate.cmpi_eq_iff.mp h))
  unfold safeDivW
  rw [hz]; exact select_zero _ _

/-- The remainder of small non-negative words: it and the divisor are both non-negative, so no correction is made. -/
private theorem pyModW_small (n k : ℕ) (c : BitVec 32) (hn : n < 2 ^ 31) (hc : c.toNat = k) (hk0 : 0 < k) (hk : k < 2 ^ 31) :
    pyModW (BitVec.ofNat 32 n) c = BitVec.ofNat 32 (n % k) := by
  have hq : n % k < 2 ^ 31 := lt_of_le_of_lt (Nat.mod_le n k) hn
  unfold pyModW
  rw [safeDivW_pos c (by omega), remsi_small n k c hn hc hk0 hk,
    slt_zero_small (x := BitVec.ofNat 32 (n % k)) (by rw [toNat_ofNat_small _ hq]; exact hq),
    slt_zero_small (x := c) (by omega)]
  have h00 : IntOp.cmpi .ne (0#1) (0#1) = 0#1 := by decide
  have hand : ∀ b : BitVec 1, IntOp.andi 0#1 b = 0#1 := by intro b; simp [IntOp.andi]
  rw [h00, hand]; exact select_zero _ _

/-- A small non-negative index is not wrapped. -/
private theorem wrapW_small (m : ℕ) (hm : m < 2 ^ 31) : wrapW (BitVec.ofNat 32 m) = BitVec.ofNat 32 m := by
  unfold wrapW
  rw [slt_zero_small (by rw [toNat_ofNat_small _ hm]; exact hm)]; exact select_zero _ _

/-! ## The two index columns

A flat position is below 1600, so its quotient by 40 is below 40 (the remainder by 40 that follows changes nothing) and
its quotient by 1 is itself; every value met is far below 2³¹. -/

/-- The (wrapped) row index of output row q: its position's quotient by 40. -/
theorem wrap_rowOfPos_eq (q : Fin 780) : wrap40 rowOfPos (ix1 q) = BitVec.ofNat 32 (sel q.val / 40) := by
  have hs : sel q.val < 1600 := sel_lt q.val q.isLt
  rw [wrap40_apply]
  unfold rowOfPos
  rw [pyMod_apply, floorDiv_apply, flatPos_eq q,
    floorDivW_small (sel q.val) 40 40#32 (by omega) rfl (by omega) (by omega),
    pyModW_small (sel q.val / 40) 40 40#32 (by omega) rfl (by omega) (by omega),
    Nat.mod_eq_of_lt (by omega)]
  exact wrapW_small _ (by omega)

/-- The (wrapped) column index of output row q: its position's remainder by 40. -/
theorem wrap_colOfPos_eq (q : Fin 780) : wrap40 colOfPos (ix1 q) = BitVec.ofNat 32 (sel q.val % 40) := by
  have hs : sel q.val < 1600 := sel_lt q.val q.isLt
  rw [wrap40_apply]
  unfold colOfPos
  rw [pyMod_apply, floorDiv_apply, flatPos_eq q,
    floorDivW_small (sel q.val) 1 1#32 (by omega) rfl (by omega) (by omega), Nat.div_one,
    pyModW_small (sel q.val) 40 40#32 (by omega) rfl (by omega) (by omega)]
  exact wrapW_small _ (by omega)

end Cert.ReferenceIdeal.Stages

end
-- ==== Proof.RefValue.lean ====
/-
  The reference's result at an index: the two gathers read the argument at the q-th upper position and at its transpose.
-/
import proofs.«177074_j69715909148812_1_alg».proof.Proof.RefRowCol
import Idealize.ShloMosaic.Lib.Pipeline.Value
import Idealize.ShloMosaic.Lib.StableHlo.Predicate

noncomputable section

namespace Cert.ReferenceIdeal.Stages

open Cert.ReferenceIdeal Idealize.ShloMosaic Idealize.ShloMosaic.ValueIdx Cert.FieldPairs
open Facts₀ Facts

variable [Facts]

/-! ## The array seen as a grid, and the two index columns -/

/-- The grid view at (b, r, c, e) is the array at (b, 40·r + c, e): the two have the same row-major position. -/
private theorem grid4_apply (x : FVec Ideal S2048x1600x64 .f32) (b : Fin 2048) (r c : Fin 40) (e : Fin 64) :
    grid4 x (ix4 b r c e) = x (ix3 b (⟨40 * r.val + c.val, by omega⟩ : Fin 1600) e) := by
  unfold grid4
  refine shapeCast_apply x _ _ _ ?_
  rw [Shape.rowMajor_val_three, Shape.rowMajor_val_four]
  show (b.val * 1600 + (40 * r.val + c.val)) * 64 + e.val = ((b.val * 40 + r.val) * 40 + c.val) * 64 + e.val
  omega

/-- A vector laid out as a [780, 1] column reads, at (q, 0), the vector at q. -/
private theorem col_apply (a : IVec S780 32) (q : Fin 780) :
    broadcastInDim S780x1 ![0] bcast_S780_S780x1_0 a (ix2 q (0 : Fin 1)) = a (ix1 q) := by
  simp only [broadcastInDim]
  congr 1
  funext d
  have hd : d = 0 := Subsingleton.elim _ _
  subst hd
  apply Fin.ext
  split
  · next h1 => exact absurd h1 (by decide)
  · rfl

/-- Column 0 of the pair of index columns is the first vector … -/
private theorem pairIdx_col0 (a b : IVec S780 32) (q : Fin 780) :
    pairIdx a b (ix2 q (0 : Fin 2)) = a (ix1 q) := by
  unfold pairIdx
  refine (concatenate_pair_apply_left 1 _ _ concatenates_S780x1_S780x1_S780x2_d1 _ rfl (ix2 q (0 : Fin 1)) (fun d => by
    match d with
    | ⟨0, _⟩ => rfl
    | ⟨1, _⟩ => rfl)).trans ?_
  exact col_apply a q

/-- … and column 1 the second (the first piece is one column wide). -/
private theorem pairIdx_col1 (a b : IVec S780 32) (q : Fin 780) :
    pairIdx a b (ix2 q (1 : Fin 2)) = b (ix1 q) := by
  unfold pairIdx
  refine (concatenate_pair_apply_right 1 _ _ concatenates_S780x1_S780x1_S780x2_d1 _ rfl rfl (ix2 q (0 : Fin 1)) (fun d hd => by
    match d with
    | ⟨0, _⟩ => rfl
    | ⟨1, _⟩ => exact absurd rfl hd) rfl).trans ?_
  exact col_apply b q

/-! ## The gather with two start columns

  The operand's axes 1 and 2 are collapsed and start-indexed (by the start index's components 0 and 1), its axes 0 and 3
  are offset axes read by the result's axes 0 and 2, and the result's axis 1 is the one batch axis, reading the start
  indices' rows. -/

local notation "gd" => gather_S2048x40x40x64_S780x2_S2048x780x64_02_12_n_n_12_1_20481164

private theorem gd_not_mem0 : (0 : Fin 4) ∉ (gd).startIndexMap := by
  show (0 : Fin 4) ∉ [(1 : Fin 4), 2]; decide
private theorem gd_not_mem3 : (3 : Fin 4) ∉ (gd).startIndexMap := by
  show (3 : Fin 4) ∉ [(1 : Fin 4), 2]; decide
private theorem gd_mem1 : (1 : Fin 4) ∈ (gd).startIndexMap := by
  show (1 : Fin 4) ∈ [(1 : Fin 4), 2]; decide
private theorem gd_mem2 : (2 : Fin 4) ∈ (gd).startIndexMap := by
  show (2 : Fin 4) ∈ [(1 : Fin 4), 2]; decide
private theorem gd_coll1 : (1 : Fin 4) ∈ (gd).collapsedSliceDims := by
  show (1 : Fin 4) ∈ [(1 : Fin 4), 2]; decide
private theorem gd_coll2 : (2 : Fin 4) ∈ (gd).collapsedSliceDims := by
  show (2 : Fin 4) ∈ [(1 : Fin 4), 2]; decide
private theorem gd_kept0 : (0 : Fin 4) ∈ (gd).sKept :=
  (GatherDims.mem_sKept _ _).mpr ⟨by show (0 : Fin 4) ∉ [(1 : Fin 4), 2]; decide, List.not_mem_nil⟩
private theorem gd_kept3 : (3 : Fin 4) ∈ (gd).sKept :=
  (GatherDims.mem_sKept _ _).mpr ⟨by show (3 : Fin 4) ∉ [(1 : Fin 4), 2]; decide, List.not_mem_nil⟩

/-- The gather read at (b, q, e), when row q of the start indices holds the words of r and c, both below 40: the operand
    at (b, r, c, e). A small non-negative word reads signed as itself, and the clamp to [0, 39] leaves it. -/
private theorem gather_pair_apply (y : FVec Ideal S2048x40x40x64 .f32) (idx : IVec S780x2 32) (b : Fin 2048) (q : Fin 780)
    (e : Fin 64) (r c : Fin 40) (hr : idx (ix2 q (0 : Fin 2)) = BitVec.ofNat 32 r.val)
    (hc : idx (ix2 q (1 : Fin 2)) = BitVec.ofNat 32 c.val) :
    Host.gather gd y idx (ix3 b q e) = y (ix4 b r c e) := by
  unfold Host.gather
  congr 1
  funext a
  refine Fin.ext ?_
  match a with
  | ⟨0, _⟩ =>
    -- an offset axis: no start, no batching, the result's coordinate on axis 0
    show GatherDims.start gd (ix3 b q e) idx 0 + GatherDims.batchCoord gd (ix3 b q e) 0 + GatherDims.offCoord gd (ix3 b q e) 0 = b.val
    rw [GatherDims.batchCoord_eq_zero _ _ _ List.not_mem_nil]
    unfold GatherDims.start
    rw [dif_neg gd_not_mem0, Nat.zero_add]
    unfold GatherDims.offCoord
    rw [dif_pos gd_kept0]
    rfl
  | ⟨1, _⟩ =>
    -- a collapsed axis: the start index's component 0, clamped
    show GatherDims.start gd (ix3 b q e) idx 1 + GatherDims.batchCoord gd (ix3 b q e) 1 + GatherDims.offCoord gd (ix3 b q e) 1 = r.val
    rw [GatherDims.batchCoord_eq_zero _ _ _ List.not_mem_nil,
      GatherDims.offCoord_eq_zero _ _ _ (fun h => ((GatherDims.mem_sKept _ _).mp h).1 gd_coll1)]
    simp only [Nat.add_zero]
    unfold GatherDims.start
    rw [dif_pos gd_mem1]
    have hsi : GatherDims.siIdx gd (ix3 b q e) ⟨List.idxOf (1 : Fin 4) (gd).startIndexMap,
        List.idxOf_lt_length_iff.2 gd_mem1⟩ = ix2 q (0 : Fin 2) := by
      funext b'; refine Fin.ext ?_
      match b' with
      | ⟨0, _⟩ => rfl
      | ⟨1, _⟩ => rfl
    rw [hsi, hr, StableHlo.Predicate.toInt_ofNat_small _ (by omega)]
    show min (Int.toNat (r.val : Int)) (40 - 1) = r.val
    rw [Int.toNat_natCast]
    omega
  | ⟨2, _⟩ =>
    -- a collapsed axis: the start index's component 1, clamped
    show GatherDims.start gd (ix3 b q e) idx 2 + GatherDims.batchCoord gd (ix3 b q e) 2 + GatherDims.offCoord gd (ix3 b q e) 2 = c.val
    rw [GatherDims.batchCoord_eq_zero _ _ _ List.not_mem_nil,
      GatherDims.offCoord_eq_zero _ _ _ (fun h => ((GatherDims.mem_sKept _ _).mp h).1 gd_coll2)]
    simp only [Nat.add_zero]
    unfold GatherDims.start
    rw [dif_pos gd_mem2]
    have hsi : GatherDims.siIdx gd (ix3 b q e) ⟨List.idxOf (2 : Fin 4) (gd).startIndexMap,
        List.idxOf_lt_length_iff.2 gd_mem2⟩ = ix2 q (1 : Fin 2) := by
      funext b'; refine Fin.ext ?_
      match b' with
      | ⟨0, _⟩ => rfl
      | ⟨1, _⟩ => rfl
    rw [hsi, hc, StableHlo.Predicate.toInt_ofNat_small _ (by omega)]
    show min (Int.toNat (c.val : Int)) (40 - 1) = c.val
    rw [Int.toNat_natCast]
    omega
  | ⟨3, _⟩ =>
    -- an offset axis: the result's coordinate on axis 2
    show GatherDims.start gd (ix3 b q e) idx 3 + GatherDims.batchCoord gd (ix3 b q e) 3 + GatherDims.offCoord gd (ix3 b q e) 3 = e.val
    rw [GatherDims.batchCoord_eq_zero _ _ _ List.not_mem_nil]
    unfold GatherDims.start
    rw [dif_neg gd_not_mem3, Nat.zero_add]
    unfold GatherDims.offCoord
    rw [dif_pos gd_kept3]
    rfl

/-! ## The result at an index -/

/-- At batch row b, output row q and lane e the reference's result is the product of the argument's entries at flat
    position sel q and at the transposed position. -/
theorem refTerm_apply (x : FVec Ideal S2048x1600x64 .f32) (b : Fin 2048) (q : Fin 780) (e : Fin 64) :
    refTerm x (ix3 b q e)
      = x (ix3 b (⟨sel q.val, sel_lt q.val q.isLt⟩ : Fin 1600) e)
        * x (ix3 b (⟨swap (sel q.val), swap_lt _ (sel_lt q.val q.isLt)⟩ : Fin 1600) e) := by
  have hs : sel q.val < 1600 := sel_lt q.val q.isLt
  have hr : sel q.val / 40 < 40 := by omega
  have hc : sel q.val % 40 < 40 := Nat.mod_lt _ (by decide)
  -- the first gather reads row sel q / 40, column sel q % 40 of the grid: flat position sel q
  have hu : upperPick x (ix3 b q e) = x (ix3 b (⟨sel q.val, hs⟩ : Fin 1600) e) := by
    unfold upperPick
    rw [gather_pair_apply (grid4 x) _ b q e ⟨sel q.val / 40, hr⟩ ⟨sel q.val % 40, hc⟩
      ((pairIdx_col0 _ _ q).trans (wrap_rowOfPos_eq q)) ((pairIdx_col1 _ _ q).trans (wrap_colOfPos_eq q)),
      grid4_apply]
    exact congrArg (fun k : Fin 1600 => x (ix3 b k e)) (Fin.ext (Nat.div_add_mod (sel q.val) 40))
  -- the second reads row sel q % 40, column sel q / 40: the transposed position
  have hl : lowerPick x (ix3 b q e)
      = x (ix3 b (⟨swap (sel q.val), swap_lt _ hs⟩ : Fin 1600) e) := by
    unfold lowerPick
    rw [gather_pair_apply (grid4 x) _ b q e ⟨sel q.val % 40, hc⟩ ⟨sel q.val / 40, hr⟩
      ((pairIdx_col0 _ _ q).trans (wrap_colOfPos_eq q)) ((pairIdx_col1 _ _ q).trans (wrap_rowOfPos_eq q)),
      grid4_apply]
    exact congrArg (fun k : Fin 1600 => x (ix3 b k e)) (Fin.ext rfl)
  show upperPick x (ix3 b q e) * lowerPick x (ix3 b q e) = _
  rw [hu, hl]

end Cert.ReferenceIdeal.Stages

end
-- ==== Proof.RefRunOps.lean ====
/-
  The reference's @main as a list of operations: its 70 statements with the eight calls of outlined functions unfolded are
  155 host operations, one per buffer of the signature after the argument's, in the order of the buffers. They are listed
  here over the literal references, in eight chunks that follow the stages of the computation (a chunk boundary before
  each index table), with the two side conditions the run asks of them.
-/
import proofs.«177074_j69715909148812_1_alg».proof.Proof.RefStages
import proofs.«177074_j69715909148812_1_alg».proof.Proof.Gen.ReferenceIdeal
import Idealize.ShloMosaic.Lib.StableHlo.Run

noncomputable section

namespace Cert.ReferenceIdeal.HandRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- The contents types of the index arithmetic's buffers. -/
abbrev Word (F : FTy → Type) : Type := (⟨S_, .i32⟩ : BufTy).Contents (Elt F)
abbrev Bit (F : FTy → Type) : Type := (⟨S_, .i1⟩ : BufTy).Contents (Elt F)
abbrev Real (F : FTy → Type) : Type := (⟨S_, .f32⟩ : BufTy).Contents (Elt F)
abbrev Sq (F : FTy → Type) : Type := (⟨S40x40, .i32⟩ : BufTy).Contents (Elt F)
abbrev SqBit (F : FTy → Type) : Type := (⟨S40x40, .i1⟩ : BufTy).Contents (Elt F)
abbrev SqReal (F : FTy → Type) : Type := (⟨S40x40, .f32⟩ : BufTy).Contents (Elt F)
abbrev Flat (F : FTy → Type) : Type := (⟨S1600, .i32⟩ : BufTy).Contents (Elt F)
abbrev FlatBit (F : FTy → Type) : Type := (⟨S1600, .i1⟩ : BufTy).Contents (Elt F)
abbrev FlatCol (F : FTy → Type) : Type := (⟨S1600x1, .i32⟩ : BufTy).Contents (Elt F)
abbrev Row (F : FTy → Type) : Type := (⟨S780, .i32⟩ : BufTy).Contents (Elt F)
abbrev RowBit (F : FTy → Type) : Type := (⟨S780, .i1⟩ : BufTy).Contents (Elt F)
abbrev Col (F : FTy → Type) : Type := (⟨S780x1, .i32⟩ : BufTy).Contents (Elt F)
abbrev Pairs (F : FTy → Type) : Type := (⟨S780x2, .i32⟩ : BufTy).Contents (Elt F)
abbrev Grid (F : FTy → Type) : Type := (⟨S2048x40x40x64, .f32⟩ : BufTy).Contents (Elt F)
abbrev Out (F : FTy → Type) : Type := (⟨S2048x780x64, .f32⟩ : BufTy).Contents (Elt F)

/-- Operations 1 … 15: the array regrouped as [2048, 40, 40, 64]; ones, triu(·, k = 1) of them (the outlined @triu), and the
    mask "≠ 0" of the upper positions. -/
abbrev opsA1 : List (HloOp τ sig (Elt F)) :=
  [ StableHlo.reshape main_arg0 main_v0 rfl shapeCasts_S2048x1600x64_S2048x40x40x64,
    StableHlo.nullary main_cst (constant S_ .f32 0x3F800000#32 : Real F),
    StableHlo.unary main_cst main_v1 (broadcastInDim S40x40 ![] bcast_S_S40x40 : Real F → SqReal F),
    StableHlo.nullary main_call0_v0 (iotaInDim S40x40 32 0 : Sq F),
    StableHlo.nullary main_call0_c (constantI S_ 32 0#32 : Word F),
    StableHlo.unary main_call0_c main_call0_v1 (broadcastInDim S40x40 ![] bcast_S_S40x40 : Word F → Sq F),
    StableHlo.binary main_call0_v0 main_call0_v1 main_call0_v2 (addi : Sq F → Sq F → Sq F),
    StableHlo.nullary main_call0_v3 (iotaInDim S40x40 32 1 : Sq F),
    StableHlo.binary main_call0_v2 main_call0_v3 main_call0_v4 (cmpi .sge : Sq F → Sq F → SqBit F),
    StableHlo.nullary main_call0_cst (constant S_ .f32 0x00000000#32 : Real F),
    StableHlo.unary main_call0_cst main_call0_v5 (broadcastInDim S40x40 ![] bcast_S_S40x40 : Real F → SqReal F),
    StableHlo.ternary main_call0_v4 main_call0_v5 main_v1 main_v2 (select : SqBit F → SqReal F → SqReal F → SqReal F),
    StableHlo.nullary main_cst_0 (constant S_ .f32 0x00000000#32 : Real F),
    StableHlo.unary main_cst_0 main_v3 (broadcastInDim S40x40 ![] bcast_S_S40x40 : Real F → SqReal F),
    StableHlo.binary main_v2 main_v3 main_v4 (cmpf .une : SqReal F → SqReal F → SqBit F) ]

/-- Operations 16 … 40: the mask flat and widened to words, its running count (the outlined @cumsum), the count clipped
    below at zero (@clip) and a negative one wrapped by 780, the histogram of these bins (a scatter-add of ones into 780
    zeros), and the histogram's running sum (@cumsum_1). -/
abbrev opsA2 : List (HloOp τ sig (Elt F)) :=
  [ StableHlo.reshape main_v4 main_call1_v0 rfl shapeCasts_S40x40_S1600,
    StableHlo.unary main_call1_v0 main_call1_v1 ((extui 32 · natLt_1_32) : FlatBit F → Flat F),
    StableHlo.nullary main_call1_call0_c (constantI S_ 32 0#32 : Word F),
    StableHlo.unary main_call1_call0_c main_call1_call0_v0 (broadcastInDim S_ ![] bcast_S_S_ : Word F → Word F),
    StableHlo.binary main_call1_v1 main_call1_call0_v0 main_v5 ((fun x v => Host.reduceWindow IntOp.addi ![1600] ![1] ![1599] ![0] x v reduceWindows_S1600_S1600_w1600s1p1599_0 h_S_) : Flat F → Word F → Flat F),
    StableHlo.nullary main_c (constantI S_ 32 0#32 : Word F),
    StableHlo.unary main_c main_v6 (broadcastInDim S780 ![] bcast_S_S780 : Word F → Row F),
    StableHlo.nullary main_c_1 (constantI S_ 32 0#32 : Word F),
    StableHlo.unary main_c_1 main_call2_v0 (id : Word F → Word F),
    StableHlo.unary main_call2_v0 main_call2_v1 (broadcastInDim S1600 ![] bcast_S_S1600 : Word F → Flat F),
    StableHlo.binary main_call2_v1 main_v5 main_v7 (maxsi : Flat F → Flat F → Flat F),
    StableHlo.nullary main_c_2 (constantI S_ 32 0#32 : Word F),
    StableHlo.unary main_c_2 main_v8 (broadcastInDim S1600 ![] bcast_S_S1600 : Word F → Flat F),
    StableHlo.binary main_v7 main_v8 main_v9 (cmpi .slt : Flat F → Flat F → FlatBit F),
    StableHlo.nullary main_c_3 (constantI S_ 32 780#32 : Word F),
    StableHlo.unary main_c_3 main_v10 (broadcastInDim S1600 ![] bcast_S_S1600 : Word F → Flat F),
    StableHlo.binary main_v7 main_v10 main_v11 (addi : Flat F → Flat F → Flat F),
    StableHlo.ternary main_v9 main_v11 main_v7 main_v12 (select : FlatBit F → Flat F → Flat F → Flat F),
    StableHlo.unary main_v12 main_v13 (broadcastInDim S1600x1 ![0] bcast_S1600_S1600x1_0 : Flat F → FlatCol F),
    StableHlo.nullary main_c_4 (constantI S_ 32 1#32 : Word F),
    StableHlo.unary main_c_4 main_v14 (broadcastInDim S1600 ![] bcast_S_S1600 : Word F → Flat F),
    StableHlo.ternary main_v6 main_v13 main_v14 main_v15 ((fun x i u => Host.scatter scatter_S780_S1600x1_S1600_n_0_0_1 IntOp.addi x i u) : Row F → FlatCol F → Flat F → Row F),
    StableHlo.nullary main_call3_call0_c (constantI S_ 32 0#32 : Word F),
    StableHlo.unary main_call3_call0_c main_call3_call0_v0 (broadcastInDim S_ ![] bcast_S_S_ : Word F → Word F),
    StableHlo.binary main_v15 main_call3_call0_v0 main_v16 ((fun x v => Host.reduceWindow IntOp.addi ![780] ![1] ![779] ![0] x v reduceWindows_S780_S780_w780s1p779_0 h_S_) : Row F → Word F → Row F) ]

/-- Operations 41 … 79: the divisor 40; @floor_divide of the flat position by it (quotient, the two signs compared, the
    remainder tested, one subtracted where both say so: @_where's select); the modulus 40; @remainder of the quotient by it (the
    modulus made safe: @_where_3's select; the truncating remainder; the divisor added where its sign differs and it is
    not zero): the row. -/
abbrev opsB : List (HloOp τ sig (Elt F)) :=
  [ StableHlo.nullary main_c_5 (constantI S_ 32 40#32 : Word F),
    StableHlo.unary main_c_5 main_call4_v0 (broadcastInDim S780 ![] bcast_S_S780 : Word F → Row F),
    StableHlo.binary main_v16 main_call4_v0 main_call4_v1 (Host.divsi : Row F → Row F → Row F),
    StableHlo.unary main_v16 main_call4_v2 (signi : Row F → Row F),
    StableHlo.unary main_c_5 main_call4_v3 (signi : Word F → Word F),
    StableHlo.unary main_call4_v3 main_call4_v4 (broadcastInDim S780 ![] bcast_S_S780 : Word F → Row F),
    StableHlo.binary main_call4_v2 main_call4_v4 main_call4_v5 (cmpi .ne : Row F → Row F → RowBit F),
    StableHlo.unary main_c_5 main_call4_v6 (broadcastInDim S780 ![] bcast_S_S780 : Word F → Row F),
    StableHlo.binary main_v16 main_call4_v6 main_call4_v7 (Host.remsi : Row F → Row F → Row F),
    StableHlo.nullary main_call4_c (constantI S_ 32 0#32 : Word F),
    StableHlo.unary main_call4_c main_call4_v8 (broadcastInDim S780 ![] bcast_S_S780 : Word F → Row F),
    StableHlo.binary main_call4_v7 main_call4_v8 main_call4_v9 (cmpi .ne : Row F → Row F → RowBit F),
    StableHlo.binary main_call4_v5 main_call4_v9 main_call4_v10 (andi : RowBit F → RowBit F → RowBit F),
    StableHlo.nullary main_call4_c_0 (constantI S_ 32 1#32 : Word F),
    StableHlo.unary main_call4_c_0 main_call4_v11 (broadcastInDim S780 ![] bcast_S_S780 : Word F → Row F),
    StableHlo.binary main_call4_v1 main_call4_v11 main_call4_v12 (subi : Row F → Row F → Row F),
    StableHlo.ternary main_call4_v10 main_call4_v12 main_call4_v1 main_v17 (select : RowBit F → Row F → Row F → Row F),
    StableHlo.nullary main_c_6 (constantI S_ 32 40#32 : Word F),
    StableHlo.unary main_c_6 main_call5_v0 (id : Word F → Word F),
    StableHlo.nullary main_call5_c (constantI S_ 32 0#32 : Word F),
    StableHlo.binary main_call5_v0 main_call5_c main_call5_v1 (cmpi .eq : Word F → Word F → Bit F),
    StableHlo.nullary main_call5_c_0 (constantI S_ 32 1#32 : Word F),
    StableHlo.ternary main_call5_v1 main_call5_c_0 main_call5_v0 main_call5_v2 (select : Bit F → Word F → Word F → Word F),
    StableHlo.unary main_call5_v2 main_call5_v3 (broadcastInDim S780 ![] bcast_S_S780 : Word F → Row F),
    StableHlo.binary main_v17 main_call5_v3 main_call5_v4 (Host.remsi : Row F → Row F → Row F),
    StableHlo.nullary main_call5_c_1 (constantI S_ 32 0#32 : Word F),
    StableHlo.unary main_call5_c_1 main_call5_v5 (broadcastInDim S780 ![] bcast_S_S780 : Word F → Row F),
    StableHlo.binary main_call5_v4 main_call5_v5 main_call5_v6 (cmpi .ne : Row F → Row F → RowBit F),
    StableHlo.nullary main_call5_c_2 (constantI S_ 32 0#32 : Word F),
    StableHlo.unary main_call5_c_2 main_call5_v7 (broadcastInDim S780 ![] bcast_S_S780 : Word F → Row F),
    StableHlo.binary main_call5_v4 main_call5_v7 main_call5_v8 (cmpi .slt : Row F → Row F → RowBit F),
    StableHlo.nullary main_call5_c_3 (constantI S_ 32 0#32 : Word F),
    StableHlo.binary main_call5_v2 main_call5_c_3 main_call5_v9 (cmpi .slt : Word F → Word F → Bit F),
    StableHlo.unary main_call5_v9 main_call5_v10 (broadcastInDim S780 ![] bcast_S_S780 : Bit F → RowBit F),
    StableHlo.binary main_call5_v8 main_call5_v10 main_call5_v11 (cmpi .ne : RowBit F → RowBit F → RowBit F),
    StableHlo.binary main_call5_v11 main_call5_v6 main_call5_v12 (andi : RowBit F → RowBit F → RowBit F),
    StableHlo.unary main_call5_v2 main_call5_v13 (broadcastInDim S780 ![] bcast_S_S780 : Word F → Row F),
    StableHlo.binary main_call5_v4 main_call5_v13 main_call5_v14 (addi : Row F → Row F → Row F),
    StableHlo.ternary main_call5_v12 main_call5_v14 main_call5_v4 main_v18 (select : RowBit F → Row F → Row F → Row F) ]

/-- Operations 80 … 118: the same two functions once more — the divisor 1, @floor_divide of the flat position by it, the
    modulus 40, @remainder of that quotient by it: the column. -/
abbrev opsC : List (HloOp τ sig (Elt F)) :=
  [ StableHlo.nullary main_c_7 (constantI S_ 32 1#32 : Word F),
    StableHlo.unary main_c_7 main_call6_v0 (broadcastInDim S780 ![] bcast_S_S780 : Word F → Row F),
    StableHlo.binary main_v16 main_call6_v0 main_call6_v1 (Host.divsi : Row F → Row F → Row F),
    StableHlo.unary main_v16 main_call6_v2 (signi : Row F → Row F),
    StableHlo.unary main_c_7 main_call6_v3 (signi : Word F → Word F),
    StableHlo.unary main_call6_v3 main_call6_v4 (broadcastInDim S780 ![] bcast_S_S780 : Word F → Row F),
    StableHlo.binary main_call6_v2 main_call6_v4 main_call6_v5 (cmpi .ne : Row F → Row F → RowBit F),
    StableHlo.unary main_c_7 main_call6_v6 (broadcastInDim S780 ![] bcast_S_S780 : Word F → Row F),
    StableHlo.binary main_v16 main_call6_v6 main_call6_v7 (Host.remsi : Row F → Row F → Row F),
    StableHlo.nullary main_call6_c (constantI S_ 32 0#32 : Word F),
    StableHlo.unary main_call6_c main_call6_v8 (broadcastInDim S780 ![] bcast_S_S780 : Word F → Row F),
    StableHlo.binary main_call6_v7 main_call6_v8 main_call6_v9 (cmpi .ne : Row F → Row F → RowBit F),
    StableHlo.binary main_call6_v5 main_call6_v9 main_call6_v10 (andi : RowBit F → RowBit F → RowBit F),
    StableHlo.nullary main_call6_c_0 (constantI S_ 32 1#32 : Word F),
    StableHlo.unary main_call6_c_0 main_call6_v11 (broadcastInDim S780 ![] bcast_S_S780 : Word F → Row F),
    StableHlo.binary main_call6_v1 main_call6_v11 main_call6_v12 (subi : Row F → Row F → Row F),
    StableHlo.ternary main_call6_v10 main_call6_v12 main_call6_v1 main_v19 (select : RowBit F → Row F → Row F → Row F),
    StableHlo.nullary main_c_8 (constantI S_ 32 40#32 : Word F),
    StableHlo.unary main_c_8 main_call7_v0 (id : Word F → Word F),
    StableHlo.nullary main_call7_c (constantI S_ 32 0#32 : Word F),
    StableHlo.binary main_call7_v0 main_call7_c main_call7_v1 (cmpi .eq : Word F → Word F → Bit F),
    StableHlo.nullary main_call7_c_0 (constantI S_ 32 1#32 : Word F),
    StableHlo.ternary main_call7_v1 main_call7_c_0 main_call7_v0 main_call7_v2 (select : Bit F → Word F → Word F → Word F),
    StableHlo.unary main_call7_v2 main_call7_v3 (broadcastInDim S780 ![] bcast_S_S780 : Word F → Row F),
    StableHlo.binary main_v19 main_call7_v3 main_call7_v4 (Host.remsi : Row F → Row F → Row F),
    StableHlo.nullary main_call7_c_1 (constantI S_ 32 0#32 : Word F),
    StableHlo.unary main_call7_c_1 main_call7_v5 (broadcastInDim S780 ![] bcast_S_S780 : Word F → Row F),
    StableHlo.binary main_call7_v4 main_call7_v5 main_call7_v6 (cmpi .ne : Row F → Row F → RowBit F),
    StableHlo.nullary main_call7_c_2 (constantI S_ 32 0#32 : Word F),
    StableHlo.unary main_call7_c_2 main_call7_v7 (broadcastInDim S780 ![] bcast_S_S780 : Word F → Row F),
    StableHlo.binary main_call7_v4 main_call7_v7 main_call7_v8 (cmpi .slt : Row F → Row F → RowBit F),
    StableHlo.nullary main_call7_c_3 (constantI S_ 32 0#32 : Word F),
    StableHlo.binary main_call7_v2 main_call7_c_3 main_call7_v9 (cmpi .slt : Word F → Word F → Bit F),
    StableHlo.unary main_call7_v9 main_call7_v10 (broadcastInDim S780 ![] bcast_S_S780 : Bit F → RowBit F),
    StableHlo.binary main_call7_v8 main_call7_v10 main_call7_v11 (cmpi .ne : RowBit F → RowBit F → RowBit F),
    StableHlo.binary main_call7_v11 main_call7_v6 main_call7_v12 (andi : RowBit F → RowBit F → RowBit F),
    StableHlo.unary main_call7_v2 main_call7_v13 (broadcastInDim S780 ![] bcast_S_S780 : Word F → Row F),
    StableHlo.binary main_call7_v4 main_call7_v13 main_call7_v14 (addi : Row F → Row F → Row F),
    StableHlo.ternary main_call7_v12 main_call7_v14 main_call7_v4 main_v20 (select : RowBit F → Row F → Row F → Row F) ]

/-- Operations 119 … 134: row and column each wrapped along an axis of extent 40 (40 added where negative), and each as a
    column of indices. -/
abbrev opsD : List (HloOp τ sig (Elt F)) :=
  [ StableHlo.nullary main_c_9 (constantI S_ 32 0#32 : Word F),
    StableHlo.unary main_c_9 main_v21 (broadcastInDim S780 ![] bcast_S_S780 : Word F → Row F),
    StableHlo.binary main_v18 main_v21 main_v22 (cmpi .slt : Row F → Row F → RowBit F),
    StableHlo.nullary main_c_10 (constantI S_ 32 40#32 : Word F),
    StableHlo.unary main_c_10 main_v23 (broadcastInDim S780 ![] bcast_S_S780 : Word F → Row F),
    StableHlo.binary main_v18 main_v23 main_v24 (addi : Row F → Row F → Row F),
    StableHlo.ternary main_v22 main_v24 main_v18 main_v25 (select : RowBit F → Row F → Row F → Row F),
    StableHlo.nullary main_c_11 (constantI S_ 32 0#32 : Word F),
    StableHlo.unary main_c_11 main_v26 (broadcastInDim S780 ![] bcast_S_S780 : Word F → Row F),
    StableHlo.binary main_v20 main_v26 main_v27 (cmpi .slt : Row F → Row F → RowBit F),
    StableHlo.nullary main_c_12 (constantI S_ 32 40#32 : Word F),
    StableHlo.unary main_c_12 main_v28 (broadcastInDim S780 ![] bcast_S_S780 : Word F → Row F),
    StableHlo.binary main_v20 main_v28 main_v29 (addi : Row F → Row F → Row F),
    StableHlo.ternary main_v27 main_v29 main_v20 main_v30 (select : RowBit F → Row F → Row F → Row F),
    StableHlo.unary main_v25 main_v31 (broadcastInDim S780x1 ![0] bcast_S780_S780x1_0 : Row F → Col F),
    StableHlo.unary main_v30 main_v32 (broadcastInDim S780x1 ![0] bcast_S780_S780x1_0 : Row F → Col F) ]

/-- Operations 135 … 146 (to the end of @main's first window): the (row, column) index table and the gather through it;
    the column wrapped once more, and the sign test of the row. -/
abbrev opsE1 : List (HloOp τ sig (Elt F)) :=
  [ StableHlo.binary main_v31 main_v32 main_v33 ((fun a b => concatenate S780x2 1 [⟨S780x1, a⟩, ⟨S780x1, b⟩] concatenates_S780x1_S780x1_S780x2_d1) : Col F → Col F → Pairs F),
    StableHlo.binary main_v0 main_v33 main_v34 ((fun x i => Host.gather gather_S2048x40x40x64_S780x2_S2048x780x64_02_12_n_n_12_1_20481164 x i) : Grid F → Pairs F → Out F),
    StableHlo.nullary main_c_13 (constantI S_ 32 0#32 : Word F),
    StableHlo.unary main_c_13 main_v35 (broadcastInDim S780 ![] bcast_S_S780 : Word F → Row F),
    StableHlo.binary main_v20 main_v35 main_v36 (cmpi .slt : Row F → Row F → RowBit F),
    StableHlo.nullary main_c_14 (constantI S_ 32 40#32 : Word F),
    StableHlo.unary main_c_14 main_v37 (broadcastInDim S780 ![] bcast_S_S780 : Word F → Row F),
    StableHlo.binary main_v20 main_v37 main_v38 (addi : Row F → Row F → Row F),
    StableHlo.ternary main_v36 main_v38 main_v20 main_v39 (select : RowBit F → Row F → Row F → Row F),
    StableHlo.nullary main_c_15 (constantI S_ 32 0#32 : Word F),
    StableHlo.unary main_c_15 main_v40 (broadcastInDim S780 ![] bcast_S_S780 : Word F → Row F),
    StableHlo.binary main_v18 main_v40 main_v41 (cmpi .slt : Row F → Row F → RowBit F) ]

/-- Operations 147 … 152 (the start of @main's second window): the row wrapped once more; both as columns of indices. -/
abbrev opsE2 : List (HloOp τ sig (Elt F)) :=
  [ StableHlo.nullary main_c_16 (constantI S_ 32 40#32 : Word F),
    StableHlo.unary main_c_16 main_v42 (broadcastInDim S780 ![] bcast_S_S780 : Word F → Row F),
    StableHlo.binary main_v18 main_v42 main_v43 (addi : Row F → Row F → Row F),
    StableHlo.ternary main_v41 main_v43 main_v18 main_v44 (select : RowBit F → Row F → Row F → Row F),
    StableHlo.unary main_v39 main_v45 (broadcastInDim S780x1 ![0] bcast_S780_S780x1_0 : Row F → Col F),
    StableHlo.unary main_v44 main_v46 (broadcastInDim S780x1 ![0] bcast_S780_S780x1_0 : Row F → Col F) ]

/-- Operations 153 … 155: the (column, row) index table, the gather through it, and the product of the two gathers. -/
abbrev opsF : List (HloOp τ sig (Elt F)) :=
  [ StableHlo.binary main_v45 main_v46 main_v47 ((fun a b => concatenate S780x2 1 [⟨S780x1, a⟩, ⟨S780x1, b⟩] concatenates_S780x1_S780x1_S780x2_d1) : Col F → Col F → Pairs F),
    StableHlo.binary main_v0 main_v47 main_v48 ((fun x i => Host.gather gather_S2048x40x40x64_S780x2_S2048x780x64_02_12_n_n_12_1_20481164 x i) : Grid F → Pairs F → Out F),
    StableHlo.binary main_v34 main_v48 main_v49 (mulf : Out F → Out F → Out F) ]

/-- @main's 155 operations, in order (the eight calls unfolded). -/
abbrev ops : List (HloOp τ sig (Elt F)) := opsA1 ++ opsA2 ++ opsB ++ opsC ++ opsD ++ opsE1 ++ opsE2 ++ opsF

/-- The signature scopes no TensorCore buffer and no semaphore: a program of tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: each is one of the builders. -/
theorem ops_sub : (ops : List (HloOp τ sig (Elt F))).Forall fun op => op.bufs ⊆ tcRefs τ sig := by
  simp only [List.forall_append, List.forall_cons, List.Forall, nullary_bufs_sub, unary_bufs_sub, binary_bufs_sub,
    ternary_bufs_sub, reshape_bufs_sub, and_self]

/-- Every operation determines its results: each is one of the builders, chunk by chunk. -/
theorem ops_fresh : ∀ op ∈ (ops : List (HloOp τ sig (Elt F))), op.fresh = ∅ := by
  intro op h
  simp only [List.mem_append] at h
  rcases h with ((((((h | h) | h) | h) | h) | h) | h) | h <;>
    ((repeat (cases h with | head => rfl | tail _ h => ?_)); exact nomatch h)

end Cert.ReferenceIdeal.HandRun

end
-- ==== Proof.RefRunEq.lean ====
/-
  The reference's @main IS the straight line of its 155 operations: each call of an outlined function is the function's
  operations over that call's buffers, and the two windows of @main are then two stretches of the line.
-/
import proofs.«177074_j69715909148812_1_alg».proof.Proof.RefRunOps

noncomputable section

namespace Cert.ReferenceIdeal.HandRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-! ## The outlined functions at their calls

Each call of a module-local function is the function's operations over that call's buffers: the body unfolded, the typed
references' transport being the identity at these literal references. -/

attribute [local irreducible] Host.reduceWindow Host.scatter Host.gather concatenate shapeCast in
set_option maxHeartbeats 1000000 in
/-- @triu at its call: operations 4 … 12. -/
theorem triu_eq : fn_triu.body (F := F) (.of main_v1) main_call0
    = seq [ StableHlo.nullary main_call0_v0 (iotaInDim S40x40 32 0 : Sq F),
            StableHlo.nullary main_call0_c (constantI S_ 32 0#32 : Word F),
            StableHlo.unary main_call0_c main_call0_v1 (broadcastInDim S40x40 ![] bcast_S_S40x40 : Word F → Sq F),
            StableHlo.binary main_call0_v0 main_call0_v1 main_call0_v2 (addi : Sq F → Sq F → Sq F),
            StableHlo.nullary main_call0_v3 (iotaInDim S40x40 32 1 : Sq F),
            StableHlo.binary main_call0_v2 main_call0_v3 main_call0_v4 (cmpi .sge : Sq F → Sq F → SqBit F),
            StableHlo.nullary main_call0_cst (constant S_ .f32 0x00000000#32 : Real F),
            StableHlo.unary main_call0_cst main_call0_v5 (broadcastInDim S40x40 ![] bcast_S_S40x40 : Real F → SqReal F),
            StableHlo.ternary main_call0_v4 main_call0_v5 main_v1 main_v2 (select : SqBit F → SqReal F → SqReal F → SqReal F) ] := by
  simp only [fn_triu.body, seq, bind_assoc, pure_bind]
  rfl

attribute [local irreducible] Host.reduceWindow Host.scatter Host.gather concatenate shapeCast in
set_option maxHeartbeats 1000000 in
/-- @cumsum (with @cumsum_0) at its call: operations 16 … 20. -/
theorem cumsum_eq : fn_cumsum.body (F := F) (.of main_v4) main_call1
    = seq [ StableHlo.reshape main_v4 main_call1_v0 rfl shapeCasts_S40x40_S1600,
            StableHlo.unary main_call1_v0 main_call1_v1 ((extui 32 · natLt_1_32) : FlatBit F → Flat F),
            StableHlo.nullary main_call1_call0_c (constantI S_ 32 0#32 : Word F),
            StableHlo.unary main_call1_call0_c main_call1_call0_v0 (broadcastInDim S_ ![] bcast_S_S_ : Word F → Word F),
            StableHlo.binary main_call1_v1 main_call1_call0_v0 main_v5 ((fun x v => Host.reduceWindow IntOp.addi ![1600] ![1] ![1599] ![0] x v reduceWindows_S1600_S1600_w1600s1p1599_0 h_S_) : Flat F → Word F → Flat F) ] := by
  simp only [fn_cumsum.body, fn_cumsum_0.body, seq, bind_assoc, pure_bind]
  rfl

attribute [local irreducible] Host.reduceWindow Host.scatter Host.gather concatenate shapeCast in
set_option maxHeartbeats 1000000 in
/-- @clip at its call: operations 24 … 26. -/
theorem clip_eq : fn_clip.body (F := F) (.of main_v5) (.of main_c_1) main_call2
    = seq [ StableHlo.unary main_c_1 main_call2_v0 (id : Word F → Word F),
            StableHlo.unary main_call2_v0 main_call2_v1 (broadcastInDim S1600 ![] bcast_S_S1600 : Word F → Flat F),
            StableHlo.binary main_call2_v1 main_v5 main_v7 (maxsi : Flat F → Flat F → Flat F) ] := by
  simp only [fn_clip.body, seq, bind_assoc, pure_bind]
  rfl

attribute [local irreducible] Host.reduceWindow Host.scatter Host.gather concatenate shapeCast in
set_option maxHeartbeats 1000000 in
/-- @cumsum_1 (that is @cumsum_2) at its call: operations 38 … 40. -/
theorem cumsum1_eq : fn_cumsum_1.body (F := F) (.of main_v15) main_call3
    = seq [ StableHlo.nullary main_call3_call0_c (constantI S_ 32 0#32 : Word F),
            StableHlo.unary main_call3_call0_c main_call3_call0_v0 (broadcastInDim S_ ![] bcast_S_S_ : Word F → Word F),
            StableHlo.binary main_v15 main_call3_call0_v0 main_v16 ((fun x v => Host.reduceWindow IntOp.addi ![780] ![1] ![779] ![0] x v reduceWindows_S780_S780_w780s1p779_0 h_S_) : Row F → Word F → Row F) ] := by
  simp only [fn_cumsum_1.body, fn_cumsum_2.body, seq, bind_assoc, pure_bind]
  rfl

attribute [local irreducible] Host.reduceWindow Host.scatter Host.gather concatenate shapeCast in
set_option maxHeartbeats 1000000 in
/-- @floor_divide (with @_where) at its first call: operations 42 … 57. -/
theorem floorDivRow_eq : fn_floor_divide.body (F := F) (.of main_v16) (.of main_c_5) main_call4
    = seq [ StableHlo.unary main_c_5 main_call4_v0 (broadcastInDim S780 ![] bcast_S_S780 : Word F → Row F),
            StableHlo.binary main_v16 main_call4_v0 main_call4_v1 (Host.divsi : Row F → Row F → Row F),
            StableHlo.unary main_v16 main_call4_v2 (signi : Row F → Row F),
            StableHlo.unary main_c_5 main_call4_v3 (signi : Word F → Word F),
            StableHlo.unary main_call4_v3 main_call4_v4 (broadcastInDim S780 ![] bcast_S_S780 : Word F → Row F),
            StableHlo.binary main_call4_v2 main_call4_v4 main_call4_v5 (cmpi .ne : Row F → Row F → RowBit F),
            StableHlo.unary main_c_5 main_call4_v6 (broadcastInDim S780 ![] bcast_S_S780 : Word F → Row F),
            StableHlo.binary main_v16 main_call4_v6 main_call4_v7 (Host.remsi : Row F → Row F → Row F),
            StableHlo.nullary main_call4_c (constantI S_ 32 0#32 : Word F),
            StableHlo.unary main_call4_c main_call4_v8 (broadcastInDim S780 ![] bcast_S_S780 : Word F → Row F),
            StableHlo.binary main_call4_v7 main_call4_v8 main_call4_v9 (cmpi .ne : Row F → Row F → RowBit F),
            StableHlo.binary main_call4_v5 main_call4_v9 main_call4_v10 (andi : RowBit F → RowBit F → RowBit F),
            StableHlo.nullary main_call4_c_0 (constantI S_ 32 1#32 : Word F),
            StableHlo.unary main_call4_c_0 main_call4_v11 (broadcastInDim S780 ![] bcast_S_S780 : Word F → Row F),
            StableHlo.binary main_call4_v1 main_call4_v11 main_call4_v12 (subi : Row F → Row F → Row F),
            StableHlo.ternary main_call4_v10 main_call4_v12 main_call4_v1 main_v17 (select : RowBit F → Row F → Row F → Row F) ] := by
  simp only [fn_floor_divide.body, fn_where.body, seq, bind_assoc, pure_bind]
  rfl

attribute [local irreducible] Host.reduceWindow Host.scatter Host.gather concatenate shapeCast in
set_option maxHeartbeats 1000000 in
/-- @remainder (with @_where_3) at its first call: operations 59 … 79. -/
theorem remainderRow_eq : fn_remainder.body (F := F) (.of main_v17) (.of main_c_6) main_call5
    = seq [ StableHlo.unary main_c_6 main_call5_v0 (id : Word F → Word F),
            StableHlo.nullary main_call5_c (constantI S_ 32 0#32 : Word F),
            StableHlo.binary main_call5_v0 main_call5_c main_call5_v1 (cmpi .eq : Word F → Word F → Bit F),
            StableHlo.nullary main_call5_c_0 (constantI S_ 32 1#32 : Word F),
            StableHlo.ternary main_call5_v1 main_call5_c_0 main_call5_v0 main_call5_v2 (select : Bit F → Word F → Word F → Word F),
            StableHlo.unary main_call5_v2 main_call5_v3 (broadcastInDim S780 ![] bcast_S_S780 : Word F → Row F),
            StableHlo.binary main_v17 main_call5_v3 main_call5_v4 (Host.remsi : Row F → Row F → Row F),
            StableHlo.nullary main_call5_c_1 (constantI S_ 32 0#32 : Word F),
            StableHlo.unary main_call5_c_1 main_call5_v5 (broadcastInDim S780 ![] bcast_S_S780 : Word F → Row F),
            StableHlo.binary main_call5_v4 main_call5_v5 main_call5_v6 (cmpi .ne : Row F → Row F → RowBit F),
            StableHlo.nullary main_call5_c_2 (constantI S_ 32 0#32 : Word F),
            StableHlo.unary main_call5_c_2 main_call5_v7 (broadcastInDim S780 ![] bcast_S_S780 : Word F → Row F),
            StableHlo.binary main_call5_v4 main_call5_v7 main_call5_v8 (cmpi .slt : Row F → Row F → RowBit F),
            StableHlo.nullary main_call5_c_3 (constantI S_ 32 0#32 : Word F),
            StableHlo.binary main_call5_v2 main_call5_c_3 main_call5_v9 (cmpi .slt : Word F → Word F → Bit F),
            StableHlo.unary main_call5_v9 main_call5_v10 (broadcastInDim S780 ![] bcast_S_S780 : Bit F → RowBit F),
            StableHlo.binary main_call5_v8 main_call5_v10 main_call5_v11 (cmpi .ne : RowBit F → RowBit F → RowBit F),
            StableHlo.binary main_call5_v11 main_call5_v6 main_call5_v12 (andi : RowBit F → RowBit F → RowBit F),
            StableHlo.unary main_call5_v2 main_call5_v13 (broadcastInDim S780 ![] bcast_S_S780 : Word F → Row F),
            StableHlo.binary main_call5_v4 main_call5_v13 main_call5_v14 (addi : Row F → Row F → Row F),
            StableHlo.ternary main_call5_v12 main_call5_v14 main_call5_v4 main_v18 (select : RowBit F → Row F → Row F → Row F) ] := by
  simp only [fn_remainder.body, fn_where_3.body, seq, bind_assoc, pure_bind]
  rfl

attribute [local irreducible] Host.reduceWindow Host.scatter Host.gather concatenate shapeCast in
set_option maxHeartbeats 1000000 in
/-- @floor_divide at its second call: operations 81 … 96. -/
theorem floorDivCol_eq : fn_floor_divide.body (F := F) (.of main_v16) (.of main_c_7) main_call6
    = seq [ StableHlo.unary main_c_7 main_call6_v0 (broadcastInDim S780 ![] bcast_S_S780 : Word F → Row F),
            StableHlo.binary main_v16 main_call6_v0 main_call6_v1 (Host.divsi : Row F → Row F → Row F),
            StableHlo.unary main_v16 main_call6_v2 (signi : Row F → Row F),
            StableHlo.unary main_c_7 main_call6_v3 (signi : Word F → Word F),
            StableHlo.unary main_call6_v3 main_call6_v4 (broadcastInDim S780 ![] bcast_S_S780 : Word F → Row F),
            StableHlo.binary main_call6_v2 main_call6_v4 main_call6_v5 (cmpi .ne : Row F → Row F → RowBit F),
            StableHlo.unary main_c_7 main_call6_v6 (broadcastInDim S780 ![] bcast_S_S780 : Word F → Row F),
            StableHlo.binary main_v16 main_call6_v6 main_call6_v7 (Host.remsi : Row F → Row F → Row F),
            StableHlo.nullary main_call6_c (constantI S_ 32 0#32 : Word F),
            StableHlo.unary main_call6_c main_call6_v8 (broadcastInDim S780 ![] bcast_S_S780 : Word F → Row F),
            StableHlo.binary main_call6_v7 main_call6_v8 main_call6_v9 (cmpi .ne : Row F → Row F → RowBit F),
            StableHlo.binary main_call6_v5 main_call6_v9 main_call6_v10 (andi : RowBit F → RowBit F → RowBit F),
            StableHlo.nullary main_call6_c_0 (constantI S_ 32 1#32 : Word F),
            StableHlo.unary main_call6_c_0 main_call6_v11 (broadcastInDim S780 ![] bcast_S_S780 : Word F → Row F),
            StableHlo.binary main_call6_v1 main_call6_v11 main_call6_v12 (subi : Row F → Row F → Row F),
            StableHlo.ternary main_call6_v10 main_call6_v12 main_call6_v1 main_v19 (select : RowBit F → Row F → Row F → Row F) ] := by
  simp only [fn_floor_divide.body, fn_where.body, seq, bind_assoc, pure_bind]
  rfl

attribute [local irreducible] Host.reduceWindow Host.scatter Host.gather concatenate shapeCast in
set_option maxHeartbeats 1000000 in
/-- @remainder at its second call: operations 98 … 118. -/
theorem remainderCol_eq : fn_remainder.body (F := F) (.of main_v19) (.of main_c_8) main_call7
    = seq [ StableHlo.unary main_c_8 main_call7_v0 (id : Word F → Word F),
            StableHlo.nullary main_call7_c (constantI S_ 32 0#32 : Word F),
            StableHlo.binary main_call7_v0 main_call7_c main_call7_v1 (cmpi .eq : Word F → Word F → Bit F),
            StableHlo.nullary main_call7_c_0 (constantI S_ 32 1#32 : Word F),
            StableHlo.ternary main_call7_v1 main_call7_c_0 main_call7_v0 main_call7_v2 (select : Bit F → Word F → Word F → Word F),
            StableHlo.unary main_call7_v2 main_call7_v3 (broadcastInDim S780 ![] bcast_S_S780 : Word F → Row F),
            StableHlo.binary main_v19 main_call7_v3 main_call7_v4 (Host.remsi : Row F → Row F → Row F),
            StableHlo.nullary main_call7_c_1 (constantI S_ 32 0#32 : Word F),
            StableHlo.unary main_call7_c_1 main_call7_v5 (broadcastInDim S780 ![] bcast_S_S780 : Word F → Row F),
            StableHlo.binary main_call7_v4 main_call7_v5 main_call7_v6 (cmpi .ne : Row F → Row F → RowBit F),
            StableHlo.nullary main_call7_c_2 (constantI S_ 32 0#32 : Word F),
            StableHlo.unary main_call7_c_2 main_call7_v7 (broadcastInDim S780 ![] bcast_S_S780 : Word F → Row F),
            StableHlo.binary main_call7_v4 main_call7_v7 main_call7_v8 (cmpi .slt : Row F → Row F → RowBit F),
            StableHlo.nullary main_call7_c_3 (constantI S_ 32 0#32 : Word F),
            StableHlo.binary main_call7_v2 main_call7_c_3 main_call7_v9 (cmpi .slt : Word F → Word F → Bit F),
            StableHlo.unary main_call7_v9 main_call7_v10 (broadcastInDim S780 ![] bcast_S_S780 : Bit F → RowBit F),
            StableHlo.binary main_call7_v8 main_call7_v10 main_call7_v11 (cmpi .ne : RowBit F → RowBit F → RowBit F),
            StableHlo.binary main_call7_v11 main_call7_v6 main_call7_v12 (andi : RowBit F → RowBit F → RowBit F),
            StableHlo.unary main_call7_v2 main_call7_v13 (broadcastInDim S780 ![] bcast_S_S780 : Word F → Row F),
            StableHlo.binary main_call7_v4 main_call7_v13 main_call7_v14 (addi : Row F → Row F → Row F),
            StableHlo.ternary main_call7_v12 main_call7_v14 main_call7_v4 main_v20 (select : RowBit F → Row F → Row F → Row F) ] := by
  simp only [fn_remainder.body, fn_where_3.body, seq, bind_assoc, pure_bind]
  rfl

set_option maxRecDepth 8192 in
set_option maxHeartbeats 2000000 in
/-- @main's first window is operations 1 … 146: each call replaced by its function's operations, both sides are one chain
    of steps once sequencing is re-associated. -/
theorem main_part0_eq (c : Dev nD) :
    main_part0 (F := F) c = seq (opsA1 ++ opsA2 ++ opsB ++ opsC ++ opsD ++ opsE1) := by
  simp only [main_part0, triu_eq, cumsum_eq, clip_eq, cumsum1_eq, floorDivRow_eq, remainderRow_eq, floorDivCol_eq,
    remainderCol_eq, seq_append, seq, bind_assoc, pure_bind]
  rfl

/-- @main's second window is operations 147 … 155. -/
theorem main_part1_eq (c : Dev nD) : main_part1 (F := F) c = seq (opsE2 ++ opsF) := by
  simp only [main_part1, seq_append, seq, bind_assoc, pure_bind]

/-- @main is the straight line of its 155 operations. -/
theorem main_eq (c : Dev nD) : main (F := F) c = seq ops := by
  have h : (ops : List (HloOp τ sig (Elt F))) = (opsA1 ++ opsA2 ++ opsB ++ opsC ++ opsD ++ opsE1) ++ (opsE2 ++ opsF) := by
    simp only [List.append_assoc]
  rw [h, seq_append, ← main_part0_eq c, ← main_part1_eq c]
  rfl

end Cert.ReferenceIdeal.HandRun

end
-- ==== Proof.RefRunVal.lean ====
/-
  The value the reference's line of operations leaves: chunk by chunk, what a chunk writes into the buffers later chunks read
  as a function of what it reads, and that it leaves the other buffers alone; composed, the result buffer holds refTerm of
  the argument and the argument's buffer is untouched.
-/
import proofs.«177074_j69715909148812_1_alg».proof.Proof.RefRunOps
import Idealize.ShloMosaic.Lib.Pipeline.Frame

noncomputable section

namespace Cert.ReferenceIdeal.HandRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-! ## The values, chunk by chunk

What each chunk leaves in the buffers a later chunk reads, as a function of what it finds in the ones it reads; a buffer the
chunk does not write keeps its contents. Each is read off the fold: an operation's result at its own buffer is its function
of its operands' contents, at any other buffer what was there. -/

section Values

theorem A1_v4 (V : Valuation τ sig (Elt Ideal)) :
    after (opsA1 (F := Ideal)) V (main_v4 : DevRef τ sig) = upperMask := by
  after_results_simp
  unfold upperMask triuOnes lowerMask
  rfl

theorem A1_v0 (V : Valuation τ sig (Elt Ideal)) :
    after (opsA1 (F := Ideal)) V (main_v0 : DevRef τ sig) = grid4 (V (main_arg0 : DevRef τ sig)) := by
  after_results_simp
  rfl

theorem A1_arg0 (V : Valuation τ sig (Elt F)) :
    after (opsA1 (F := F)) V (main_arg0 : DevRef τ sig) = V (main_arg0 : DevRef τ sig) := by
  after_results_simp

theorem A2_v16 (V : Valuation τ sig (Elt Ideal)) (h : V (main_v4 : DevRef τ sig) = upperMask) :
    after (opsA2 (F := Ideal)) V (main_v16 : DevRef τ sig) = flatPos := by
  after_results_simp
  rw [h]
  unfold flatPos hist binOf clipped runCount upperWords
  rfl

theorem A2_v0 (V : Valuation τ sig (Elt F)) :
    after (opsA2 (F := F)) V (main_v0 : DevRef τ sig) = V (main_v0 : DevRef τ sig) := by
  after_results_simp

theorem A2_arg0 (V : Valuation τ sig (Elt F)) :
    after (opsA2 (F := F)) V (main_arg0 : DevRef τ sig) = V (main_arg0 : DevRef τ sig) := by
  after_results_simp

theorem B_v18 (V : Valuation τ sig (Elt F)) :
    after (opsB (F := F)) V (main_v18 : DevRef τ sig)
      = pyMod (floorDiv (V (main_v16 : DevRef τ sig)) (constantI S_ 32 40#32)) (constantI S_ 32 40#32) := by
  after_results_simp
  unfold pyMod safeDiv floorDiv
  rfl

theorem B_v0 (V : Valuation τ sig (Elt F)) :
    after (opsB (F := F)) V (main_v0 : DevRef τ sig) = V (main_v0 : DevRef τ sig) := by
  after_results_simp

theorem B_v16 (V : Valuation τ sig (Elt F)) :
    after (opsB (F := F)) V (main_v16 : DevRef τ sig) = V (main_v16 : DevRef τ sig) := by
  after_results_simp

theorem B_arg0 (V : Valuation τ sig (Elt F)) :
    after (opsB (F := F)) V (main_arg0 : DevRef τ sig) = V (main_arg0 : DevRef τ sig) := by
  after_results_simp

theorem C_v20 (V : Valuation τ sig (Elt F)) :
    after (opsC (F := F)) V (main_v20 : DevRef τ sig)
      = pyMod (floorDiv (V (main_v16 : DevRef τ sig)) (constantI S_ 32 1#32)) (constantI S_ 32 40#32) := by
  after_results_simp
  unfold pyMod safeDiv floorDiv
  rfl

theorem C_v0 (V : Valuation τ sig (Elt F)) :
    after (opsC (F := F)) V (main_v0 : DevRef τ sig) = V (main_v0 : DevRef τ sig) := by
  after_results_simp

theorem C_v18 (V : Valuation τ sig (Elt F)) :
    after (opsC (F := F)) V (main_v18 : DevRef τ sig) = V (main_v18 : DevRef τ sig) := by
  after_results_simp

theorem C_arg0 (V : Valuation τ sig (Elt F)) :
    after (opsC (F := F)) V (main_arg0 : DevRef τ sig) = V (main_arg0 : DevRef τ sig) := by
  after_results_simp

theorem D_v31 (V : Valuation τ sig (Elt F)) :
    after (opsD (F := F)) V (main_v31 : DevRef τ sig)
      = broadcastInDim S780x1 ![0] bcast_S780_S780x1_0 (wrap40 (V (main_v18 : DevRef τ sig))) := by
  after_results_simp
  unfold wrap40
  rfl

theorem D_v32 (V : Valuation τ sig (Elt F)) :
    after (opsD (F := F)) V (main_v32 : DevRef τ sig)
      = broadcastInDim S780x1 ![0] bcast_S780_S780x1_0 (wrap40 (V (main_v20 : DevRef τ sig))) := by
  after_results_simp
  unfold wrap40
  rfl

theorem D_v0 (V : Valuation τ sig (Elt F)) :
    after (opsD (F := F)) V (main_v0 : DevRef τ sig) = V (main_v0 : DevRef τ sig) := by
  after_results_simp

theorem D_v18 (V : Valuation τ sig (Elt F)) :
    after (opsD (F := F)) V (main_v18 : DevRef τ sig) = V (main_v18 : DevRef τ sig) := by
  after_results_simp

theorem D_v20 (V : Valuation τ sig (Elt F)) :
    after (opsD (F := F)) V (main_v20 : DevRef τ sig) = V (main_v20 : DevRef τ sig) := by
  after_results_simp

theorem D_arg0 (V : Valuation τ sig (Elt F)) :
    after (opsD (F := F)) V (main_arg0 : DevRef τ sig) = V (main_arg0 : DevRef τ sig) := by
  after_results_simp

theorem E1_v34 (V : Valuation τ sig (Elt F)) :
    after (opsE1 (F := F)) V (main_v34 : DevRef τ sig)
      = Host.gather gather_S2048x40x40x64_S780x2_S2048x780x64_02_12_n_n_12_1_20481164 (V (main_v0 : DevRef τ sig))
          (concatenate S780x2 1 [⟨S780x1, V (main_v31 : DevRef τ sig)⟩, ⟨S780x1, V (main_v32 : DevRef τ sig)⟩]
            concatenates_S780x1_S780x1_S780x2_d1) := by
  after_results_simp

theorem E1_v39 (V : Valuation τ sig (Elt F)) :
    after (opsE1 (F := F)) V (main_v39 : DevRef τ sig) = wrap40 (V (main_v20 : DevRef τ sig)) := by
  after_results_simp
  unfold wrap40
  rfl

theorem E1_v41 (V : Valuation τ sig (Elt F)) :
    after (opsE1 (F := F)) V (main_v41 : DevRef τ sig)
      = cmpi .slt (V (main_v18 : DevRef τ sig)) (broadcastInDim S780 ![] bcast_S_S780 (constantI S_ 32 0#32)) := by
  after_results_simp

theorem E1_v0 (V : Valuation τ sig (Elt F)) :
    after (opsE1 (F := F)) V (main_v0 : DevRef τ sig) = V (main_v0 : DevRef τ sig) := by
  after_results_simp

theorem E1_v18 (V : Valuation τ sig (Elt F)) :
    after (opsE1 (F := F)) V (main_v18 : DevRef τ sig) = V (main_v18 : DevRef τ sig) := by
  after_results_simp

theorem E1_arg0 (V : Valuation τ sig (Elt F)) :
    after (opsE1 (F := F)) V (main_arg0 : DevRef τ sig) = V (main_arg0 : DevRef τ sig) := by
  after_results_simp

theorem E2_v45 (V : Valuation τ sig (Elt F)) :
    after (opsE2 (F := F)) V (main_v45 : DevRef τ sig)
      = broadcastInDim S780x1 ![0] bcast_S780_S780x1_0 (V (main_v39 : DevRef τ sig)) := by
  after_results_simp

theorem E2_v46 (V : Valuation τ sig (Elt F)) :
    after (opsE2 (F := F)) V (main_v46 : DevRef τ sig)
      = broadcastInDim S780x1 ![0] bcast_S780_S780x1_0
          (select (V (main_v41 : DevRef τ sig))
            (addi (V (main_v18 : DevRef τ sig)) (broadcastInDim S780 ![] bcast_S_S780 (constantI S_ 32 40#32)))
            (V (main_v18 : DevRef τ sig))) := by
  after_results_simp

theorem E2_v34 (V : Valuation τ sig (Elt F)) :
    after (opsE2 (F := F)) V (main_v34 : DevRef τ sig) = V (main_v34 : DevRef τ sig) := by
  after_results_simp

theorem E2_v0 (V : Valuation τ sig (Elt F)) :
    after (opsE2 (F := F)) V (main_v0 : DevRef τ sig) = V (main_v0 : DevRef τ sig) := by
  after_results_simp

theorem E2_arg0 (V : Valuation τ sig (Elt F)) :
    after (opsE2 (F := F)) V (main_arg0 : DevRef τ sig) = V (main_arg0 : DevRef τ sig) := by
  after_results_simp

theorem F_v49 (V : Valuation τ sig (Elt F)) :
    after (opsF (F := F)) V (main_v49 : DevRef τ sig)
      = mulf (V (main_v34 : DevRef τ sig))
          (Host.gather gather_S2048x40x40x64_S780x2_S2048x780x64_02_12_n_n_12_1_20481164 (V (main_v0 : DevRef τ sig))
            (concatenate S780x2 1 [⟨S780x1, V (main_v45 : DevRef τ sig)⟩, ⟨S780x1, V (main_v46 : DevRef τ sig)⟩]
              concatenates_S780x1_S780x1_S780x2_d1)) := by
  after_results_simp

theorem F_arg0 (V : Valuation τ sig (Elt F)) :
    after (opsF (F := F)) V (main_arg0 : DevRef τ sig) = V (main_arg0 : DevRef τ sig) := by
  after_results_simp

end Values

/-! ## The chunks composed -/

attribute [local irreducible] Host.reduceWindow Host.scatter Host.gather concatenate shapeCast in
/-- The result buffer after the whole line: each chunk's value read at what the chunks before it left, the buffers in
    between carried through unchanged; what comes out is the reference's term, stage for stage. -/
theorem out_eq (V : Valuation τ sig (Elt Ideal)) :
    after (ops (F := Ideal)) V (main_v49 : DevRef τ sig) = refTerm (V (main_arg0 : DevRef τ sig)) := by
  simp only [ops, after_append]
  rw [F_v49, E2_v34, E2_v0, E2_v45, E2_v46, E1_v34, E1_v0, E1_v39, E1_v41, E1_v18, D_v31, D_v32, D_v0, D_v18, D_v20,
    C_v20, C_v0, C_v18, B_v18, B_v0, B_v16, A2_v16 (after opsA1 V) (A1_v4 V), A2_v0, A1_v0]
  unfold refTerm upperPick lowerPick pairIdx rowOfPos colOfPos wrap40
  rfl

/-- No operation writes the argument's buffer. -/
theorem arg0_eq (V : Valuation τ sig (Elt F)) :
    after (ops (F := F)) V (main_arg0 : DevRef τ sig) = V (main_arg0 : DevRef τ sig) := by
  simp only [ops, after_append]
  rw [F_arg0, E2_arg0, E1_arg0, D_arg0, C_arg0, B_arg0, A2_arg0, A1_arg0]

end Cert.ReferenceIdeal.HandRun

end
-- ==== Proof.RefRun.lean ====
/-
  The reference's run: @main is a straight line of host operations (the functions jax outlined unfolded at their
  calls); every weakly fair execution ends with the result buffer at refTerm of the argument and the argument unchanged.
-/
import proofs.«177074_j69715909148812_1_alg».proof.Proof.RefStages
import proofs.«177074_j69715909148812_1_alg».proof.Proof.Gen.ReferenceIdeal
import Idealize.ShloMosaic.Lib.StableHlo.Run
import proofs.«177074_j69715909148812_1_alg».proof.Proof.RefRunEq
import proofs.«177074_j69715909148812_1_alg».proof.Proof.RefRunVal

noncomputable section

namespace Cert.ReferenceIdeal.HandRun

open Cert.ReferenceIdeal Cert.ReferenceIdeal.Gen Cert.ReferenceIdeal.Stages Idealize.ShloMosaic Idealize.ShloMosaic.TcCoe Idealize.SL.Sem Idealize.ShloMosaic.StableHlo

/-- The line's run (every weakly fair execution terminates with each buffer at the fold of the operations over the launch
    contents), read at the result buffer and at the argument's. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v49) = refTerm (m ((c.tc : Thread nD τ).loc main_arg0))
      ∧ r.2.mem ((c.tc : Thread nD τ).loc main_arg0) = m ((c.tc : Thread nD τ).loc main_arg0) :=
  (θ_run (defs (F := Ideal)) _ _).mono
    (fun _ h c => ⟨(h c main_v49).trans (out_eq _), (h c main_arg0).trans (arg0_eq _)⟩)
    (run_seq scopedRefs_eq scopedSems_eq defs main (fun _ => ops) main_eq (fun _ => ops_sub) m ρ (fun _ => ops_fresh))

end Cert.ReferenceIdeal.HandRun

end
-- ==== Proof.lean ====
/-
  The certificate of the field-aware pairwise product: for every pair of fields i < j of a 40 × 40 grid, in row-major
  order of (i, j), the kernel multiplies x[b, 40·i + j, :] by x[b, 40·j + i, :].

  Over the extended reals both programs compute the same array, the pair product of the argument
  (PairProduct: at output row q, the entry at the q-th upper position times the entry at its transpose):

  * the kernel's 128 grid points each write 16 batch rows; a point's 39 stores, one per field, write that field's run
    of pairs, and read back together they are the pair product of the point's input block (KernelStore, KernelPieces,
    KernelValue);
  * the reference finds the q-th upper position at run time, by counting over the mask of upper positions, and gathers
    the two entries (RefStages names the stages; RefCount, RefHist, RefFlat, RefRowCol and RefValue read them; RefRun
    is its run);
  * the two orders agree because the counting enumerates the upper positions in increasing flat order, which is the
    order of the kernel's fields and, within a field, of its pairs (PairOrder).

  No float law is used beyond the same product of the same two entries on both sides, so the precondition (finite
  inputs) is never opened. Nothing was rewritten by the idealization, so preserves is trivial. The frames of the two
  kernel programs are the generated frame runs; the reference's frame is its run with the result dropped.
-/
import proofs.«177074_j69715909148812_1_alg».proof.Defs
import proofs.«177074_j69715909148812_1_alg».proof.Proof.Gen.Kernel
import proofs.«177074_j69715909148812_1_alg».proof.Proof.Gen.KernelIdeal
import proofs.«177074_j69715909148812_1_alg».proof.Proof.Gen.ReferenceIdeal
import proofs.«177074_j69715909148812_1_alg».proof.Proof.Gen.Pre_finite_inputs
import proofs.«177074_j69715909148812_1_alg».proof.Proof.KernelFrame
import proofs.«177074_j69715909148812_1_alg».proof.Proof.KernelValue
import proofs.«177074_j69715909148812_1_alg».proof.Proof.RefValue
import proofs.«177074_j69715909148812_1_alg».proof.Proof.RefRun

noncomputable section

namespace Cert.Proof

open Idealize.ShloMosaic Idealize.ShloMosaic.TcCoe Idealize.ShloMosaic.ValueIdx Idealize.SL.Sem Cert.FieldPairs

/-- The reference's result is the pair product of its argument: index by index, the two gathered entries are the ones
    at the q-th upper position and at its transpose. -/
theorem refTerm_eq (x : FVec Ideal Cert.ReferenceIdeal.S2048x1600x64 .f32) :
    Cert.ReferenceIdeal.Stages.refTerm x = pairProd (B := 2048) x := by
  funext y
  rw [eq_ix3 (n0 := 2048) (n1 := 780) (n2 := 64) y]
  exact Cert.ReferenceIdeal.Stages.refTerm_apply x (y 0) (y 1) (y 2)

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.HandRun.run m ρ)

/-- Both idealized programs end with the pair product of the (agreeing) arguments. -/
theorem algebraic : Cert.algebraic_KernelIdeal_ReferenceIdeal := by
  intro m ρ m' ρ' _ hagree
  refine ⟨fun c => pairProd (B := 2048) (m ((c.tc : Thread Cert.KernelIdeal.nD Cert.KernelIdeal.τ).loc Cert.KernelIdeal.main_arg0)),
    Cert.KernelIdeal.HandValue.run m ρ, ?_⟩
  refine (θ_run Cert.ReferenceIdeal.defs _ _).mono (fun _ h c => ⟨(h c).1.trans ?_, (h c).2⟩)
    (Cert.ReferenceIdeal.HandRun.run m' ρ')
  rw [refTerm_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
